-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x6400000 : Shape := ⟨2, ![2, 6400000]⟩
abbrev S200000 : Shape := ⟨1, ![200000]⟩
abbrev S4x1x64 : Shape := ⟨3, ![4, 1, 64]⟩
abbrev S4x64 : Shape := ⟨2, ![4, 64]⟩
abbrev S_ : Shape := ⟨0, ![]⟩

class Facts : Prop where
  bcast_S_S4x1x64 : S_.BroadcastsInDim S4x1x64 (![] : Fin 0 → Fin S4x1x64.rank)
  reducesTo_S4x1x64_S_d0_1_2 : S4x1x64.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : IVec S2x6400000 32) (main_arg1 : IVec S200000 32) (main_arg2 : FVec F S4x1x64 .f32) (main_arg3 : FVec F S4x64 .f32) : IVec S_ 1 :=
  let main_v0 : FVec F S4x1x64 .f32 := Host.absf main_arg2
  let main_cst : FVec F S_ .f32 := constant S_ .f32 0x7F800000#32
  let main_v1 : FVec F S4x1x64 .f32 := broadcastInDim S4x1x64 ![] bcast_S_S4x1x64 main_cst
  let main_v2 : IVec S4x1x64 1 := cmpf .olt main_v0 main_v1
  let main_c : IVec S_ 1 := constantI S_ 1 1#1
  let main_v3 : IVec S_ 1 := (fun x v => Host.reduce IntOp.andi x v reducesTo_S4x1x64_S_d0_1_2 h_S_) main_v2 main_c
  let main_v4 : FVec F S4x64 .f32 := Host.absf main_arg3
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  main_v8
-- ==== Kernel.lean ====
abbrev S2x6400000 : Shape := ⟨2, ![2, 6400000]⟩
abbrev S200000 : Shape := ⟨1, ![200000]⟩
abbrev S4x1x64 : Shape := ⟨3, ![4, 1, 64]⟩
abbrev S4x64 : Shape := ⟨2, ![4, 64]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x1 : Shape := ⟨2, ![200000, 1]⟩
abbrev S200000x4 : Shape := ⟨2, ![200000, 4]⟩
abbrev S1024 : Shape := ⟨1, ![1024]⟩
abbrev S1024x1 : Shape := ⟨2, ![1024, 1]⟩
abbrev S64 : Shape := ⟨1, ![64]⟩
abbrev S1x64 : Shape := ⟨2, ![1, 64]⟩
abbrev S1024x64 : Shape := ⟨2, ![1024, 64]⟩
abbrev S4000x4 : Shape := ⟨2, ![4000, 4]⟩
abbrev S4000x1 : Shape := ⟨2, ![4000, 1]⟩
abbrev S4000x64 : Shape := ⟨2, ![4000, 64]⟩
abbrev S4000x1024 : Shape := ⟨2, ![4000, 1024]⟩

abbrev nBuf : Space → Nat
  | .hbm => 130
  | .vmem => 9
  | .smem => 0
  | _ => 0

abbrev hbmTy0_0 (i : Nat) : BufTy := match i % 128 with
  | 0 => ⟨S2x6400000, .i32⟩
  | 1 => ⟨S200000, .i32⟩
  | 2 => ⟨S4x1x64, .f32⟩
  | 3 => ⟨S4x64, .f32⟩
  | 4 => ⟨S1x6400000, .i32⟩
  | 5 => ⟨S6400000, .i32⟩
  | 6 => ⟨S1x6400000, .i32⟩
  | 7 => ⟨S6400000, .i32⟩
  | 8 => ⟨S200000, .i32⟩
  | 9 => ⟨S6600000, .i32⟩
  | 10 => ⟨S6600000, .i32⟩
  | 11 => ⟨S_, .f32⟩
  | 12 => ⟨S6600000, .f32⟩
  | 13 => ⟨S_, .f32⟩
  | 14 => ⟨S200000, .f32⟩
  | 15 => ⟨S6600000x1, .i32⟩
  | 16 => ⟨S200000, .f32⟩
  | 17 => ⟨S_, .f32⟩
  | 18 => ⟨S200000, .f32⟩
  | 19 => ⟨S200000, .i1⟩
  | 20 => ⟨S200000, .f32⟩
  | 21 => ⟨S_, .f32⟩
  | 22 => ⟨S_, .f32⟩
  | 23 => ⟨S200000, .f32⟩
  | 24 => ⟨S200000, .f32⟩
  | 25 => ⟨S_, .i32⟩
  | 26 => ⟨S6600000, .i32⟩
  | 27 => ⟨S6600000, .i1⟩
  | 28 => ⟨S_, .i32⟩
  | 29 => ⟨S6600000, .i32⟩
  | 30 => ⟨S6600000, .i32⟩
  | 31 => ⟨S6600000, .i32⟩
  | 32 => ⟨S6600000x1, .i32⟩
  | 33 => ⟨S6600000, .f32⟩
  | 34 => ⟨S_, .i32⟩
  | 35 => ⟨S6600000, .i32⟩
  | 36 => ⟨S6600000, .i1⟩
  | 37 => ⟨S_, .i32⟩
  | 38 => ⟨S6600000, .i32⟩
  | 39 => ⟨S6600000, .i32⟩
  | 40 => ⟨S6600000, .i32⟩
  | 41 => ⟨S6600000x1, .i32⟩
  | 42 => ⟨S6600000, .f32⟩
  | 43 => ⟨S6600000, .f32⟩
  | 44 => ⟨S_, .f32⟩
  | 45 => ⟨S200000x1, .f32⟩
  | 46 => ⟨S6600000x1, .f32⟩
  | 47 => ⟨S_, .i32⟩
  | 48 => ⟨S6600000, .i32⟩
  | 49 => ⟨S6600000, .i1⟩
  | 50 => ⟨S_, .i32⟩
  | 51 => ⟨S6600000, .i32⟩
  | 52 => ⟨S6600000, .i32⟩
  | 53 => ⟨S6600000, .i32⟩
  | 54 => ⟨S6600000x1, .i32⟩
  | 55 => ⟨S6600000x1, .f32⟩
  | 56 => ⟨S6600000x1, .f32⟩
  | 57 => ⟨S_, .f32⟩
  | 58 => ⟨S200000x1, .f32⟩
  | 59 => ⟨S6600000x1, .i32⟩
  | 60 => ⟨S200000x1, .f32⟩
  | 61 => ⟨S6600000x1, .f32⟩
  | 62 => ⟨S_, .i32⟩
  | 63 => ⟨S6600000, .i32⟩
  | 64 => ⟨S6600000, .i1⟩
  | 65 => ⟨S_, .i32⟩
  | 66 => ⟨S6600000, .i32⟩
  | 67 => ⟨S6600000, .i32⟩
  | 68 => ⟨S6600000, .i32⟩
  | 69 => ⟨S6600000x1, .i32⟩
  | 70 => ⟨S6600000x1, .f32⟩
  | 71 => ⟨S6600000x1, .f32⟩
  | 72 => ⟨S_, .f32⟩
  | 73 => ⟨S200000x1, .f32⟩
  | 74 => ⟨S6600000x1, .i32⟩
  | 75 => ⟨S200000x1, .f32⟩
  | 76 => ⟨S6600000x1, .f32⟩
  | 77 => ⟨S_, .i32⟩
  | 78 => ⟨S6600000, .i32⟩
  | 79 => ⟨S6600000, .i1⟩
  | 80 => ⟨S_, .i32⟩
  | 81 => ⟨S6600000, .i32⟩
  | 82 => ⟨S6600000, .i32⟩
  | 83 => ⟨S6600000, .i32⟩
  | 84 => ⟨S6600000x1, .i32⟩
  | 85 => ⟨S6600000x1, .f32⟩
  | 86 => ⟨S6600000x1, .f32⟩
  | 87 => ⟨S_, .f32⟩
  | 88 => ⟨S200000x1, .f32⟩
  | 89 => ⟨S6600000x1, .i32⟩
  | 90 => ⟨S200000x1, .f32⟩
  | 91 => ⟨S6600000x1, .f32⟩
  | 92 => ⟨S_, .i32⟩
  | 93 => ⟨S6600000, .i32⟩
  | 94 => ⟨S6600000, .i1⟩
  | 95 => ⟨S_, .i32⟩
  | 96 => ⟨S6600000, .i32⟩
  | 97 => ⟨S6600000, .i32⟩
  | 98 => ⟨S6600000, .i32⟩
  | 99 => ⟨S6600000x1, .i32⟩
  | 100 => ⟨S6600000x1, .f32⟩
  | 101 => ⟨S6600000x1, .f32⟩
  | 102 => ⟨S_, .f32⟩
  | 103 => ⟨S200000x1, .f32⟩
  | 104 => ⟨S6600000x1, .i32⟩
  | 105 => ⟨S200000x1, .f32⟩
  | 106 => ⟨S200000x4, .f32⟩
  | 107 => ⟨S_, .f32⟩
  | 108 => ⟨S200000, .f32⟩
  | 109 => ⟨S_, .f32⟩
  | 110 => ⟨S1024, .f32⟩
  | 111 => ⟨S200000x1, .i32⟩
  | 112 => ⟨S1024, .f32⟩
  | 113 => ⟨S_, .f32⟩
  | 114 => ⟨S1024, .f32⟩
  | 115 => ⟨S1024, .i1⟩
  | 116 => ⟨S_, .f32⟩
  | 117 => ⟨S1024, .f32⟩
  | 118 => ⟨S1024, .f32⟩
  | 119 => ⟨S_, .f32⟩
  | 120 => ⟨S_, .f32⟩
  | 121 => ⟨S1024, .f32⟩
  | 122 => ⟨S1024, .f32⟩
  | 123 => ⟨S1024x1, .f32⟩
  | 124 => ⟨S4x64, .f32⟩
  | 125 => ⟨S_, .f32⟩
  | 126 => ⟨S64, .f32⟩
  | 127 => ⟨S1x64, .f32⟩
  | _ => ⟨S2x6400000, .i32⟩

abbrev hbmTy0_1 (i : Nat) : BufTy := match i % 128 with
  | 0 => ⟨S200000x1, .i32⟩
  | 1 => ⟨S1024x64, .f32⟩
  | _ => ⟨S2x6400000, .i32⟩

abbrev hbmTy (i : Nat) : BufTy := match i / 128 with
  | 0 => hbmTy0_0 i
  | 1 => hbmTy0_1 i
  | _ => ⟨S2x6400000, .i32⟩

abbrev bufTy : (tb : Table) → Fin (tcTables nBuf tb) → BufTy
  | .hbm, ⟨i, _⟩ => hbmTy i
  | .local _ .vmem, ⟨0, _⟩ => ⟨S4000x4, .f32⟩
  | .local _ .vmem, ⟨1, _⟩ => ⟨S4000x4, .f32⟩
  | .local _ .vmem, ⟨2, _⟩ => ⟨S4000x1, .i32⟩
  | .local _ .vmem, ⟨3, _⟩ => ⟨S4000x1, .i32⟩
  | .local _ .vmem, ⟨4, _⟩ => ⟨S4x64, .f32⟩
  | .local _ .vmem, ⟨5, _⟩ => ⟨S1x64, .f32⟩
  | .local _ .vmem, ⟨6, _⟩ => ⟨S1024x1, .f32⟩
  | .local _ .vmem, ⟨7, _⟩ => ⟨S1024x64, .f32⟩
  | .local _ .vmem, ⟨8, _⟩ => ⟨S1024x64, .f32⟩
  | _, _ => ⟨S2x6400000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_10 : Ref sig .tc := ⟨.hbm, 62, rfl⟩
abbrev main_v44 : Ref sig .tc := ⟨.hbm, 63, rfl⟩
abbrev main_v45 : Ref sig .tc := ⟨.hbm, 64, rfl⟩
abbrev main_c_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_13 : Ref sig .tc := ⟨.hbm, 77, rfl⟩
abbrev main_v56 : Ref sig .tc := ⟨.hbm, 78, rfl⟩
abbrev main_v57 : Ref sig .tc := ⟨.hbm, 79, rfl⟩
abbrev main_c_14 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_15 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_16 : Ref sig .tc := ⟨.hbm, 92, rfl⟩
abbrev main_v68 : Ref sig .tc := ⟨.hbm, 93, rfl⟩
abbrev main_v69 : Ref sig .tc := ⟨.hbm, 94, rfl⟩
abbrev main_c_17 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_18 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_19 : Ref sig .tc := ⟨.hbm, 107, rfl⟩
abbrev main_v80 : Ref sig .tc := ⟨.hbm, 108, rfl⟩
abbrev main_cst_20 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_21 : Ref sig .tc := ⟨.hbm, 113, rfl⟩
abbrev main_v84 : Ref sig .tc := ⟨.hbm, 114, rfl⟩
abbrev main_v85 : Ref sig .tc := ⟨.hbm, 115, rfl⟩
abbrev main_cst_22 : Ref sig .tc := ⟨.hbm, 116, rfl⟩
abbrev main_v86 : Ref sig .tc := ⟨.hbm, 117, rfl⟩
abbrev main_v87 : Ref sig .tc := ⟨.hbm, 118, rfl⟩
abbrev main_cst_23 : Ref sig .tc := ⟨.hbm, 119, rfl⟩
abbrev main_call1_v0 : Ref sig .tc := ⟨.hbm, 120, rfl⟩
abbrev main_call1_v1 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_24 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v50 : BitVec 1 := Scalar.cmpi .eq arg0 c49_i32
  let v51 : BitVec 32 := Scalar.extui v50
  let c0_i32_12 : BitVec 32 := 0#32
  let v52 : BitVec 1 := Scalar.cmpi .ne v51 c0_i32_12
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S_S200000x1 : S_.BroadcastsInDim S200000x1 (![] : Fin 0 → Fin S200000x1.rank)
  concatenates_S200000x1_S200000x1_S200000x1_S200000x1_S200000x4_d1 : Shape.Concatenates [S200000x1, S200000x1, S200000x1, S200000x1] S200000x4 1
  bcast_S_S1024 : S_.BroadcastsInDim S1024 (![] : Fin 0 → Fin S1024.rank)
  bcast_S200000_S200000x1_0 : S200000.BroadcastsInDim S200000x1 (![0] : Fin 1 → Fin S200000x1.rank)
  shapeCasts_S1024_S1024x1 : S1024.ShapeCasts S1024x1
  shapeCasts_S4x1x64_S4x64 : S4x1x64.ShapeCasts S4x64
  reducesTo_S4x64_S64_d0 : S4x64.ReducesTo [0] S64
  h_S_ : 0 < S_.numel
  bcast_S64_S1x64_1 : S64.BroadcastsInDim S1x64 (![1] : Fin 1 → Fin S1x64.rank)
  shapeCasts_S200000_S200000x1 : S200000.ShapeCasts S200000x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S4000x4_S4000x4_0_0 : ∀ a, (![0, 0] : Fin 2 → Nat) a + S4000x4.size a ≤ S4000x4.size a
  h_S4000x4 : 0 < S4000x4.numel
  shapeCasts_S4000x4_S4000x4 : S4000x4.ShapeCasts S4000x4
  inb_S4x64_S4x64_0_0 : ∀ a, (![0, 0] : Fin 2 → Nat) a + S4x64.size a ≤ S4x64.size a
  h_S4x64 : 0 < S4x64.numel
  shapeCasts_S4x64_S4x64 : S4x64.ShapeCasts S4x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S1x64_S4000x64 : S1x64.Broadcasts S4000x64
  slices_S4000x4_o0_0_S4000x1 : S4000x4.Slices ![0, 0] S4000x1
  slices_S4x64_o0_0_S1x64 : S4x64.Slices ![0, 0] S1x64
  broadcasts_S4000x1_S4000x64 : S4000x1.Broadcasts S4000x64
  slices_S4000x4_o0_1_S4000x1 : S4000x4.Slices ![0, 1] S4000x1
  slices_S4x64_o1_0_S1x64 : S4x64.Slices ![1, 0] S1x64
  slices_S4000x4_o0_2_S4000x1 : S4000x4.Slices ![0, 2] S4000x1
  slices_S4x64_o2_0_S1x64 : S4x64.Slices ![2, 0] S1x64
  slices_S4000x4_o0_3_S4000x1 : S4000x4.Slices ![0, 3] S4000x1
  slices_S4x64_o3_0_S1x64 : S4x64.Slices ![3, 0] S1x64
  iota_S4000x1024_d1_w32 : S4000x1024.Iotas .tc 32 [1]
  broadcasts_S4000x1_S4000x1024 : S4000x1.Broadcasts S4000x1024
  natLt_1_32 : 1 < 32
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  reduces_S1024x64_S1024 : S1024x64.Reduces [1] S1024
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  gather_S200000x1_S6600000x1_S6600000x1_1_0_n_n_0_1_11_wf : GatherDims.WF S200000x1 S6600000x1 S6600000x1 [1] [0] [] [0] [] 1 ![1, 1]
  scatter_S200000x1_S6600000x1_S6600000x1_1_0_0_1_wf : ScatterDims.WF S200000x1 S6600000x1 S6600000x1 [1] [0] [0] 1
  scatter_S1024_S200000x1_S200000_n_0_0_1_wf : ScatterDims.WF S1024 S200000x1 S200000 [] [0] [0] 1
  dot_S4000x1024_S4000x64_S1024x64_0_0_1_1_n_n_wf : DotDims.WF S4000x1024 S4000x64 S1024x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x4.size a ≤ S200000x4.size a
  hwx0_0 : ∀ i : grid0.Coords, EltTy.bits .f32 = 32 ∨ (Rect.block (s := S200000x4) S4000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S200000x1.size a
  hwx0_1 : ∀ i : grid0.Coords, EltTy.bits .i32 = 32 ∨ (Rect.block (s := S200000x1) S4000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64.size a ≤ S4x64.size a
  hwx0_2 : ∀ i : grid0.Coords, EltTy.bits .f32 = 32 ∨ (Rect.block (s := S4x64) S4x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S1024x1.size a
  hwx0_4 : ∀ i : grid0.Coords, EltTy.bits .f32 = 32 ∨ (Rect.block (s := S1024x1) S1024x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S1024x64.size a
  hwx0_5 : ∀ i : grid0.Coords, EltTy.bits .f32 = 32 ∨ (Rect.block (s := S1024x64) S1024x64.size (cc0_transform_5 i) (hinb0_5 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def gather_S200000x1_S6600000x1_S6600000x1_1_0_n_n_0_1_11 : GatherDims S200000x1 S6600000x1 S6600000x1 where
  offsetDims := [1]
  collapsedSliceDims := [0]
  operandBatchingDims := []
  startIndicesBatchingDims := []
  startIndexMap := [0]
  indexVectorDim := 1
  sliceSizes := ![1, 1]
  wf := gather_S200000x1_S6600000x1_S6600000x1_1_0_n_n_0_1_11_wf
def scatter_S200000x1_S6600000x1_S6600000x1_1_0_0_1 : ScatterDims S200000x1 S6600000x1 S6600000x1 where
  updateWindowDims := [1]
  insertedWindowDims := [0]
  scatterDimsToOperandDims := [0]
  indexVectorDim := 1
  wf := scatter_S200000x1_S6600000x1_S6600000x1_1_0_0_1_wf
def scatter_S1024_S200000x1_S200000_n_0_0_1 : ScatterDims S1024 S200000x1 S200000 where
  updateWindowDims := []
  insertedWindowDims := [0]
  scatterDimsToOperandDims := [0]
  indexVectorDim := 1
  wf := scatter_S1024_S200000x1_S200000_n_0_0_1_wf
def dot_S4000x1024_S4000x64_S1024x64_0_0_1_1_n_n : DotDims S4000x1024 S4000x64 S1024x64 where
  lhsContracting := [0]
  rhsContracting := [0]
  lhsNonContracting := [1]
  rhsNonContracting := [1]
  lhsBatch := []
  rhsBatch := []
  wf := dot_S4000x1024_S4000x64_S1024x64_0_0_1_1_n_n_wf

abbrev win0_0 : Pipeline.Window sig grid0 :=
  Pipeline.Window.ofSpec (Memref.whole main_v79) S4000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v93) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v90) S4x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v92) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v89) S1024x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v94) S1024x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2x6400000 : Shape := ⟨2, ![2, 6400000]⟩
abbrev S200000 : Shape := ⟨1, ![200000]⟩
abbrev S4x1x64 : Shape := ⟨3, ![4, 1, 64]⟩
abbrev S4x64 : Shape := ⟨2, ![4, 64]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x1 : Shape := ⟨2, ![200000, 1]⟩
abbrev S1024 : Shape := ⟨1, ![1024]⟩
abbrev S1024x64 : Shape := ⟨2, ![1024, 64]⟩
abbrev S1x1x64 : Shape := ⟨3, ![1, 1, 64]⟩
abbrev S1x64 : Shape := ⟨2, ![1, 64]⟩
abbrev S200000x64 : Shape := ⟨2, ![200000, 64]⟩
abbrev S64 : Shape := ⟨1, ![64]⟩
abbrev S1024x1 : Shape := ⟨2, ![1024, 1]⟩

abbrev nBuf : Space → Nat
  | .hbm => 203
  | .vmem => 0
  | .smem => 0
  | _ => 0

abbrev hbmTy0_0 (i : Nat) : BufTy := match i % 128 with
  | 0 => ⟨S2x6400000, .i32⟩
  | 1 => ⟨S200000, .i32⟩
  | 2 => ⟨S4x1x64, .f32⟩
  | 3 => ⟨S4x64, .f32⟩
  | 4 => ⟨S1x6400000, .i32⟩
  | 5 => ⟨S6400000, .i32⟩
  | 6 => ⟨S1x6400000, .i32⟩
  | 7 => ⟨S6400000, .i32⟩
  | 8 => ⟨S200000, .i32⟩
  | 9 => ⟨S6600000, .i32⟩
  | 10 => ⟨S6600000, .i32⟩
  | 11 => ⟨S_, .f32⟩
  | 12 => ⟨S6600000, .f32⟩
  | 13 => ⟨S_, .f32⟩
  | 14 => ⟨S200000, .f32⟩
  | 15 => ⟨S6600000x1, .i32⟩
  | 16 => ⟨S200000, .f32⟩
  | 17 => ⟨S_, .f32⟩
  | 18 => ⟨S200000, .f32⟩
  | 19 => ⟨S200000, .i1⟩
  | 20 => ⟨S200000, .f32⟩
  | 21 => ⟨S_, .f32⟩
  | 22 => ⟨S_, .f32⟩
  | 23 => ⟨S200000, .f32⟩
  | 24 => ⟨S200000, .f32⟩
  | 25 => ⟨S_, .i32⟩
  | 26 => ⟨S6600000, .i32⟩
  | 27 => ⟨S6600000, .i1⟩
  | 28 => ⟨S_, .i32⟩
  | 29 => ⟨S6600000, .i32⟩
  | 30 => ⟨S6600000, .i32⟩
  | 31 => ⟨S6600000, .i32⟩
  | 32 => ⟨S6600000x1, .i32⟩
  | 33 => ⟨S6600000, .f32⟩
  | 34 => ⟨S_, .i32⟩
  | 35 => ⟨S6600000, .i32⟩
  | 36 => ⟨S6600000, .i1⟩
  | 37 => ⟨S_, .i32⟩
  | 38 => ⟨S6600000, .i32⟩
  | 39 => ⟨S6600000, .i32⟩
  | 40 => ⟨S6600000, .i32⟩
  | 41 => ⟨S6600000x1, .i32⟩
  | 42 => ⟨S6600000, .f32⟩
  | 43 => ⟨S6600000, .f32⟩
  | 44 => ⟨S_, .f32⟩
  | 45 => ⟨S200000x1, .f32⟩
  | 46 => ⟨S_, .f32⟩
  | 47 => ⟨S200000, .f32⟩
  | 48 => ⟨S_, .f32⟩
  | 49 => ⟨S1024, .f32⟩
  | 50 => ⟨S200000x1, .i32⟩
  | 51 => ⟨S1024, .f32⟩
  | 52 => ⟨S_, .f32⟩
  | 53 => ⟨S1024, .f32⟩
  | 54 => ⟨S1024, .i1⟩
  | 55 => ⟨S_, .f32⟩
  | 56 => ⟨S1024, .f32⟩
  | 57 => ⟨S1024, .f32⟩
  | 58 => ⟨S_, .f32⟩
  | 59 => ⟨S_, .f32⟩
  | 60 => ⟨S1024, .f32⟩
  | 61 => ⟨S1024, .f32⟩
  | 62 => ⟨S_, .f32⟩
  | 63 => ⟨S1024x64, .f32⟩
  | 64 => ⟨S6600000x1, .f32⟩
  | 65 => ⟨S_, .i32⟩
  | 66 => ⟨S6600000, .i32⟩
  | 67 => ⟨S6600000, .i1⟩
  | 68 => ⟨S_, .i32⟩
  | 69 => ⟨S6600000, .i32⟩
  | 70 => ⟨S6600000, .i32⟩
  | 71 => ⟨S6600000, .i32⟩
  | 72 => ⟨S6600000x1, .i32⟩
  | 73 => ⟨S6600000x1, .f32⟩
  | 74 => ⟨S6600000x1, .f32⟩
  | 75 => ⟨S_, .f32⟩
  | 76 => ⟨S200000x1, .f32⟩
  | 77 => ⟨S6600000x1, .i32⟩
  | 78 => ⟨S200000x1, .f32⟩
  | 79 => ⟨S1x1x64, .f32⟩
  | 80 => ⟨S1x64, .f32⟩
  | 81 => ⟨S200000x64, .f32⟩
  | 82 => ⟨S1x64, .f32⟩
  | 83 => ⟨S64, .f32⟩
  | 84 => ⟨S1x64, .f32⟩
  | 85 => ⟨S200000x64, .f32⟩
  | 86 => ⟨S200000x64, .f32⟩
  | 87 => ⟨S_, .f32⟩
  | 88 => ⟨S1024x64, .f32⟩
  | 89 => ⟨S200000x1, .i32⟩
  | 90 => ⟨S1024x64, .f32⟩
  | 91 => ⟨S1024x1, .f32⟩
  | 92 => ⟨S1024x64, .f32⟩
  | 93 => ⟨S1024x64, .f32⟩
  | 94 => ⟨S1024x64, .f32⟩
  | 95 => ⟨S6600000x1, .f32⟩
  | 96 => ⟨S_, .i32⟩
  | 97 => ⟨S6600000, .i32⟩
  | 98 => ⟨S6600000, .i1⟩
  | 99 => ⟨S_, .i32⟩
  | 100 => ⟨S6600000, .i32⟩
  | 101 => ⟨S6600000, .i32⟩
  | 102 => ⟨S6600000, .i32⟩
  | 103 => ⟨S6600000x1, .i32⟩
  | 104 => ⟨S6600000x1, .f32⟩
  | 105 => ⟨S6600000x1, .f32⟩
  | 106 => ⟨S_, .f32⟩
  | 107 => ⟨S200000x1, .f32⟩
  | 108 => ⟨S6600000x1, .i32⟩
  | 109 => ⟨S200000x1, .f32⟩
  | 110 => ⟨S1x1x64, .f32⟩
  | 111 => ⟨S1x64, .f32⟩
  | 112 => ⟨S200000x64, .f32⟩
  | 113 => ⟨S1x64, .f32⟩
  | 114 => ⟨S64, .f32⟩
  | 115 => ⟨S1x64, .f32⟩
  | 116 => ⟨S200000x64, .f32⟩
  | 117 => ⟨S200000x64, .f32⟩
  | 118 => ⟨S_, .f32⟩
  | 119 => ⟨S1024x64, .f32⟩
  | 120 => ⟨S200000x1, .i32⟩
  | 121 => ⟨S1024x64, .f32⟩
  | 122 => ⟨S1024x1, .f32⟩
  | 123 => ⟨S1024x64, .f32⟩
  | 124 => ⟨S1024x64, .f32⟩
  | 125 => ⟨S1024x64, .f32⟩
  | 126 => ⟨S6600000x1, .f32⟩
  | 127 => ⟨S_, .i32⟩
  | _ => ⟨S2x6400000, .i32⟩

abbrev hbmTy0_1 (i : Nat) : BufTy := match i % 128 with
  | 0 => ⟨S6600000, .i32⟩
  | 1 => ⟨S6600000, .i1⟩
  | 2 => ⟨S_, .i32⟩
  | 3 => ⟨S6600000, .i32⟩
  | 4 => ⟨S6600000, .i32⟩
  | 5 => ⟨S6600000, .i32⟩
  | 6 => ⟨S6600000x1, .i32⟩
  | 7 => ⟨S6600000x1, .f32⟩
  | 8 => ⟨S6600000x1, .f32⟩
  | 9 => ⟨S_, .f32⟩
  | 10 => ⟨S200000x1, .f32⟩
  | 11 => ⟨S6600000x1, .i32⟩
  | 12 => ⟨S200000x1, .f32⟩
  | 13 => ⟨S1x1x64, .f32⟩
  | 14 => ⟨S1x64, .f32⟩
  | 15 => ⟨S200000x64, .f32⟩
  | 16 => ⟨S1x64, .f32⟩
  | 17 => ⟨S64, .f32⟩
  | 18 => ⟨S1x64, .f32⟩
  | 19 => ⟨S200000x64, .f32⟩
  | 20 => ⟨S200000x64, .f32⟩
  | 21 => ⟨S_, .f32⟩
  | 22 => ⟨S1024x64, .f32⟩
  | 23 => ⟨S200000x1, .i32⟩
  | 24 => ⟨S1024x64, .f32⟩
  | 25 => ⟨S1024x1, .f32⟩
  | 26 => ⟨S1024x64, .f32⟩
  | 27 => ⟨S1024x64, .f32⟩
  | 28 => ⟨S1024x64, .f32⟩
  | 29 => ⟨S6600000x1, .f32⟩
  | 30 => ⟨S_, .i32⟩
  | 31 => ⟨S6600000, .i32⟩
  | 32 => ⟨S6600000, .i1⟩
  | 33 => ⟨S_, .i32⟩
  | 34 => ⟨S6600000, .i32⟩
  | 35 => ⟨S6600000, .i32⟩
  | 36 => ⟨S6600000, .i32⟩
  | 37 => ⟨S6600000x1, .i32⟩
  | 38 => ⟨S6600000x1, .f32⟩
  | 39 => ⟨S6600000x1, .f32⟩
  | 40 => ⟨S_, .f32⟩
  | 41 => ⟨S200000x1, .f32⟩
  | 42 => ⟨S6600000x1, .i32⟩
  | 43 => ⟨S200000x1, .f32⟩
  | 44 => ⟨S1x1x64, .f32⟩
  | 45 => ⟨S1x64, .f32⟩
  | 46 => ⟨S200000x64, .f32⟩
  | 47 => ⟨S1x64, .f32⟩
  | 48 => ⟨S64, .f32⟩
  | 49 => ⟨S1x64, .f32⟩
  | 50 => ⟨S200000x64, .f32⟩
  | 51 => ⟨S200000x64, .f32⟩
  | 52 => ⟨S_, .f32⟩
  | 53 => ⟨S1024x64, .f32⟩
  | 54 => ⟨S200000x1, .i32⟩
  | 55 => ⟨S1024x64, .f32⟩
  | 56 => ⟨S1024x1, .f32⟩
  | 57 => ⟨S1024x64, .f32⟩
  | 58 => ⟨S1024x64, .f32⟩
  | 59 => ⟨S1024x64, .f32⟩
  | 60 => ⟨S_, .f32⟩
  | 61 => ⟨S1024, .f32⟩
  | 62 => ⟨S_, .f32⟩
  | 63 => ⟨S1024, .f32⟩
  | 64 => ⟨S1024, .f32⟩
  | 65 => ⟨S1024x1, .f32⟩
  | 66 => ⟨S1024x64, .f32⟩
  | 67 => ⟨S1024x64, .f32⟩
  | 68 => ⟨S1024x64, .f32⟩
  | 69 => ⟨S_, .f32⟩
  | 70 => ⟨S1024, .f32⟩
  | 71 => ⟨S1024x1, .f32⟩
  | 72 => ⟨S1024x1, .f32⟩
  | 73 => ⟨S1024x64, .f32⟩
  | 74 => ⟨S1024x64, .f32⟩
  | _ => ⟨S2x6400000, .i32⟩

abbrev hbmTy (i : Nat) : BufTy := match i / 128 with
  | 0 => hbmTy0_0 i
  | 1 => hbmTy0_1 i
  | _ => ⟨S2x6400000, .i32⟩

abbrev bufTy : (tb : Table) → Fin (tcTables nBuf tb) → BufTy
  | .hbm, ⟨i, _⟩ => hbmTy i
  | _, _ => ⟨S2x6400000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_call1_v0 : Ref sig .tc := ⟨.hbm, 59, rfl⟩
abbrev main_call1_v1 : Ref sig .tc := ⟨.hbm, 60, rfl⟩
abbrev main_v39 : Ref sig .tc := ⟨.hbm, 61, rfl⟩
abbrev main_cst_12 : Ref sig .tc := ⟨.hbm, 62, rfl⟩
abbrev main_v40 : Ref sig .tc := ⟨.hbm, 63, rfl⟩
abbrev main_v41 : Ref sig .tc := ⟨.hbm, 64, rfl⟩
abbrev main_c_13 : Ref sig .tc := ⟨.hbm, 65, rfl⟩
abbrev main_v42 : Ref sig .tc := ⟨.hbm, 66, rfl⟩
abbrev main_v43 : Ref sig .tc := ⟨.hbm, 67, rfl⟩
abbrev main_c_14 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_15 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_16 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_17 : Ref sig .tc := ⟨.hbm, 96, rfl⟩
abbrev main_v69 : Ref sig .tc := ⟨.hbm, 97, rfl⟩
abbrev main_v70 : Ref sig .tc := ⟨.hbm, 98, rfl⟩
abbrev main_c_18 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_19 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_20 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c_21 : Ref sig .tc := ⟨.hbm, 127, rfl⟩
abbrev main_v96 : Ref sig .tc := ⟨.hbm, 128, rfl⟩
abbrev main_v97 : Ref sig .tc := ⟨.hbm, 129, rfl⟩
abbrev main_c_22 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_23 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_24 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_c_25 : Ref sig .tc := ⟨.hbm, 158, rfl⟩
abbrev main_v123 : Ref sig .tc := ⟨.hbm, 159, rfl⟩
abbrev main_v124 : Ref sig .tc := ⟨.hbm, 160, rfl⟩
abbrev main_c_26 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_27 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_cst_28 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_call2_cst : Ref sig .tc := ⟨.hbm, 188, rfl⟩
abbrev main_call2_v0 : Ref sig .tc := ⟨.hbm, 189, rfl⟩
abbrev main_call2_cst_0 : Ref sig .tc := ⟨.hbm, 190, rfl⟩
abbrev main_call2_v1 : Ref sig .tc := ⟨.hbm, 191, rfl⟩
abbrev main_call2_v2 : Ref sig .tc := ⟨.hbm, 192, rfl⟩
abbrev main_call2_v3 : Ref sig .tc := ⟨.hbm, 193, rfl⟩
abbrev main_call2_v4 : Ref sig .tc := ⟨.hbm, 194, rfl⟩
abbrev main_call2_v5 : Ref sig .tc := ⟨.hbm, 195, rfl⟩
abbrev main_call2_v6 : Ref sig .tc := ⟨.hbm, 196, rfl⟩
abbrev main_call2_cst_1 : Ref sig .tc := ⟨.hbm, 197, rfl⟩
abbrev main_call2_v7 : Ref sig .tc := ⟨.hbm, 198, rfl⟩
abbrev main_call2_v8 : Ref sig .tc := ⟨.hbm, 199, rfl⟩
abbrev main_call2_v9 : Ref sig .tc := ⟨.hbm, 200, rfl⟩
abbrev main_call2_v10 : Ref sig .tc := ⟨.hbm, 201, rfl⟩
abbrev main_v149 : Ref sig .tc := ⟨.hbm, 202, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S_S200000x1 : S_.BroadcastsInDim S200000x1 (![] : Fin 0 → Fin S200000x1.rank)
  bcast_S_S1024 : S_.BroadcastsInDim S1024 (![] : Fin 0 → Fin S1024.rank)
  bcast_S200000_S200000x1_0 : S200000.BroadcastsInDim S200000x1 (![0] : Fin 1 → Fin S200000x1.rank)
  bcast_S_S1024x64 : S_.BroadcastsInDim S1024x64 (![] : Fin 0 → Fin S1024x64.rank)
  slices_S4x1x64_S1x1x64_0_0_0 : S4x1x64.Slices ![0, 0, 0] S1x1x64
  shapeCasts_S1x1x64_S1x64 : S1x1x64.ShapeCasts S1x64
  slices_S4x64_S1x64_0_0 : S4x64.Slices ![0, 0] S1x64
  shapeCasts_S1x64_S64 : S1x64.ShapeCasts S64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  slices_S4x1x64_S1x1x64_1_0_0 : S4x1x64.Slices ![1, 0, 0] S1x1x64
  slices_S4x64_S1x64_1_0 : S4x64.Slices ![1, 0] S1x64
  slices_S4x1x64_S1x1x64_2_0_0 : S4x1x64.Slices ![2, 0, 0] S1x1x64
  slices_S4x64_S1x64_2_0 : S4x64.Slices ![2, 0] S1x64
  slices_S4x1x64_S1x1x64_3_0_0 : S4x1x64.Slices ![3, 0, 0] S1x1x64
  slices_S4x64_S1x64_3_0 : S4x64.Slices ![3, 0] S1x64
  reducesTo_S1024x64_S1024_d1 : S1024x64.ReducesTo [1] S1024
  h_S_ : 0 < S_.numel
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  scatter_S1024_S200000x1_S200000_n_0_0_1_wf : ScatterDims.WF S1024 S200000x1 S200000 [] [0] [0] 1
  gather_S200000x1_S6600000x1_S6600000x1_1_0_n_n_0_1_11_wf : GatherDims.WF S200000x1 S6600000x1 S6600000x1 [1] [0] [] [0] [] 1 ![1, 1]
  scatter_S200000x1_S6600000x1_S6600000x1_1_0_0_1_wf : ScatterDims.WF S200000x1 S6600000x1 S6600000x1 [1] [0] [0] 1
  dot_S200000x1_S1x64_S200000x64_1_0_0_1_n_n_wf : DotDims.WF S200000x1 S1x64 S200000x64 [1] [0] [0] [1] [] []
  scatter_S1024x64_S200000x1_S200000x64_1_0_0_1_wf : ScatterDims.WF S1024x64 S200000x1 S200000x64 [1] [0] [0] 1

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def scatter_S1024_S200000x1_S200000_n_0_0_1 : ScatterDims S1024 S200000x1 S200000 where
  updateWindowDims := []
  insertedWindowDims := [0]
  scatterDimsToOperandDims := [0]
  indexVectorDim := 1
  wf := scatter_S1024_S200000x1_S200000_n_0_0_1_wf
def gather_S200000x1_S6600000x1_S6600000x1_1_0_n_n_0_1_11 : GatherDims S200000x1 S6600000x1 S6600000x1 where
  offsetDims := [1]
  collapsedSliceDims := [0]
  operandBatchingDims := []
  startIndicesBatchingDims := []
  startIndexMap := [0]
  indexVectorDim := 1
  sliceSizes := ![1, 1]
  wf := gather_S200000x1_S6600000x1_S6600000x1_1_0_n_n_0_1_11_wf
def scatter_S200000x1_S6600000x1_S6600000x1_1_0_0_1 : ScatterDims S200000x1 S6600000x1 S6600000x1 where
  updateWindowDims := [1]
  insertedWindowDims := [0]
  scatterDimsToOperandDims := [0]
  indexVectorDim := 1
  wf := scatter_S200000x1_S6600000x1_S6600000x1_1_0_0_1_wf
def dot_S200000x1_S1x64_S200000x64_1_0_0_1_n_n : DotDims S200000x1 S1x64 S200000x64 where
  lhsContracting := [1]
  rhsContracting := [0]
  lhsNonContracting := [0]
  rhsNonContracting := [1]
  lhsBatch := []
  rhsBatch := []
  wf := dot_S200000x1_S1x64_S200000x64_1_0_0_1_n_n_wf
def scatter_S1024x64_S200000x1_S200000x64_1_0_0_1 : ScatterDims S1024x64 S200000x1 S200000x64 where
  updateWindowDims := [1]
  insertedWindowDims := [0]
  scatterDimsToOperandDims := [0]
  indexVectorDim := 1
  wf := scatter_S1024x64_S200000x1_S200000x64_1_0_0_1_wf

class Facts : Prop extends Facts₀ where

variable [Facts]
-- ==== Proof.KRuns.lean ====
/-
  What the three runs of the pooling kernel's body and the frame proof over them share, at any float family F.
  The program is host operations (five stretches: the sparse propagation, two calls of a select, the head's operands),
  then one pallas_call on a grid of 50 points, nothing after it.  Here: the buffer contents the region is entered with
  (`V`, the host stretches folded over the launch memory), @main up to the region, the four argument arrays untouched
  by every host operation, each window's block at a grid point read off `V`, that an input window's staging buffer
  holds its block at every point whether or not it was fetched there, the frame claim's post from a frame run, the two
  branch conditions of the body decided over the grid (the accumulator is reset at point 0, the output is stored at
  point 49), where the output window is idle, and the scratch accumulator as a memref the body owns.
-/
import proofs.«420619_j84035330113568_1_alg».proof.Proof.Gen.Kernel.Launch
import proofs.«420619_j84035330113568_1_alg».proof.Proof.Gen.Kernel.Skeleton
import proofs.«420619_j84035330113568_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: the five host stretches folded over the launch memory. -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is the five host stretches and then the region: it reduces to the region entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

set_option maxHeartbeats 4000000 in
/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is `V`'s and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is `V`'s and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run -/

/-- The argument arrays are no window's array and are unscoped: a frame run leaves them at their region-entry contents,
    which are the launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's two branch conditions -/

/-- "This is the first grid point": the accumulator is reset under it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

/-- "This is the last grid point": the output is stored under it. -/
abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Case A (first point, not last): the body stores nothing into the output window, which is idle and not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- Case B (neither first nor last): the same. -/
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- Case C (last point): the body stores the output window whole. -/
theorem liveAt0_5_C : ∀ t : Fin cfg0.N, ¬cond0_0 (grid0.coords t) → cond0_1 (grid0.coords t) → cfg0.idle 5 (grid0.coords t) = false := by decide +kernel

/-! ## The staging and scratch memrefs -/

/-- One staging buffer of the output window, through which its contents are stated. -/
abbrev VO0_5 : View sig .tc .vmem S1024x64 .f32 := (Memref.whole cc0_stg5_0 : Memref sig .tc .vmem S1024x64 .f32).view
abbrev ms0_0 (t : Fin cfg0.N) : Memref sig .tc .vmem S4000x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4000x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x64 .f32 := win0_5.stage (cfg0.slots t 5)
abbrev hs0_5 (t : Fin cfg0.N) : (ms0_5 t).IsWhole := hstage0_5 ((cfg0.slots t 5).cast nbuf0_5)
/-- The scratch accumulator: a whole scoped buffer of the kernel's own, carried from point to point. -/
abbrev scM0_0 : Memref sig .tc .vmem S1024x64 .f32 := Memref.whole cc0_scratch0
abbrev VS0_0 : View sig .tc .vmem S1024x64 .f32 := scM0_0.view

/-- The region invariant of the class with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.KRunA.lean ====
/-
  The pooling kernel's body at the FIRST grid point (the reset branch taken, the output branch not): run on whole
  staging memrefs holding the five input blocks, the output buffer at contents handed back untouched, the scratch
  accumulator at anything, it ends with the accumulator holding its stores (the zero fill, then the first tile's
  contribution added to what that fill left).
-/
import proofs.«420619_j84035330113568_1_alg».proof.Proof.KRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces each buffer ends with (last store first), with the proof that the body runs to them. -/
noncomputable def kernelRun0_A (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : cond0_0 i) (hc1 : ¬cond0_1 i)
    (x0 : Vec F S4000x4 .f32) (x1 : Vec F S4000x1 .i32) (x2 : Vec F S4x64 .f32) (x3 : Vec F S1x64 .f32) (x4 : Vec F S1024x1 .f32) :
    Σ' (L5 : List (View.Piece (Elt F) S1024x64 .f32)), { LS0 : List (View.Piece (Elt F) S1024x64 .f32) //
      ∀ (xi5 : Vec F S1024x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__pool_kernel i arg1 harg1 arg2 harg2 arg3 harg3 arg4 harg4 arg5 harg5 arg6 harg6 arg7 harg7) K } := by
  refine ⟨[], ?_, fun xi5 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.Kernel.Fr

end
-- ==== Proof.KRunB.lean ====
/-
  The pooling kernel's body at a MIDDLE grid point (neither branch taken): the accumulator, found at what the point
  before left, ends with this tile's contribution added; the output buffer is handed back untouched.
-/
import proofs.«420619_j84035330113568_1_alg».proof.Proof.KRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces each buffer ends with (last store first), with the proof that the body runs to them. -/
noncomputable def kernelRun0_B (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : ¬cond0_1 i)
    (x0 : Vec F S4000x4 .f32) (x1 : Vec F S4000x1 .i32) (x2 : Vec F S4x64 .f32) (x3 : Vec F S1x64 .f32) (x4 : Vec F S1024x1 .f32) (xs0 : Vec F S1024x64 .f32) :
    Σ' (L5 : List (View.Piece (Elt F) S1024x64 .f32)), { LS0 : List (View.Piece (Elt F) S1024x64 .f32) //
      ∀ (xi5 : Vec F S1024x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__pool_kernel i arg1 harg1 arg2 harg2 arg3 harg3 arg4 harg4 arg5 harg5 arg6 harg6 arg7 harg7) K } := by
  refine ⟨[], ?_, fun xi5 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.Kernel.Fr

end
-- ==== Proof.KRunC.lean ====
/-
  The pooling kernel's body at the LAST grid point (the output branch taken): the accumulator gets the last tile's
  contribution, and the output buffer is stored whole with the scaled, log-softmaxed accumulator.
-/
import proofs.«420619_j84035330113568_1_alg».proof.Proof.KRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces each buffer ends with (last store first), with the proof that the body runs to them. -/
noncomputable def kernelRun0_C (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : cond0_1 i)
    (x0 : Vec F S4000x4 .f32) (x1 : Vec F S4000x1 .i32) (x2 : Vec F S4x64 .f32) (x3 : Vec F S1x64 .f32) (x4 : Vec F S1024x1 .f32) (xs0 : Vec F S1024x64 .f32) :
    Σ' (L5 : List (View.Piece (Elt F) S1024x64 .f32)), { LS0 : List (View.Piece (Elt F) S1024x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__pool_kernel i arg1 harg1 arg2 harg2 arg3 harg3 arg4 harg4 arg5 harg5 arg6 harg6 arg7 harg7) K } := by
  refine ⟨?_, ?_, fun E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Fr

end
-- ==== Proof.KFrame.lean ====
/-
  The frame of the pooling kernel, at any float family F.  The kernel's body keeps a running sum in a scratch
  accumulator over the 50 points of its grid: at point 0 the accumulator is cleared and the first tile's contribution
  added, at every later point the tile's contribution is added to what the point before left, and at point 49 the
  output block is stored whole from the finished sum.  The output window's block index is the same at every point, so
  before point 49 the window is idle (nothing is stored into it, nothing is written back) and at point 49 it is written
  back once.  Here: what each of the three cases leaves in the output buffer and in the accumulator (the pieces of its
  run read back), the recursion over the grid giving both after each point, the region invariant that carries the
  accumulator at those contents, the pipeline's proof data, the body's obligation at a generic point (one of the three
  runs, chosen by the closed forms of the two branch conditions), and the run of @main with the frame it yields: the
  four argument arrays end as they were launched.
-/
import proofs.«420619_j84035330113568_1_alg».proof.Proof.KRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output buffer and in the accumulator -/

/-- At the first point nothing is stored into the output block: the (empty) list of pieces read back. The window
    is idle there and not written back, so no later statement consults these contents. -/
def out0_A_5 (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : cond0_0 i) (hc1 : ¬cond0_1 i)
    (x0 : Vec F S4000x4 .f32) (x1 : Vec F S4000x1 .i32) (x2 : Vec F S4x64 .f32) (x3 : Vec F S1x64 .f32) (x4 : Vec F S1024x1 .f32) : Vec F S1024x64 .f32 :=
  VO0_5.read (Elt F) (VO0_5.writes (Elt F) VO0_5.junk (kernelRun0_A c i arg1 harg1 arg2 harg2 arg3 harg3 arg4 harg4 arg5 harg5 arg6 harg6 arg7 harg7 hc0 hc1 x0 x1 x2 x3 x4).1)

/-- At the first point the accumulator's stores (the clearing, then the sum with the first tile's contribution)
    reach every one of its 1024 × 64 cells. -/
theorem scover0_A_0 (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : cond0_0 i) (hc1 : ¬cond0_1 i)
    (x0 : Vec F S4000x4 .f32) (x1 : Vec F S4000x1 .i32) (x2 : Vec F S4x64 .f32) (x3 : Vec F S1x64 .f32) (x4 : Vec F S1024x1 .f32) (y : S1024x64.Idx) :
    ∃ pc ∈ (kernelRun0_A c i arg1 harg1 arg2 harg2 arg3 harg3 arg4 harg4 arg5 harg5 arg6 harg6 arg7 harg7 hc0 hc1 x0 x1 x2 x3 x4).2.1, y ∈ pc.1.set :=
  View.cover_of_tiledL (kernelRun0_A c i arg1 harg1 arg2 harg2 arg3 harg3 arg4 harg4 arg5 harg5 arg6 harg6 arg7 harg7 hc0 hc1 x0 x1 x2 x3 x4).2.1 S1024x64.size (by sl_kernel_rfl) y

/-- What the first point leaves in the accumulator: its stores read back. -/
def sout0_A_0 (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : cond0_0 i) (hc1 : ¬cond0_1 i)
    (x0 : Vec F S4000x4 .f32) (x1 : Vec F S4000x1 .i32) (x2 : Vec F S4x64 .f32) (x3 : Vec F S1x64 .f32) (x4 : Vec F S1024x1 .f32) : Vec F S1024x64 .f32 :=
  VS0_0.read (Elt F) (VS0_0.writes (Elt F) VS0_0.junk (kernelRun0_A c i arg1 harg1 arg2 harg2 arg3 harg3 arg4 harg4 arg5 harg5 arg6 harg6 arg7 harg7 hc0 hc1 x0 x1 x2 x3 x4).2.1)

/-- At a middle point nothing is stored into the output block either: the same placeholder. -/
def out0_B_5 (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : ¬cond0_1 i)
    (x0 : Vec F S4000x4 .f32) (x1 : Vec F S4000x1 .i32) (x2 : Vec F S4x64 .f32) (x3 : Vec F S1x64 .f32) (x4 : Vec F S1024x1 .f32) (xs0 : Vec F S1024x64 .f32) : Vec F S1024x64 .f32 :=
  VO0_5.read (Elt F) (VO0_5.writes (Elt F) VO0_5.junk (kernelRun0_B c i arg1 harg1 arg2 harg2 arg3 harg3 arg4 harg4 arg5 harg5 arg6 harg6 arg7 harg7 hc0 hc1 x0 x1 x2 x3 x4 xs0).1)

/-- At a middle point the one store into the accumulator (the sum with this tile's contribution) reaches every cell. -/
theorem scover0_B_0 (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : ¬cond0_1 i)
    (x0 : Vec F S4000x4 .f32) (x1 : Vec F S4000x1 .i32) (x2 : Vec F S4x64 .f32) (x3 : Vec F S1x64 .f32) (x4 : Vec F S1024x1 .f32) (xs0 : Vec F S1024x64 .f32) (y : S1024x64.Idx) :
    ∃ pc ∈ (kernelRun0_B c i arg1 harg1 arg2 harg2 arg3 harg3 arg4 harg4 arg5 harg5 arg6 harg6 arg7 harg7 hc0 hc1 x0 x1 x2 x3 x4 xs0).2.1, y ∈ pc.1.set :=
  View.cover_of_tiledL (kernelRun0_B c i arg1 harg1 arg2 harg2 arg3 harg3 arg4 harg4 arg5 harg5 arg6 harg6 arg7 harg7 hc0 hc1 x0 x1 x2 x3 x4 xs0).2.1 S1024x64.size (by sl_kernel_rfl) y

/-- What a middle point leaves in the accumulator, entered at `xs0`. -/
def sout0_B_0 (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : ¬cond0_1 i)
    (x0 : Vec F S4000x4 .f32) (x1 : Vec F S4000x1 .i32) (x2 : Vec F S4x64 .f32) (x3 : Vec F S1x64 .f32) (x4 : Vec F S1024x1 .f32) (xs0 : Vec F S1024x64 .f32) : Vec F S1024x64 .f32 :=
  VS0_0.read (Elt F) (VS0_0.writes (Elt F) VS0_0.junk (kernelRun0_B c i arg1 harg1 arg2 harg2 arg3 harg3 arg4 harg4 arg5 harg5 arg6 harg6 arg7 harg7 hc0 hc1 x0 x1 x2 x3 x4 xs0).2.1)

/-- At the last point the output block is stored whole: its pieces reach every one of its 1024 × 64 cells. -/
theorem cover0_C_5 (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : cond0_1 i)
    (x0 : Vec F S4000x4 .f32) (x1 : Vec F S4000x1 .i32) (x2 : Vec F S4x64 .f32) (x3 : Vec F S1x64 .f32) (x4 : Vec F S1024x1 .f32) (xs0 : Vec F S1024x64 .f32) (y : S1024x64.Idx) :
    ∃ pc ∈ (kernelRun0_C c i arg1 harg1 arg2 harg2 arg3 harg3 arg4 harg4 arg5 harg5 arg6 harg6 arg7 harg7 hc0 hc1 x0 x1 x2 x3 x4 xs0).1, y ∈ pc.1.set :=
  View.cover_of_tiledL (kernelRun0_C c i arg1 harg1 arg2 harg2 arg3 harg3 arg4 harg4 arg5 harg5 arg6 harg6 arg7 harg7 hc0 hc1 x0 x1 x2 x3 x4 xs0).1 S1024x64.size (by sl_kernel_rfl) y

/-- What the last point leaves in the output block. -/
def out0_C_5 (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : cond0_1 i)
    (x0 : Vec F S4000x4 .f32) (x1 : Vec F S4000x1 .i32) (x2 : Vec F S4x64 .f32) (x3 : Vec F S1x64 .f32) (x4 : Vec F S1024x1 .f32) (xs0 : Vec F S1024x64 .f32) : Vec F S1024x64 .f32 :=
  VO0_5.read (Elt F) (VO0_5.writes (Elt F) VO0_5.junk (kernelRun0_C c i arg1 harg1 arg2 harg2 arg3 harg3 arg4 harg4 arg5 harg5 arg6 harg6 arg7 harg7 hc0 hc1 x0 x1 x2 x3 x4 xs0).1)

/-- At the last point the accumulator is again stored whole. -/
theorem scover0_C_0 (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : cond0_1 i)
    (x0 : Vec F S4000x4 .f32) (x1 : Vec F S4000x1 .i32) (x2 : Vec F S4x64 .f32) (x3 : Vec F S1x64 .f32) (x4 : Vec F S1024x1 .f32) (xs0 : Vec F S1024x64 .f32) (y : S1024x64.Idx) :
    ∃ pc ∈ (kernelRun0_C c i arg1 harg1 arg2 harg2 arg3 harg3 arg4 harg4 arg5 harg5 arg6 harg6 arg7 harg7 hc0 hc1 x0 x1 x2 x3 x4 xs0).2.1, y ∈ pc.1.set :=
  View.cover_of_tiledL (kernelRun0_C c i arg1 harg1 arg2 harg2 arg3 harg3 arg4 harg4 arg5 harg5 arg6 harg6 arg7 harg7 hc0 hc1 x0 x1 x2 x3 x4 xs0).2.1 S1024x64.size (by sl_kernel_rfl) y

/-- What the last point leaves in the accumulator, entered at `xs0`. -/
def sout0_C_0 (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : cond0_1 i)
    (x0 : Vec F S4000x4 .f32) (x1 : Vec F S4000x1 .i32) (x2 : Vec F S4x64 .f32) (x3 : Vec F S1x64 .f32) (x4 : Vec F S1024x1 .f32) (xs0 : Vec F S1024x64 .f32) : Vec F S1024x64 .f32 :=
  VS0_0.read (Elt F) (VS0_0.writes (Elt F) VS0_0.junk (kernelRun0_C c i arg1 harg1 arg2 harg2 arg3 harg3 arg4 harg4 arg5 harg5 arg6 harg6 arg7 harg7 hc0 hc1 x0 x1 x2 x3 x4 xs0).2.1)

/-! ## The output buffer and the accumulator after each point -/

/-- The running sum over the grid. After the body at position `n` the pair (output block, accumulator) is what the
    case of `n` leaves on the five input blocks of that point, the accumulator entered at what position `n - 1`
    left (at the first point it is cleared, so nothing earlier is read). No point is both first and last. -/
def outsAt0 (c : Dev nD) : (n : ℕ) → n < cfg0.N → Vec F S1024x64 .f32 × Vec F S1024x64 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 50 = 0 then
      if h1 : (n + 1) % 50 = 49 then
        False.elim (by have hN : n + 1 < 50 := lt_of_lt_of_eq hn (show cfg0.N = 50 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 50 = 49 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

/-- At a first point: the clearing case. -/
theorem outsAt0_A (c : Dev nD) (t : Fin cfg0.N) (h0 : t.val % 50 = 0) (h1 : ¬t.val % 50 = 49) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- At a middle point: the adding case over what the point before left. -/
theorem outsAt0_B (c : Dev nD) (t : Fin cfg0.N) (h0 : ¬t.val % 50 = 0) (h1 : ¬t.val % 50 = 49) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last point: the storing case over what the point before left. -/
theorem outsAt0_C (c : Dev nD) (t : Fin cfg0.N) (h0 : ¬t.val % 50 = 0) (h1 : t.val % 50 = 49) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before the first point the accumulator holds anything (the launch's invariant); before position `n + 1` it holds
    the running sum after position `n`. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- On core `c`: the arrays as the region finds them; after the body at point `t` each input's buffer still at its
    block and the output's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each input's current buffer holds its block at every point, whether the point fetched it or an earlier one did. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body's obligation at a generic point -/

/-- What the body is entered with at point `t`: the invariant, what the core owes, and the six current buffers. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 6400000 in
/-- The body at any point. The five inputs' buffers hold their blocks; the closed forms of the two conditions say which
    case the point is in, and that case's run applies. The invariant hands the body the accumulator at the running sum
    of the point before (at anything at the first point, where it is cleared) and takes it back at this point's sum,
    the run's stores covering it. Where the output block is idle its buffer comes back as it was found; at the last
    point it comes back at the stored block, the stores covering it. Nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  by_cases h0 : t.val % 50 = 0
  · by_cases h1 : t.val % 50 = 49
    · exfalso; omega
    · -- first point: clear, then add the first tile
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 50 = 49
    · -- last point: add the last tile, store the output block
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5_C t (fun h => h0 ((hcond0_0 t).mp h)) ((hcond0_1 t).mpr h1)], after0_5]
      rw [outsAt0_C m c t h0 h1]
      unfold out0_C_5 sout0_C_0; (try dsimp only)
      by_cases hz : t.val = 0
      · exfalso; have hN : t.val < 50 := lt_of_lt_of_eq t.isLt (show cfg0.N = 50 from N_0); omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _)
    · -- middle point: add this tile
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B m c t h0 h1]
      unfold sout0_B_0; (try dsimp only)
      by_cases hz : t.val = 0
      · exfalso; have hN : t.val < 50 := lt_of_lt_of_eq t.isLt (show cfg0.N = 50 from N_0); omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The pipeline's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 50 := N_0; omega)

/-! ## The run and the frame -/

set_option backward.isDefEq.respectTransparency.types false in
/-- From any memory with zero counters every weakly fair execution of @main on the TensorCores terminates, and in
    every final state each windowed array holds what the proof data computes for it and every other unscoped buffer
    holds its contents at region entry (nothing follows the region). -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the four argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Fr

end
-- ==== Proof.KIRuns.lean ====
/-
  What the three runs of the pooling kernel's body and the frame proof over them share, at any float family F.
  The program is host operations (five stretches: the sparse propagation, two calls of a select, the head's operands),
  then one pallas_call on a grid of 50 points, nothing after it.  Here: the buffer contents the region is entered with
  (`V`, the host stretches folded over the launch memory), @main up to the region, the four argument arrays untouched
  by every host operation, each window's block at a grid point read off `V`, that an input window's staging buffer
  holds its block at every point whether or not it was fetched there, the frame claim's post from a frame run, the two
  branch conditions of the body decided over the grid (the accumulator is reset at point 0, the output is stored at
  point 49), where the output window is idle, and the scratch accumulator as a memref the body owns.
-/
import proofs.«420619_j84035330113568_1_alg».proof.Proof.Gen.KernelIdeal.Launch
import proofs.«420619_j84035330113568_1_alg».proof.Proof.Gen.KernelIdeal.Skeleton
import proofs.«420619_j84035330113568_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: the five host stretches folded over the launch memory. -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is the five host stretches and then the region: it reduces to the region entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

set_option maxHeartbeats 4000000 in
/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is `V`'s and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is `V`'s and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run -/

/-- The argument arrays are no window's array and are unscoped: a frame run leaves them at their region-entry contents,
    which are the launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's two branch conditions -/

/-- "This is the first grid point": the accumulator is reset under it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

/-- "This is the last grid point": the output is stored under it. -/
abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Case A (first point, not last): the body stores nothing into the output window, which is idle and not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- Case B (neither first nor last): the same. -/
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- Case C (last point): the body stores the output window whole. -/
theorem liveAt0_5_C : ∀ t : Fin cfg0.N, ¬cond0_0 (grid0.coords t) → cond0_1 (grid0.coords t) → cfg0.idle 5 (grid0.coords t) = false := by decide +kernel

/-! ## The staging and scratch memrefs -/

/-- One staging buffer of the output window, through which its contents are stated. -/
abbrev VO0_5 : View sig .tc .vmem S1024x64 .f32 := (Memref.whole cc0_stg5_0 : Memref sig .tc .vmem S1024x64 .f32).view
abbrev ms0_0 (t : Fin cfg0.N) : Memref sig .tc .vmem S4000x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4000x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x64 .f32 := win0_5.stage (cfg0.slots t 5)
abbrev hs0_5 (t : Fin cfg0.N) : (ms0_5 t).IsWhole := hstage0_5 ((cfg0.slots t 5).cast nbuf0_5)
/-- The scratch accumulator: a whole scoped buffer of the kernel's own, carried from point to point. -/
abbrev scM0_0 : Memref sig .tc .vmem S1024x64 .f32 := Memref.whole cc0_scratch0
abbrev VS0_0 : View sig .tc .vmem S1024x64 .f32 := scM0_0.view

/-- The region invariant of the class with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KIRunA.lean ====
/-
  The pooling kernel's body at the FIRST grid point (the reset branch taken, the output branch not): run on whole
  staging memrefs holding the five input blocks, the output buffer at contents handed back untouched, the scratch
  accumulator at anything, it ends with the accumulator holding its stores (the zero fill, then the first tile's
  contribution added to what that fill left).
-/
import proofs.«420619_j84035330113568_1_alg».proof.Proof.KIRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces each buffer ends with (last store first), with the proof that the body runs to them. -/
noncomputable def kernelRun0_A (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : cond0_0 i) (hc1 : ¬cond0_1 i)
    (x0 : Vec F S4000x4 .f32) (x1 : Vec F S4000x1 .i32) (x2 : Vec F S4x64 .f32) (x3 : Vec F S1x64 .f32) (x4 : Vec F S1024x1 .f32) :
    Σ' (L5 : List (View.Piece (Elt F) S1024x64 .f32)), { LS0 : List (View.Piece (Elt F) S1024x64 .f32) //
      ∀ (xi5 : Vec F S1024x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__pool_kernel i arg1 harg1 arg2 harg2 arg3 harg3 arg4 harg4 arg5 harg5 arg6 harg6 arg7 harg7) K } := by
  refine ⟨[], ?_, fun xi5 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Fr

end
-- ==== Proof.KIRunB.lean ====
/-
  The pooling kernel's body at a MIDDLE grid point (neither branch taken): the accumulator, found at what the point
  before left, ends with this tile's contribution added; the output buffer is handed back untouched.
-/
import proofs.«420619_j84035330113568_1_alg».proof.Proof.KIRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces each buffer ends with (last store first), with the proof that the body runs to them. -/
noncomputable def kernelRun0_B (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : ¬cond0_1 i)
    (x0 : Vec F S4000x4 .f32) (x1 : Vec F S4000x1 .i32) (x2 : Vec F S4x64 .f32) (x3 : Vec F S1x64 .f32) (x4 : Vec F S1024x1 .f32) (xs0 : Vec F S1024x64 .f32) :
    Σ' (L5 : List (View.Piece (Elt F) S1024x64 .f32)), { LS0 : List (View.Piece (Elt F) S1024x64 .f32) //
      ∀ (xi5 : Vec F S1024x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__pool_kernel i arg1 harg1 arg2 harg2 arg3 harg3 arg4 harg4 arg5 harg5 arg6 harg6 arg7 harg7) K } := by
  refine ⟨[], ?_, fun xi5 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Fr

end
-- ==== Proof.KIRunC.lean ====
/-
  The pooling kernel's body at the LAST grid point (the output branch taken): the accumulator gets the last tile's
  contribution, and the output buffer is stored whole with the scaled, log-softmaxed accumulator.
-/
import proofs.«420619_j84035330113568_1_alg».proof.Proof.KIRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces each buffer ends with (last store first), with the proof that the body runs to them. -/
noncomputable def kernelRun0_C (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : cond0_1 i)
    (x0 : Vec F S4000x4 .f32) (x1 : Vec F S4000x1 .i32) (x2 : Vec F S4x64 .f32) (x3 : Vec F S1x64 .f32) (x4 : Vec F S1024x1 .f32) (xs0 : Vec F S1024x64 .f32) :
    Σ' (L5 : List (View.Piece (Elt F) S1024x64 .f32)), { LS0 : List (View.Piece (Elt F) S1024x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__pool_kernel i arg1 harg1 arg2 harg2 arg3 harg3 arg4 harg4 arg5 harg5 arg6 harg6 arg7 harg7) K } := by
  refine ⟨?_, ?_, fun E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Fr

end
-- ==== Proof.KIFrame.lean ====
/-
  The frame of the pooling kernel, at any float family F.  The kernel's body keeps a running sum in a scratch
  accumulator over the 50 points of its grid: at point 0 the accumulator is cleared and the first tile's contribution
  added, at every later point the tile's contribution is added to what the point before left, and at point 49 the
  output block is stored whole from the finished sum.  The output window's block index is the same at every point, so
  before point 49 the window is idle (nothing is stored into it, nothing is written back) and at point 49 it is written
  back once.  Here: what each of the three cases leaves in the output buffer and in the accumulator (the pieces of its
  run read back), the recursion over the grid giving both after each point, the region invariant that carries the
  accumulator at those contents, the pipeline's proof data, the body's obligation at a generic point (one of the three
  runs, chosen by the closed forms of the two branch conditions), and the run of @main with the frame it yields: the
  four argument arrays end as they were launched.
-/
import proofs.«420619_j84035330113568_1_alg».proof.Proof.KIRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output buffer and in the accumulator -/

/-- At the first point nothing is stored into the output block: the (empty) list of pieces read back. The window
    is idle there and not written back, so no later statement consults these contents. -/
def out0_A_5 (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : cond0_0 i) (hc1 : ¬cond0_1 i)
    (x0 : Vec F S4000x4 .f32) (x1 : Vec F S4000x1 .i32) (x2 : Vec F S4x64 .f32) (x3 : Vec F S1x64 .f32) (x4 : Vec F S1024x1 .f32) : Vec F S1024x64 .f32 :=
  VO0_5.read (Elt F) (VO0_5.writes (Elt F) VO0_5.junk (kernelRun0_A c i arg1 harg1 arg2 harg2 arg3 harg3 arg4 harg4 arg5 harg5 arg6 harg6 arg7 harg7 hc0 hc1 x0 x1 x2 x3 x4).1)

/-- At the first point the accumulator's stores (the clearing, then the sum with the first tile's contribution)
    reach every one of its 1024 × 64 cells. -/
theorem scover0_A_0 (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : cond0_0 i) (hc1 : ¬cond0_1 i)
    (x0 : Vec F S4000x4 .f32) (x1 : Vec F S4000x1 .i32) (x2 : Vec F S4x64 .f32) (x3 : Vec F S1x64 .f32) (x4 : Vec F S1024x1 .f32) (y : S1024x64.Idx) :
    ∃ pc ∈ (kernelRun0_A c i arg1 harg1 arg2 harg2 arg3 harg3 arg4 harg4 arg5 harg5 arg6 harg6 arg7 harg7 hc0 hc1 x0 x1 x2 x3 x4).2.1, y ∈ pc.1.set :=
  View.cover_of_tiledL (kernelRun0_A c i arg1 harg1 arg2 harg2 arg3 harg3 arg4 harg4 arg5 harg5 arg6 harg6 arg7 harg7 hc0 hc1 x0 x1 x2 x3 x4).2.1 S1024x64.size (by sl_kernel_rfl) y

/-- What the first point leaves in the accumulator: its stores read back. -/
def sout0_A_0 (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : cond0_0 i) (hc1 : ¬cond0_1 i)
    (x0 : Vec F S4000x4 .f32) (x1 : Vec F S4000x1 .i32) (x2 : Vec F S4x64 .f32) (x3 : Vec F S1x64 .f32) (x4 : Vec F S1024x1 .f32) : Vec F S1024x64 .f32 :=
  VS0_0.read (Elt F) (VS0_0.writes (Elt F) VS0_0.junk (kernelRun0_A c i arg1 harg1 arg2 harg2 arg3 harg3 arg4 harg4 arg5 harg5 arg6 harg6 arg7 harg7 hc0 hc1 x0 x1 x2 x3 x4).2.1)

/-- At a middle point nothing is stored into the output block either: the same placeholder. -/
def out0_B_5 (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : ¬cond0_1 i)
    (x0 : Vec F S4000x4 .f32) (x1 : Vec F S4000x1 .i32) (x2 : Vec F S4x64 .f32) (x3 : Vec F S1x64 .f32) (x4 : Vec F S1024x1 .f32) (xs0 : Vec F S1024x64 .f32) : Vec F S1024x64 .f32 :=
  VO0_5.read (Elt F) (VO0_5.writes (Elt F) VO0_5.junk (kernelRun0_B c i arg1 harg1 arg2 harg2 arg3 harg3 arg4 harg4 arg5 harg5 arg6 harg6 arg7 harg7 hc0 hc1 x0 x1 x2 x3 x4 xs0).1)

/-- At a middle point the one store into the accumulator (the sum with this tile's contribution) reaches every cell. -/
theorem scover0_B_0 (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : ¬cond0_1 i)
    (x0 : Vec F S4000x4 .f32) (x1 : Vec F S4000x1 .i32) (x2 : Vec F S4x64 .f32) (x3 : Vec F S1x64 .f32) (x4 : Vec F S1024x1 .f32) (xs0 : Vec F S1024x64 .f32) (y : S1024x64.Idx) :
    ∃ pc ∈ (kernelRun0_B c i arg1 harg1 arg2 harg2 arg3 harg3 arg4 harg4 arg5 harg5 arg6 harg6 arg7 harg7 hc0 hc1 x0 x1 x2 x3 x4 xs0).2.1, y ∈ pc.1.set :=
  View.cover_of_tiledL (kernelRun0_B c i arg1 harg1 arg2 harg2 arg3 harg3 arg4 harg4 arg5 harg5 arg6 harg6 arg7 harg7 hc0 hc1 x0 x1 x2 x3 x4 xs0).2.1 S1024x64.size (by sl_kernel_rfl) y

/-- What a middle point leaves in the accumulator, entered at `xs0`. -/
def sout0_B_0 (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : ¬cond0_1 i)
    (x0 : Vec F S4000x4 .f32) (x1 : Vec F S4000x1 .i32) (x2 : Vec F S4x64 .f32) (x3 : Vec F S1x64 .f32) (x4 : Vec F S1024x1 .f32) (xs0 : Vec F S1024x64 .f32) : Vec F S1024x64 .f32 :=
  VS0_0.read (Elt F) (VS0_0.writes (Elt F) VS0_0.junk (kernelRun0_B c i arg1 harg1 arg2 harg2 arg3 harg3 arg4 harg4 arg5 harg5 arg6 harg6 arg7 harg7 hc0 hc1 x0 x1 x2 x3 x4 xs0).2.1)

/-- At the last point the output block is stored whole: its pieces reach every one of its 1024 × 64 cells. -/
theorem cover0_C_5 (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : cond0_1 i)
    (x0 : Vec F S4000x4 .f32) (x1 : Vec F S4000x1 .i32) (x2 : Vec F S4x64 .f32) (x3 : Vec F S1x64 .f32) (x4 : Vec F S1024x1 .f32) (xs0 : Vec F S1024x64 .f32) (y : S1024x64.Idx) :
    ∃ pc ∈ (kernelRun0_C c i arg1 harg1 arg2 harg2 arg3 harg3 arg4 harg4 arg5 harg5 arg6 harg6 arg7 harg7 hc0 hc1 x0 x1 x2 x3 x4 xs0).1, y ∈ pc.1.set :=
  View.cover_of_tiledL (kernelRun0_C c i arg1 harg1 arg2 harg2 arg3 harg3 arg4 harg4 arg5 harg5 arg6 harg6 arg7 harg7 hc0 hc1 x0 x1 x2 x3 x4 xs0).1 S1024x64.size (by sl_kernel_rfl) y

/-- What the last point leaves in the output block. -/
def out0_C_5 (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : cond0_1 i)
    (x0 : Vec F S4000x4 .f32) (x1 : Vec F S4000x1 .i32) (x2 : Vec F S4x64 .f32) (x3 : Vec F S1x64 .f32) (x4 : Vec F S1024x1 .f32) (xs0 : Vec F S1024x64 .f32) : Vec F S1024x64 .f32 :=
  VO0_5.read (Elt F) (VO0_5.writes (Elt F) VO0_5.junk (kernelRun0_C c i arg1 harg1 arg2 harg2 arg3 harg3 arg4 harg4 arg5 harg5 arg6 harg6 arg7 harg7 hc0 hc1 x0 x1 x2 x3 x4 xs0).1)

/-- At the last point the accumulator is again stored whole. -/
theorem scover0_C_0 (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : cond0_1 i)
    (x0 : Vec F S4000x4 .f32) (x1 : Vec F S4000x1 .i32) (x2 : Vec F S4x64 .f32) (x3 : Vec F S1x64 .f32) (x4 : Vec F S1024x1 .f32) (xs0 : Vec F S1024x64 .f32) (y : S1024x64.Idx) :
    ∃ pc ∈ (kernelRun0_C c i arg1 harg1 arg2 harg2 arg3 harg3 arg4 harg4 arg5 harg5 arg6 harg6 arg7 harg7 hc0 hc1 x0 x1 x2 x3 x4 xs0).2.1, y ∈ pc.1.set :=
  View.cover_of_tiledL (kernelRun0_C c i arg1 harg1 arg2 harg2 arg3 harg3 arg4 harg4 arg5 harg5 arg6 harg6 arg7 harg7 hc0 hc1 x0 x1 x2 x3 x4 xs0).2.1 S1024x64.size (by sl_kernel_rfl) y

/-- What the last point leaves in the accumulator, entered at `xs0`. -/
def sout0_C_0 (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : cond0_1 i)
    (x0 : Vec F S4000x4 .f32) (x1 : Vec F S4000x1 .i32) (x2 : Vec F S4x64 .f32) (x3 : Vec F S1x64 .f32) (x4 : Vec F S1024x1 .f32) (xs0 : Vec F S1024x64 .f32) : Vec F S1024x64 .f32 :=
  VS0_0.read (Elt F) (VS0_0.writes (Elt F) VS0_0.junk (kernelRun0_C c i arg1 harg1 arg2 harg2 arg3 harg3 arg4 harg4 arg5 harg5 arg6 harg6 arg7 harg7 hc0 hc1 x0 x1 x2 x3 x4 xs0).2.1)

/-! ## The output buffer and the accumulator after each point -/

/-- The running sum over the grid. After the body at position `n` the pair (output block, accumulator) is what the
    case of `n` leaves on the five input blocks of that point, the accumulator entered at what position `n - 1`
    left (at the first point it is cleared, so nothing earlier is read). No point is both first and last. -/
def outsAt0 (c : Dev nD) : (n : ℕ) → n < cfg0.N → Vec F S1024x64 .f32 × Vec F S1024x64 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 50 = 0 then
      if h1 : (n + 1) % 50 = 49 then
        False.elim (by have hN : n + 1 < 50 := lt_of_lt_of_eq hn (show cfg0.N = 50 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 50 = 49 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

/-- At a first point: the clearing case. -/
theorem outsAt0_A (c : Dev nD) (t : Fin cfg0.N) (h0 : t.val % 50 = 0) (h1 : ¬t.val % 50 = 49) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- At a middle point: the adding case over what the point before left. -/
theorem outsAt0_B (c : Dev nD) (t : Fin cfg0.N) (h0 : ¬t.val % 50 = 0) (h1 : ¬t.val % 50 = 49) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last point: the storing case over what the point before left. -/
theorem outsAt0_C (c : Dev nD) (t : Fin cfg0.N) (h0 : ¬t.val % 50 = 0) (h1 : t.val % 50 = 49) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before the first point the accumulator holds anything (the launch's invariant); before position `n + 1` it holds
    the running sum after position `n`. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- On core `c`: the arrays as the region finds them; after the body at point `t` each input's buffer still at its
    block and the output's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each input's current buffer holds its block at every point, whether the point fetched it or an earlier one did. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body's obligation at a generic point -/

/-- What the body is entered with at point `t`: the invariant, what the core owes, and the six current buffers. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 6400000 in
/-- The body at any point. The five inputs' buffers hold their blocks; the closed forms of the two conditions say which
    case the point is in, and that case's run applies. The invariant hands the body the accumulator at the running sum
    of the point before (at anything at the first point, where it is cleared) and takes it back at this point's sum,
    the run's stores covering it. Where the output block is idle its buffer comes back as it was found; at the last
    point it comes back at the stored block, the stores covering it. Nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  by_cases h0 : t.val % 50 = 0
  · by_cases h1 : t.val % 50 = 49
    · exfalso; omega
    · -- first point: clear, then add the first tile
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 50 = 49
    · -- last point: add the last tile, store the output block
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5_C t (fun h => h0 ((hcond0_0 t).mp h)) ((hcond0_1 t).mpr h1)], after0_5]
      rw [outsAt0_C m c t h0 h1]
      unfold out0_C_5 sout0_C_0; (try dsimp only)
      by_cases hz : t.val = 0
      · exfalso; have hN : t.val < 50 := lt_of_lt_of_eq t.isLt (show cfg0.N = 50 from N_0); omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _)
    · -- middle point: add this tile
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B m c t h0 h1]
      unfold sout0_B_0; (try dsimp only)
      by_cases hz : t.val = 0
      · exfalso; have hN : t.val < 50 := lt_of_lt_of_eq t.isLt (show cfg0.N = 50 from N_0); omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The pipeline's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 50 := N_0; omega)

/-! ## The run and the frame -/

set_option backward.isDefEq.respectTransparency.types false in
/-- From any memory with zero counters every weakly fair execution of @main on the TensorCores terminates, and in
    every final state each windowed array holds what the proof data computes for it and every other unscoped buffer
    holds its contents at region entry (nothing follows the region). -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the four argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Fr

end
-- ==== Proof.KIAcc.lean ====
/-
  The pooling kernel's value as pure terms of the blocks the region finds.  At grid point t the tile contributes
  the one-hot pooling of its 4000 nodes' class scores (`contrib`); the scratch accumulator after point t is the zero
  fill plus the contributions of points 0..t, added one after the other (`acc`); the output array is the scaled,
  row-wise log-softmaxed accumulator after the last point (`outK`).
-/
import proofs.«420619_j84035330113568_1_alg».proof.Proof.KIRuns

noncomputable section

namespace Cert.KernelIdeal.Val

open Cert.KernelIdeal Cert.KernelIdeal.Gen Cert.KernelIdeal.Fr
open Idealize.ShloMosaic Idealize.ShloMosaic.TcCoe Idealize.SL.Sem

variable {F : FTy → Type} [FloatOps F]
variable (m : (ℓ : Loc nD τ sig) → Buf (Elt F) ℓ)

theorem lastPt : 49 < cfg0.N := by decide

/-- What the tile of grid point `t` adds to the accumulator: from the node features' block (window 0), the weights
    (window 2), the summed biases (window 3) and the graph ids' block (window 1). -/
def contrib (c : Dev nD) (t : Fin cfg0.N) : FVec F S1024x64 .f32 :=
  k0_pay4 (iblk m c 0 t) (iblk m c 2 t) (iblk m c 3 t) (iblk m c 1 t)

/-- The accumulator after grid point `n`. -/
def acc (c : Dev nD) : (n : ℕ) → n < cfg0.N → Vec F S1024x64 .f32
  | 0, h => k0_pay1 (contrib m c ⟨0, h⟩) k0_pay3
  | n + 1, h => k0_pay1 (contrib m c ⟨n + 1, h⟩) (acc c n (Nat.lt_of_succ_lt h))

/-- The output array the kernel leaves: from the reciprocal counts (window 4) and the final accumulator. -/
def outK (c : Dev nD) : FVec F S1024x64 .f32 :=
  k0_pay2 (iblk m c 4 ⟨49, lastPt⟩) (acc m c 49 lastPt)

end Cert.KernelIdeal.Val

end
-- ==== Proof.KIValue.lean ====
/-
  The value the pooling kernel leaves, as pure terms of the blocks the region finds.  Each case's stores, read back, are
  the payload terms of the body: the first point leaves the cleared accumulator plus the first tile's contribution, a
  later point leaves what it found plus its tile's contribution, and the last point stores the output block from the
  finished sum.  By induction over the grid the accumulator after point n is the running sum `acc`; the output
  window's one block is the whole array and is written back at the last point only, so the array ends at `outK`.
-/
import proofs.«420619_j84035330113568_1_alg».proof.Proof.KIFrame
import proofs.«420619_j84035330113568_1_alg».proof.Proof.KIAcc
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ) (ρ : Dev nD → PrngReg)

/-- Every load and store of the body is through the whole of its buffer: offsets (0, 0). -/
theorem off00 : (![0, 0] : Fin 2 → Nat) = fun _ => 0 := funext fun a => by fin_cases a <;> rfl

/-! ## What each case's stores are -/

/-- First point: the accumulator is cleared, read back, and the first tile's contribution added to it. -/
theorem soutA_eq (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : cond0_0 i) (hc1 : ¬cond0_1 i)
    (x0 : Vec F S4000x4 .f32) (x1 : Vec F S4000x1 .i32) (x2 : Vec F S4x64 .f32) (x3 : Vec F S1x64 .f32) (x4 : Vec F S1024x1 .f32) :
    sout0_A_0 c i arg1 harg1 arg2 harg2 arg3 harg3 arg4 harg4 arg5 harg5 arg6 harg6 arg7 harg7 hc0 hc1 x0 x1 x2 x3 x4 = k0_pay1 (k0_pay4 x0 x2 x3 x1) k0_pay3 := by
  unfold sout0_A_0
  rw [View.read_writes_eq_canon _ _ _ (scover0_A_0 c i arg1 harg1 arg2 harg2 arg3 harg3 arg4 harg4 arg5 harg5 arg6 harg6 arg7 harg7 hc0 hc1 x0 x1 x2 x3 x4)]
  unfold kernelRun0_A
  dsimp only
  sl_unfold_words
  rw [View.canon_cons_unit_zero (S := S1024x64) off00, View.readCov_unit_zero (S := S1024x64) _ off00]
  simp only [View.readAt_eq_ld, harg1.read_unread, harg2.read_unread, harg3.read_unread, harg4.read_unread, harg5.read_unread, harg7.read_unread,
    View.ld_unit_zero (S := S4000x4) off00, View.ld_unit_zero (S := S4000x1) off00, View.ld_unit_zero (S := S4x64) off00, View.ld_unit_zero (S := S1x64) off00,
    View.ld_unit_zero (S := S1024x1) off00, View.ld_unit_zero (S := S1024x64) off00]

/-- Middle point: the tile's contribution added to what the accumulator held. -/
theorem soutB_eq (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : ¬cond0_1 i)
    (x0 : Vec F S4000x4 .f32) (x1 : Vec F S4000x1 .i32) (x2 : Vec F S4x64 .f32) (x3 : Vec F S1x64 .f32) (x4 : Vec F S1024x1 .f32) (xs0 : Vec F S1024x64 .f32) :
    sout0_B_0 c i arg1 harg1 arg2 harg2 arg3 harg3 arg4 harg4 arg5 harg5 arg6 harg6 arg7 harg7 hc0 hc1 x0 x1 x2 x3 x4 xs0 = k0_pay1 (k0_pay4 x0 x2 x3 x1) xs0 := by
  unfold sout0_B_0
  rw [View.read_writes_eq_canon _ _ _ (scover0_B_0 c i arg1 harg1 arg2 harg2 arg3 harg3 arg4 harg4 arg5 harg5 arg6 harg6 arg7 harg7 hc0 hc1 x0 x1 x2 x3 x4 xs0)]
  unfold kernelRun0_B
  dsimp only
  sl_unfold_words
  rw [View.canon_unit_zero (S := S1024x64) off00]
  simp only [View.readAt_eq_ld, harg1.read_unread, harg2.read_unread, harg3.read_unread, harg4.read_unread, harg5.read_unread, harg7.read_unread,
    View.ld_unit_zero (S := S4000x4) off00, View.ld_unit_zero (S := S4000x1) off00, View.ld_unit_zero (S := S4x64) off00, View.ld_unit_zero (S := S1x64) off00,
    View.ld_unit_zero (S := S1024x1) off00, View.ld_unit_zero (S := S1024x64) off00]

/-- Last point, the accumulator: the same sum as at a middle point. -/
theorem soutC_eq (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : cond0_1 i)
    (x0 : Vec F S4000x4 .f32) (x1 : Vec F S4000x1 .i32) (x2 : Vec F S4x64 .f32) (x3 : Vec F S1x64 .f32) (x4 : Vec F S1024x1 .f32) (xs0 : Vec F S1024x64 .f32) :
    sout0_C_0 c i arg1 harg1 arg2 harg2 arg3 harg3 arg4 harg4 arg5 harg5 arg6 harg6 arg7 harg7 hc0 hc1 x0 x1 x2 x3 x4 xs0 = k0_pay1 (k0_pay4 x0 x2 x3 x1) xs0 := by
  unfold sout0_C_0
  rw [View.read_writes_eq_canon _ _ _ (scover0_C_0 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero (S := S1024x64) off00]
  simp only [View.readAt_eq_ld, harg1.read_unread, harg2.read_unread, harg3.read_unread, harg4.read_unread, harg5.read_unread, harg7.read_unread,
    View.ld_unit_zero (S := S4000x4) off00, View.ld_unit_zero (S := S4000x1) off00, View.ld_unit_zero (S := S4x64) off00, View.ld_unit_zero (S := S1x64) off00,
    View.ld_unit_zero (S := S1024x1) off00, View.ld_unit_zero (S := S1024x64) off00]

/-- Last point, the output block: stored from the reciprocal counts and the finished sum read back. -/
theorem outC_eq (c : Dev nD) (i : grid0.Coords) (arg1 : Memref sig .tc .vmem S4000x4 .f32) (harg1 : arg1.IsWhole) (arg2 : Memref sig .tc .vmem S4000x1 .i32) (harg2 : arg2.IsWhole) (arg3 : Memref sig .tc .vmem S4x64 .f32) (harg3 : arg3.IsWhole) (arg4 : Memref sig .tc .vmem S1x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : cond0_1 i)
    (x0 : Vec F S4000x4 .f32) (x1 : Vec F S4000x1 .i32) (x2 : Vec F S4x64 .f32) (x3 : Vec F S1x64 .f32) (x4 : Vec F S1024x1 .f32) (xs0 : Vec F S1024x64 .f32) :
    out0_C_5 c i arg1 harg1 arg2 harg2 arg3 harg3 arg4 harg4 arg5 harg5 arg6 harg6 arg7 harg7 hc0 hc1 x0 x1 x2 x3 x4 xs0 = k0_pay2 x4 (k0_pay1 (k0_pay4 x0 x2 x3 x1) xs0) := by
  unfold out0_C_5
  rw [View.read_writes_eq_canon _ _ _ (cover0_C_5 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero (S := S1024x64) off00, View.readCov_unit_zero (S := S1024x64) _ off00]
  simp only [View.readAt_eq_ld, harg1.read_unread, harg2.read_unread, harg3.read_unread, harg4.read_unread, harg5.read_unread, harg7.read_unread,
    View.ld_unit_zero (S := S4000x4) off00, View.ld_unit_zero (S := S4000x1) off00, View.ld_unit_zero (S := S4x64) off00, View.ld_unit_zero (S := S1x64) off00,
    View.ld_unit_zero (S := S1024x1) off00, View.ld_unit_zero (S := S1024x64) off00]

/-! ## The accumulator after each point is the running sum -/

theorem outsAt_snd_nat (c : Dev nD) : ∀ (n : ℕ) (hn : n < cfg0.N), (outsAt0 m c n hn).2 = acc m c n hn := by
  intro n
  induction n with
  | zero =>
    intro hn
    have h0 : (⟨0, hn⟩ : Fin cfg0.N).val % 50 = 0 := Nat.zero_mod _
    have h1 : ¬(⟨0, hn⟩ : Fin cfg0.N).val % 50 = 49 := by show ¬((0 : ℕ) % 50 = 49); decide
    rw [outsAt0_A m c ⟨0, hn⟩ h0 h1]
    dsimp only
    exact soutA_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩)
  | succ n ih =>
    intro hn
    have hN : n + 1 < 50 := lt_of_lt_of_eq hn (show cfg0.N = 50 from N_0)
    have h0 : ¬(⟨n + 1, hn⟩ : Fin cfg0.N).val % 50 = 0 := by show ¬((n + 1) % 50 = 0); omega
    by_cases h1 : (⟨n + 1, hn⟩ : Fin cfg0.N).val % 50 = 49
    · rw [outsAt0_C m c ⟨n + 1, hn⟩ h0 h1]
      dsimp only
      refine (soutC_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 m c ((⟨n + 1, hn⟩ : Fin cfg0.N).val - 1) (Nat.lt_of_le_of_lt (Nat.sub_le _ _) (⟨n + 1, hn⟩ : Fin cfg0.N).isLt)).2).trans ?_
      exact congrArg (k0_pay1 (contrib m c ⟨n + 1, hn⟩)) (ih (Nat.lt_of_succ_lt hn))
    · rw [outsAt0_B m c ⟨n + 1, hn⟩ h0 h1]
      dsimp only
      refine (soutB_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 m c ((⟨n + 1, hn⟩ : Fin cfg0.N).val - 1) (Nat.lt_of_le_of_lt (Nat.sub_le _ _) (⟨n + 1, hn⟩ : Fin cfg0.N).isLt)).2).trans ?_
      exact congrArg (k0_pay1 (contrib m c ⟨n + 1, hn⟩)) (ih (Nat.lt_of_succ_lt hn))

/-- After point `t` the accumulator holds the zero fill plus the contributions of points 0 … t, added in order. -/
theorem outsAt_snd (c : Dev nD) (t : Fin cfg0.N) : (outsAt0 m c t.val t.isLt).2 = acc m c t.val t.isLt :=
  outsAt_snd_nat m c t.val t.isLt

/-- After the last point the output block holds the kernel's result. -/
theorem after_last (c : Dev nD) : (outsAt0 m c (⟨49, lastPt⟩ : Fin cfg0.N).val (⟨49, lastPt⟩ : Fin cfg0.N).isLt).1 = outK m c := by
  have h0 : ¬(⟨49, lastPt⟩ : Fin cfg0.N).val % 50 = 0 := by show ¬((49 : ℕ) % 50 = 0); decide
  have h1 : (⟨49, lastPt⟩ : Fin cfg0.N).val % 50 = 49 := rfl
  rw [outsAt0_C m c ⟨49, lastPt⟩ h0 h1]
  dsimp only
  refine (outC_eq c (grid0.coords ⟨49, lastPt⟩) (ms0_0 ⟨49, lastPt⟩) (hs0_0 ⟨49, lastPt⟩) (ms0_1 ⟨49, lastPt⟩) (hs0_1 ⟨49, lastPt⟩) (ms0_2 ⟨49, lastPt⟩) (hs0_2 ⟨49, lastPt⟩) (ms0_3 ⟨49, lastPt⟩) (hs0_3 ⟨49, lastPt⟩) (ms0_4 ⟨49, lastPt⟩) (hs0_4 ⟨49, lastPt⟩) (ms0_5 ⟨49, lastPt⟩) (hs0_5 ⟨49, lastPt⟩) scM0_0 (Memref.isWhole_whole _) (fun h => h0 ((hcond0_0 ⟨49, lastPt⟩).mp h)) ((hcond0_1 ⟨49, lastPt⟩).mpr h1) (iblk m c 0 ⟨49, lastPt⟩) (iblk m c 1 ⟨49, lastPt⟩) (iblk m c 2 ⟨49, lastPt⟩) (iblk m c 3 ⟨49, lastPt⟩) (iblk m c 4 ⟨49, lastPt⟩) (outsAt0 m c ((⟨49, lastPt⟩ : Fin cfg0.N).val - 1) (Nat.lt_of_le_of_lt (Nat.sub_le _ _) (⟨49, lastPt⟩ : Fin cfg0.N).isLt)).2).trans ?_
  exact congrArg (k0_pay2 (iblk m c 4 ⟨49, lastPt⟩)) (congrArg (k0_pay1 (contrib m c ⟨49, lastPt⟩)) (outsAt_snd_nat m c 48 (Nat.lt_of_succ_lt lastPt)))

/-! ## The output array -/

/-- The one write-back of the output window, at the last point, writes the result: the window's block (0, 0) of the
    [1024, 64] array, read through zero offsets, is the whole array. -/
theorem flushed_eq (c : Dev nD) (t : Fin cfg0.N) (hf : (cfg0.win 5).flush t = true) :
    (dats m 0 c).flushed 5 t = ((cfg0.win 5).blk t).view.read (Elt F) (outK m c) := by
  have hN : cfg0.N = 50 := N_0
  have h1 : t.val = 49 := by have := (flush0_5 t).mp hf; have := t.isLt; omega
  obtain rfl : t = ⟨49, lastPt⟩ := Fin.ext h1
  show (cfg0.win 5).cut (grid0.coords ⟨49, lastPt⟩) ((dats m 0 c).after 5 ⟨49, lastPt⟩) = _
  rw [after0_5, after_last]
  have hz' : (fun a => win0_5.index ⟨49, lastPt⟩ a * main_v94.ty.shape.size a) = fun _ => 0 := funext fun a => by fin_cases a <;> decide
  exact (Memref.read_access_unit_zero (Elt F) main_v94 hz' (fun a => by rw [congrFun hz' a]; simp) (outK m c)).symm

/-- So the output array ends at the result: the last point's block covers all of it. -/
theorem final_out (c : Dev nD) : (dats m 0 c).arrAt 5 cfg0.N = outK m c :=
  (dats m 0 c).arrAt_eq_of_cover 5 (outK m c) (flushed_eq m c) fun i =>
    ⟨⟨49, lastPt⟩, (flush0_5 ⟨49, lastPt⟩).mpr rfl, by
      show i ∈ ((View.whole main_v94).slice (win0_5.rect ⟨49, lastPt⟩)).set
      rw [View.set_slice_whole, Rect.mem_set_unit]
      intro a
      have h0 : (i 0 : Nat) < 1024 := (i 0).isLt
      have h1 : (i 1 : Nat) < 64 := (i 1).isLt
      match a with
      | ⟨0, _⟩ => show win0_5.index ⟨49, lastPt⟩ 0 * win0_5.size 0 ≤ (i 0 : Nat) ∧ (i 0 : Nat) < win0_5.index ⟨49, lastPt⟩ 0 * win0_5.size 0 + win0_5.xsize (grid0.coords ⟨49, lastPt⟩) 0
                  rw [show win0_5.index ⟨49, lastPt⟩ 0 * win0_5.size 0 = 0 from by decide +kernel, show win0_5.xsize (grid0.coords ⟨49, lastPt⟩) 0 = 1024 from by decide +kernel]; omega
      | ⟨1, _⟩ => show win0_5.index ⟨49, lastPt⟩ 1 * win0_5.size 1 ≤ (i 1 : Nat) ∧ (i 1 : Nat) < win0_5.index ⟨49, lastPt⟩ 1 * win0_5.size 1 + win0_5.xsize (grid0.coords ⟨49, lastPt⟩) 1
                  rw [show win0_5.index ⟨49, lastPt⟩ 1 * win0_5.size 1 = 0 from by decide +kernel, show win0_5.xsize (grid0.coords ⟨49, lastPt⟩) 1 = 64 from by decide +kernel]; omega⟩

/-! ## The run, read -/

/-- Every weakly fair execution of @main terminates with the output array at the result and the four argument arrays
    as they were launched. -/
theorem run_value : θ_run defs (onTc (τ := τ) (main (F := F))) ⟨m, fun _ => 0, ρ⟩ (fun r => ∀ c : Dev nD,
      r.2.mem ((c.tc : Thread nD τ).loc main_v94) = outK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 5).trans (final_out m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Val

end
-- ==== Proof.Spec.lean ====
/-
  The mathematics both programs compute, index by index over the extended reals, with no program in sight.
  A node r of the 200000 carries four propagated features X r k (one per hop); class q's score of node r is the summed
  biases plus, hop by hop, feature times that hop's weight:  bsum q + Σ_k X r k · W k q.  Graph g pools the nodes whose
  graph id is g and scales by the reciprocal of its node count ic g.  The kernel pools the already summed per-node scores
  (`scoreK`); the reference pools each hop's linear layer separately and adds the four scaled pools (`scoreR`).  With
  every quantity a real number the two agree: pooling and scaling are linear (`score_eq`).
-/
import Idealize.ShloMosaic.PureOps.Ideal
import Idealize.ShloMosaic.Lib.ValueIdx
import Mathlib.Data.EReal.Basic
import Mathlib.Data.EReal.Operations
import Mathlib.Algebra.BigOperators.Group.Finset.Basic
import Mathlib.Algebra.BigOperators.Fin
import Mathlib.Tactic.Ring

noncomputable section

open scoped BigOperators

namespace Cert.Spec

/-- A value is finite when it is neither infinity: the image of a real number. -/
def Fin' (x : EReal) : Prop := x ≠ ⊤ ∧ x ≠ ⊥

/-- The four biases of class `q` summed the way a host sum does it: the initial zero, then the rows. -/
def bsum (b : Fin 4 → Fin 64 → EReal) (q : Fin 64) : EReal := 0 + ∑ k : Fin 4, b k q

/-- Node `r`'s score for class `q` as the kernel forms it: the summed bias, then hop after hop added on the right. -/
def nodeK (X : Fin 200000 → Fin 4 → EReal) (W : Fin 4 → Fin 64 → EReal) (bs : Fin 64 → EReal)
    (r : Fin 200000) (q : Fin 64) : EReal :=
  (((bs q + X r 0 * W 0 q) + X r 1 * W 1 q) + X r 2 * W 2 q) + X r 3 * W 3 q

/-- Whether node `r` belongs to graph `g`, as the number 1 or 0: its graph id is the 32-bit word of `g`. -/
def ind (bt : Fin 200000 → BitVec 32) (g : Fin 1024) (r : Fin 200000) : EReal :=
  if bt r = BitVec.ofNat 32 g.val then 1 else 0

/-- The kernel's pooled score of graph `g`, class `q`: every node's score weighted by membership, summed, then scaled. -/
def scoreK (X : Fin 200000 → Fin 4 → EReal) (W b : Fin 4 → Fin 64 → EReal) (bt : Fin 200000 → BitVec 32)
    (ic : Fin 1024 → EReal) (g : Fin 1024) (q : Fin 64) : EReal :=
  (∑ r : Fin 200000, ind bt g r * nodeK X W (bsum b) r q) * ic g

/-- Hop `k`'s linear layer pooled over graph `g`: the members' `X r k · W k q + b k q`, summed. -/
def poolR (X : Fin 200000 → Fin 4 → EReal) (W b : Fin 4 → Fin 64 → EReal) (bt : Fin 200000 → BitVec 32)
    (k : Fin 4) (g : Fin 1024) (q : Fin 64) : EReal :=
  ∑ r : Fin 200000, if (bt r).toInt = (g.val : Int) then X r k * W k q + b k q else 0

/-- The reference's score: the four hops' pools, each scaled, added left to right. -/
def scoreR (X : Fin 200000 → Fin 4 → EReal) (W b : Fin 4 → Fin 64 → EReal) (bt : Fin 200000 → BitVec 32)
    (ic : Fin 1024 → EReal) (g : Fin 1024) (q : Fin 64) : EReal :=
  ((poolR X W b bt 0 g q * ic g + poolR X W b bt 1 g q * ic g) + poolR X W b bt 2 g q * ic g) + poolR X W b bt 3 g q * ic g

/-- A 32-bit word is the word of a number below 2^31 exactly when its signed reading is that number. -/
theorem word_eq_iff (v : BitVec 32) (n : Nat) (h : n < 2 ^ 31) :
    v = BitVec.ofNat 32 n ↔ v.toInt = (n : Int) := by
  have h1 : (BitVec.ofNat 32 n).toInt = (n : Int) := by
    rw [BitVec.toInt_eq_toNat_cond, BitVec.toNat_ofNat]
    have : n % 2 ^ 32 = n := Nat.mod_eq_of_lt (by omega)
    rw [this]
    split <;> omega
  constructor
  · intro hv; rw [hv, h1]
  · intro hv; apply BitVec.eq_of_toInt_eq; rw [hv, h1]

/-- The embedding of the reals carries a finite sum to the sum of the images. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite extended real is the image of a real number. -/
theorem Fin'.exists_real {x : EReal} (h : Fin' x) : ∃ y : ℝ, x = (y : EReal) :=
  ⟨x.toReal, (EReal.coe_toReal h.1 h.2).symm⟩

/-- The agreement when every datum is given as a real number: both sides are images of real numbers, and there
pooling distributes over the hop-by-hop sum and scaling over the four pools. -/
theorem score_eq_real (x : Fin 200000 → Fin 4 → ℝ) (w β : Fin 4 → Fin 64 → ℝ) (bt : Fin 200000 → BitVec 32)
    (κ : Fin 1024 → ℝ) (g : Fin 1024) (q : Fin 64) :
    scoreK (fun r k => (x r k : EReal)) (fun k q => (w k q : EReal)) (fun k q => (β k q : EReal)) bt
        (fun g => (κ g : EReal)) g q
      = scoreR (fun r k => (x r k : EReal)) (fun k q => (w k q : EReal)) (fun k q => (β k q : EReal)) bt
        (fun g => (κ g : EReal)) g q := by
  -- the two membership tests agree, the graph number being below 2^31
  have hc : ∀ r, ((bt r).toInt = (g.val : Int)) ↔ (bt r = BitVec.ofNat 32 g.val) := fun r =>
    (word_eq_iff (bt r) g.val (by have := g.isLt; omega)).symm
  -- the kernel's summand is the image of a real number
  have hK : ∀ r, ind bt g r * nodeK (fun r k => (x r k : EReal)) (fun k q => (w k q : EReal))
        (bsum fun k q => (β k q : EReal)) r q
      = (((if bt r = BitVec.ofNat 32 g.val then (1 : ℝ) else 0)
          * (((((0 + ∑ k : Fin 4, β k q) + x r 0 * w 0 q) + x r 1 * w 1 q) + x r 2 * w 2 q) + x r 3 * w 3 q) : ℝ) : EReal) := by
    intro r
    unfold ind nodeK bsum
    simp only [coe_sum]
    by_cases h : bt r = BitVec.ofNat 32 g.val
    · simp only [if_pos h, EReal.coe_mul, EReal.coe_add, EReal.coe_zero, EReal.coe_one]
    · simp only [if_neg h, EReal.coe_mul, EReal.coe_add, EReal.coe_zero]
  -- so is the reference's summand, hop by hop
  have hR : ∀ (k : Fin 4) r, (if (bt r).toInt = (g.val : Int) then (x r k : EReal) * (w k q : EReal) + (β k q : EReal) else 0)
      = ((if bt r = BitVec.ofNat 32 g.val then x r k * w k q + β k q else 0 : ℝ) : EReal) := by
    intro k r
    by_cases h : bt r = BitVec.ofNat 32 g.val
    · rw [if_pos ((hc r).2 h), if_pos h, EReal.coe_add, EReal.coe_mul]
    · rw [if_neg (fun h' => h ((hc r).1 h')), if_neg h, EReal.coe_zero]
  unfold scoreK scoreR poolR
  simp only [hK, hR]
  simp only [coe_sum, ← EReal.coe_mul, ← EReal.coe_add]
  refine congrArg (fun t : ℝ => (t : EReal)) ?_
  -- the identity among real numbers: scaling distributes over the four pools, pooling over the four hops
  rw [← add_mul, ← add_mul, ← add_mul]
  refine congrArg (fun t : ℝ => t * κ g) ?_
  rw [← Finset.sum_add_distrib, ← Finset.sum_add_distrib, ← Finset.sum_add_distrib]
  apply Finset.sum_congr rfl
  intro r _
  by_cases h : bt r = BitVec.ofNat 32 g.val
  · simp only [if_pos h, Fin.sum_univ_four]; ring
  · simp only [if_neg h]; ring

/-- With all data finite, pooling the summed scores and scaling is adding the four scaled pools. -/
theorem score_eq (X : Fin 200000 → Fin 4 → EReal) (W b : Fin 4 → Fin 64 → EReal) (bt : Fin 200000 → BitVec 32)
    (ic : Fin 1024 → EReal) (hX : ∀ r k, Fin' (X r k)) (hW : ∀ k q, Fin' (W k q)) (hb : ∀ k q, Fin' (b k q))
    (hic : ∀ g, Fin' (ic g)) (g : Fin 1024) (q : Fin 64) :
    scoreK X W b bt ic g q = scoreR X W b bt ic g q := by
  choose x hx using fun r k => (hX r k).exists_real
  choose w hw using fun k q => (hW k q).exists_real
  choose β hβ using fun k q => (hb k q).exists_real
  choose κ hκ using fun g => (hic g).exists_real
  have eX : X = fun r k => (x r k : EReal) := funext fun r => funext fun k => hx r k
  have eW : W = fun k q => (w k q : EReal) := funext fun k => funext fun q => hw k q
  have eb : b = fun k q => (β k q : EReal) := funext fun k => funext fun q => hβ k q
  have eic : ic = fun g => (κ g : EReal) := funext fun g => hκ g
  rw [eX, eW, eb, eic]
  exact score_eq_real x w β bt κ g q

end Cert.Spec

end
-- ==== Proof.KIReadPay.lean ====
/-
  The pooling kernel's three payloads read at an index, over the extended reals.  The zero fill is 0 everywhere; the
  accumulator's update is the old value plus the tile's contribution; the tile's contribution at (g, q) is the sum over
  the tile's 4000 nodes of [the node's graph id is the word of g] times the node's class-q score, the score being the
  bias plus, feature by feature, the feature times its weight.  The membership factor is an equality test of two words
  widened and read as a signed integer (1 or 0); the change of float format before the product is the identity; the
  product contracts axis 0 of both operands into a zero accumulator, so it is the plain sum of products.
-/
import proofs.«420619_j84035330113568_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open scoped BigOperators

/-- The zero fill read at an index is the extended real zero. -/
theorem pay3_apply (i : S1024x64.Idx) : k0_pay3 (F := Ideal) i = 0 := by
  unfold k0_pay3
  rw [shapeCast_self]
  show Ideal.ofBits .f32 0x00000000#32 = 0
  exact Ideal.ofBits_zero_f32

/-- The accumulator's update read at an index: the old value plus the tile's contribution. -/
theorem pay1_apply (v44 : FVec Ideal S1024x64 .f32) (v45 : Vec Ideal S1024x64 .f32) (i : S1024x64.Idx) :
    k0_pay1 (F := Ideal) v44 v45 i = v45 i + v44 i := by
  unfold k0_pay1
  rw [shapeCast_self]
  rfl

/-- A column broadcast along the lanes reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane counter along axis 1 read at `(n, g)` is the 32-bit word of `g`. -/
theorem iota_apply (n : Fin 4000) (g : Fin 1024) :
    (iota .tc S4000x1024 32 [1] iota_S4000x1024_d1_w32 : IVec S4000x1024 32) (ix2 n g) = BitVec.ofNat 32 g.val := by
  unfold iota
  show BitVec.ofNat 32 (0 * 1024 + g.val) = BitVec.ofNat 32 g.val
  rw [Nat.zero_mul, Nat.zero_add]

/-- An equality test of two words, widened and read as a signed integer, is the number 1 where they are equal and 0 where not. -/
theorem sitofp_cmpi_eq (x y : BitVec 32) :
    (FloatOps.sitofp (F := Ideal) .f32 ((IntOp.cmpi .eq x y).setWidth 32) : EReal) = if x = y then 1 else 0 := by
  show (((((IntOp.cmpi .eq x y).setWidth 32).toInt : ℤ) : ℝ) : EReal) = _
  by_cases h : x = y
  · subst h
    rw [if_pos rfl]
    have e : (IntOp.cmpi .eq x x).setWidth 32 = 1#32 := by
      show (BitVec.ofBool (x == x)).setWidth 32 = 1#32
      rw [beq_self_eq_true]; rfl
    rw [e]
    have : (1#32 : BitVec 32).toInt = 1 := by decide
    rw [this]; norm_num
  · rw [if_neg h]
    have e : (IntOp.cmpi .eq x y).setWidth 32 = 0#32 := by
      show (BitVec.ofBool (x == y)).setWidth 32 = 0#32
      rw [beq_eq_false_iff_ne.mpr h]; rfl
    rw [e]
    have : (0#32 : BitVec 32).toInt = 0 := by decide
    rw [this]; norm_num

/-- The one-hot membership matrix read at `(n, g)`: 1 where node `n`'s graph id is the word of `g`, else 0. -/
theorem onehot_apply (v9 : Vec Ideal S4000x1 .i32) (n : Fin 4000) (g : Fin 1024) :
    (sitofp .f32 (extui 32 (cmpi .eq (broadcastTo S4000x1024 (shapeCast S4000x1 v9 shapeCasts_S4000x1_S4000x1) broadcasts_S4000x1_S4000x1024)
        (iota .tc S4000x1024 32 [1] iota_S4000x1024_d1_w32)) natLt_1_32) : FVec Ideal S4000x1024 .f32) (ix2 n g)
      = if v9 (ix2 n (0 : Fin 1)) = BitVec.ofNat 32 g.val then (1 : EReal) else 0 := by
  rw [shapeCast_self]
  show FloatOps.sitofp (F := Ideal) .f32 ((IntOp.cmpi .eq (broadcastTo S4000x1024 v9 broadcasts_S4000x1_S4000x1024 (ix2 n g))
        ((iota .tc S4000x1024 32 [1] iota_S4000x1024_d1_w32 : IVec S4000x1024 32) (ix2 n g))).setWidth 32) = _
  rw [iota_apply, broadcastTo_a1_ab_apply v9 broadcasts_S4000x1_S4000x1024 n g]
  exact sitofp_cmpi_eq _ _

/-- A column of the node features, broadcast along the lanes, read at `(n, q)`: feature `k` of node `n`. -/
theorem col_apply (v3 : Vec Ideal S4000x4 .f32) (k : Fin 4) (o : Nat) (h : S4000x4.Slices ![0, o] S4000x1)
    (hk : k.val = o + (0 : Fin 1).val) (n : Fin 4000) (q : Fin 64) :
    broadcastTo S4000x64 (extractStridedSlice S4000x1 ![0, o] v3 h) broadcasts_S4000x1_S4000x64 (ix2 n q) = v3 (ix2 n k) := by
  rw [broadcastTo_a1_ab_apply]
  exact slice2_axis1_apply o v3 h n (0 : Fin 1) k hk

/-- A row of the weights, broadcast along the rows, read at `(n, q)`: weight `(k, q)`. -/
theorem row_apply (v5 : Vec Ideal S4x64 .f32) (k : Fin 4) (o : Nat) (h : S4x64.Slices ![o, 0] S1x64)
    (hk : k.val = o + (0 : Fin 1).val) (n : Fin 4000) (q : Fin 64) :
    broadcastTo S4000x64 (extractStridedSlice S1x64 ![o, 0] v5 h) broadcasts_S1x64_S4000x64 (ix2 n q) = v5 (ix2 k q) := by
  rw [broadcastTo_1b_ab_apply]
  exact slice2_axis0_apply o v5 h (0 : Fin 1) q k hk

/-- The tile's membership matrix: node by graph. -/
def onehot (v9 : Vec Ideal S4000x1 .i32) : FVec Ideal S4000x1024 .f32 :=
  sitofp .f32 (extui 32 (cmpi .eq (broadcastTo S4000x1024 (shapeCast S4000x1 v9 shapeCasts_S4000x1_S4000x1) broadcasts_S4000x1_S4000x1024)
    (iota .tc S4000x1024 32 [1] iota_S4000x1024_d1_w32)) natLt_1_32)

/-- The tile's class scores: the bias row plus, feature by feature, the feature column times the weight row. -/
def dense (v3 : Vec Ideal S4000x4 .f32) (v5 : Vec Ideal S4x64 .f32) (v7 : Vec Ideal S1x64 .f32) : FVec Ideal S4000x64 .f32 :=
  have v4 : FVec Ideal S4000x4 .f32 := shapeCast S4000x4 v3 shapeCasts_S4000x4_S4000x4
  have v6 : FVec Ideal S4x64 .f32 := shapeCast S4x64 v5 shapeCasts_S4x64_S4x64
  have v8 : FVec Ideal S1x64 .f32 := shapeCast S1x64 v7 shapeCasts_S1x64_S1x64
  have v11 : FVec Ideal S1x64 .f32 := shapeCast S1x64 v8 shapeCasts_S1x64_S1x64
  have v12 : FVec Ideal S4000x64 .f32 := broadcastTo S4000x64 v11 broadcasts_S1x64_S4000x64
  have v13 : FVec Ideal S4000x1 .f32 := extractStridedSlice S4000x1 ![0, 0] v4 slices_S4000x4_o0_0_S4000x1
  have v14 : FVec Ideal S1x64 .f32 := extractStridedSlice S1x64 ![0, 0] v6 slices_S4x64_o0_0_S1x64
  have v15 : FVec Ideal S4000x64 .f32 := broadcastTo S4000x64 v13 broadcasts_S4000x1_S4000x64
  have v16 : FVec Ideal S4000x64 .f32 := broadcastTo S4000x64 v14 broadcasts_S1x64_S4000x64
  have v17 : FVec Ideal S4000x64 .f32 := mulf v15 v16
  have v18 : FVec Ideal S4000x64 .f32 := addf v12 v17
  have v19 : FVec Ideal S4000x1 .f32 := extractStridedSlice S4000x1 ![0, 1] v4 slices_S4000x4_o0_1_S4000x1
  have v20 : FVec Ideal S1x64 .f32 := extractStridedSlice S1x64 ![1, 0] v6 slices_S4x64_o1_0_S1x64
  have v21 : FVec Ideal S4000x64 .f32 := broadcastTo S4000x64 v19 broadcasts_S4000x1_S4000x64
  have v22 : FVec Ideal S4000x64 .f32 := broadcastTo S4000x64 v20 broadcasts_S1x64_S4000x64
  have v23 : FVec Ideal S4000x64 .f32 := mulf v21 v22
  have v24 : FVec Ideal S4000x64 .f32 := addf v18 v23
  have v25 : FVec Ideal S4000x1 .f32 := extractStridedSlice S4000x1 ![0, 2] v4 slices_S4000x4_o0_2_S4000x1
  have v26 : FVec Ideal S1x64 .f32 := extractStridedSlice S1x64 ![2, 0] v6 slices_S4x64_o2_0_S1x64
  have v27 : FVec Ideal S4000x64 .f32 := broadcastTo S4000x64 v25 broadcasts_S4000x1_S4000x64
  have v28 : FVec Ideal S4000x64 .f32 := broadcastTo S4000x64 v26 broadcasts_S1x64_S4000x64
  have v29 : FVec Ideal S4000x64 .f32 := mulf v27 v28
  have v30 : FVec Ideal S4000x64 .f32 := addf v24 v29
  have v31 : FVec Ideal S4000x1 .f32 := extractStridedSlice S4000x1 ![0, 3] v4 slices_S4000x4_o0_3_S4000x1
  have v32 : FVec Ideal S1x64 .f32 := extractStridedSlice S1x64 ![3, 0] v6 slices_S4x64_o3_0_S1x64
  have v33 : FVec Ideal S4000x64 .f32 := broadcastTo S4000x64 v31 broadcasts_S4000x1_S4000x64
  have v34 : FVec Ideal S4000x64 .f32 := broadcastTo S4000x64 v32 broadcasts_S1x64_S4000x64
  have v35 : FVec Ideal S4000x64 .f32 := mulf v33 v34
  have v36 : FVec Ideal S4000x64 .f32 := addf v30 v35
  v36

/-- The tile's contribution is the product of the membership matrix and the class scores, both contracted along the
    nodes, into a zero accumulator. -/
theorem pay4_eq (v3 : Vec Ideal S4000x4 .f32) (v5 : Vec Ideal S4x64 .f32) (v7 : Vec Ideal S1x64 .f32) (v9 : Vec Ideal S4000x1 .i32) :
    k0_pay4 (F := Ideal) v3 v5 v7 v9
      = matmul dot_S4000x1024_S4000x64_S1024x64_0_0_1_1_n_n none (truncf .bf16 (onehot v9) bitsLt_bf16_f32)
          (truncf .bf16 (dense v3 v5 v7) bitsLt_bf16_f32) (constant (F := Ideal) S1024x64 .f32 0x00000000#32) := rfl

/-- The class scores read at `(n, q)`. -/
theorem dense_apply (v3 : Vec Ideal S4000x4 .f32) (v5 : Vec Ideal S4x64 .f32) (v7 : Vec Ideal S1x64 .f32) (n : Fin 4000) (q : Fin 64) :
    dense v3 v5 v7 (ix2 n q)
      = (((v7 (ix2 (0 : Fin 1) q) + v3 (ix2 n (0 : Fin 4)) * v5 (ix2 (0 : Fin 4) q)) + v3 (ix2 n 1) * v5 (ix2 1 q))
          + v3 (ix2 n 2) * v5 (ix2 2 q)) + v3 (ix2 n 3) * v5 (ix2 3 q) := by
  unfold dense
  simp only [shapeCast_self, addf_apply, mulf_apply]
  rw [broadcastTo_1b_ab_apply v7 broadcasts_S1x64_S4000x64 n q,
    col_apply v3 0 0 _ rfl n q, row_apply v5 0 0 _ rfl n q,
    col_apply v3 1 1 _ rfl n q, row_apply v5 1 1 _ rfl n q,
    col_apply v3 2 2 _ rfl n q, row_apply v5 2 2 _ rfl n q,
    col_apply v3 3 3 _ rfl n q, row_apply v5 3 3 _ rfl n q]

/-- The membership matrix's index under the product: on the contracted axis 0 the contraction position. -/
theorem lhs_pool_0 (i : S1024x64.Idx) (k : dot_S4000x1024_S4000x64_S1024x64_0_0_1_1_n_n.contr.Idx) :
    (dot_S4000x1024_S4000x64_S1024x64_0_0_1_1_n_n.lhsIdx i k 0).val = (k ⟨0, by decide⟩).val :=
  dot_S4000x1024_S4000x64_S1024x64_0_0_1_1_n_n.lhsIdx_val_of_single rfl i k
/-- On its free axis 1 the output's row. -/
theorem lhs_pool_1 (i : S1024x64.Idx) (k : dot_S4000x1024_S4000x64_S1024x64_0_0_1_1_n_n.contr.Idx) :
    (dot_S4000x1024_S4000x64_S1024x64_0_0_1_1_n_n.lhsIdx i k 1).val = (i 0).val := by
  unfold DotDims.lhsIdx
  rw [dif_neg (show ¬(1 : Fin S4000x1024.rank) ∈ dot_S4000x1024_S4000x64_S1024x64_0_0_1_1_n_n.lhsBatch by decide), dif_pos (show (1 : Fin S4000x1024.rank) ∈ dot_S4000x1024_S4000x64_S1024x64_0_0_1_1_n_n.lhsNonContracting by decide)]
  rfl
/-- The class scores' index under the product: on the contracted axis 0 the contraction position. -/
theorem rhs_pool_0 (i : S1024x64.Idx) (k : dot_S4000x1024_S4000x64_S1024x64_0_0_1_1_n_n.contr.Idx) :
    (dot_S4000x1024_S4000x64_S1024x64_0_0_1_1_n_n.rhsIdx i k 0).val = (k ⟨0, by decide⟩).val :=
  dot_S4000x1024_S4000x64_S1024x64_0_0_1_1_n_n.rhsIdx_val_of_single rfl i k
/-- On its free axis 1 the output's column. -/
theorem rhs_pool_1 (i : S1024x64.Idx) (k : dot_S4000x1024_S4000x64_S1024x64_0_0_1_1_n_n.contr.Idx) :
    (dot_S4000x1024_S4000x64_S1024x64_0_0_1_1_n_n.rhsIdx i k 1).val = (i 1).val := by
  unfold DotDims.rhsIdx
  rw [dif_neg (show ¬(1 : Fin S4000x64.rank) ∈ dot_S4000x1024_S4000x64_S1024x64_0_0_1_1_n_n.rhsBatch by decide), dif_pos (show (1 : Fin S4000x64.rank) ∈ dot_S4000x1024_S4000x64_S1024x64_0_0_1_1_n_n.rhsNonContracting by decide)]
  rfl

/-- The product contracting the nodes, into a zero accumulator, read at `(g, q)`: the sum over the tile's nodes. -/
theorem pool_matmul_apply (a : FVec Ideal S4000x1024 .bf16) (b : FVec Ideal S4000x64 .bf16) (g : Fin 1024) (q : Fin 64) :
    matmul dot_S4000x1024_S4000x64_S1024x64_0_0_1_1_n_n none a b (constant (F := Ideal) S1024x64 .f32 0x00000000#32) (ix2 g q)
      = ∑ n : Fin 4000, a (ix2 n g) * b (ix2 n q) := by
  simp only [matmul]
  rw [Ideal.matmul_constant_zero_apply, ← Equiv.sum_comp (ValueIdx.contrEquiv1 dot_S4000x1024_S4000x64_S1024x64_0_0_1_1_n_n 4000 rfl rfl).symm]
  refine Finset.sum_congr rfl fun n _ => ?_
  have hk := ValueIdx.contrEquiv1_symm_val dot_S4000x1024_S4000x64_S1024x64_0_0_1_1_n_n 4000 rfl rfl n
  have el : dot_S4000x1024_S4000x64_S1024x64_0_0_1_1_n_n.lhsIdx (ix2 g q) ((ValueIdx.contrEquiv1 dot_S4000x1024_S4000x64_S1024x64_0_0_1_1_n_n 4000 rfl rfl).symm n) = ix2 n g := funext fun ax => Fin.ext (by
    match ax with
    | ⟨0, _⟩ => exact (lhs_pool_0 _ _).trans hk
    | ⟨1, _⟩ => exact lhs_pool_1 _ _)
  have er : dot_S4000x1024_S4000x64_S1024x64_0_0_1_1_n_n.rhsIdx (ix2 g q) ((ValueIdx.contrEquiv1 dot_S4000x1024_S4000x64_S1024x64_0_0_1_1_n_n 4000 rfl rfl).symm n) = ix2 n q := funext fun ax => Fin.ext (by
    match ax with
    | ⟨0, _⟩ => exact (rhs_pool_0 _ _).trans hk
    | ⟨1, _⟩ => exact rhs_pool_1 _ _)
  rw [el, er]

/-- The tile's contribution read at `(g, q)`: over the tile's nodes, membership in graph `g` times the node's class-`q` score. -/
theorem pay4_apply (v3 : Vec Ideal S4000x4 .f32) (v5 : Vec Ideal S4x64 .f32) (v7 : Vec Ideal S1x64 .f32) (v9 : Vec Ideal S4000x1 .i32)
    (g : Fin 1024) (q : Fin 64) :
    k0_pay4 (F := Ideal) v3 v5 v7 v9 (ix2 g q)
      = ∑ n : Fin 4000, (if v9 (ix2 n (0 : Fin 1)) = BitVec.ofNat 32 g.val then (1 : EReal) else 0)
          * ((((v7 (ix2 (0 : Fin 1) q) + v3 (ix2 n (0 : Fin 4)) * v5 (ix2 (0 : Fin 4) q)) + v3 (ix2 n 1) * v5 (ix2 1 q))
              + v3 (ix2 n 2) * v5 (ix2 2 q)) + v3 (ix2 n 3) * v5 (ix2 3 q)) := by
  rw [pay4_eq, pool_matmul_apply]
  refine Finset.sum_congr rfl fun n _ => ?_
  rw [truncf_apply, truncf_apply, dense_apply]
  unfold onehot
  rw [onehot_apply]

end Cert.KernelIdeal.Val

end
-- ==== Proof.LibTileSum.lean ====
/-
  Pure finite-sum reindexing over an additive commutative monoid (only commutativity and associativity of `+` and the
  neutral `0` are used: no subtraction, no cancellation).

  * `sum_fin_mul`: a sum over `[0, m·n)` is the double sum over the quotient `a < m` and the remainder `b < n` of the
    position `a·n + b`.
  * `sum_tiles`: a length-`T·(P·Q)` vector read as `T` tiles, each tile read row-major as `P` rows of `Q` lanes and summed
    down its rows, the `T × Q` partial sums then all added, is the sum of the whole vector.
  * `sum_below`: a sum over `[0, M₁)` of a function that is zero from `M₀` on is the sum over `[0, M₀)`.
  * `sum_first_rows`: an array of `T·S` rows of `Q` lanes whose only non-zero rows are the rows `t·S` sums to the sum of
    those rows.
-/
import Idealize.ShloMosaic.Lib.ValueIdx
import Mathlib.Algebra.BigOperators.Fin
import Mathlib.Data.Fintype.BigOperators
import Mathlib.Logic.Equiv.Fin.Basic

open scoped BigOperators

namespace Idealize.ShloMosaic.ValueIdx

open Idealize.ShloMosaic

/-- Position `a·n + b` with `a < m` and `b < n` lies below `m·n`: `a·n + b < a·n + n = (a+1)·n ≤ m·n`. -/
theorem mul_add_lt_mul {m n : Nat} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right _ a.isLt

/-- Position `t·(P·Q) + (p·Q + q)` with `t < T`, `p < P`, `q < Q` lies below `T·(P·Q)`: the inner position `p·Q + q` is
    below `P·Q`, and then the outer one is below `T·(P·Q)`. -/
theorem tile_pos_lt {T P Q : Nat} (t : Fin T) (p : Fin P) (q : Fin Q) :
    t.val * (P * Q) + (p.val * Q + q.val) < T * (P * Q) :=
  mul_add_lt_mul t (⟨p.val * Q + q.val, mul_add_lt_mul p q⟩ : Fin (P * Q))

/-- The first row `t·S` of the `t`-th group of `S` rows lies below `T·S` when a group is not empty. -/
theorem mul_lt_mul_fin {T S : Nat} (hS : 0 < S) (t : Fin T) : t.val * S < T * S :=
  mul_add_lt_mul t (⟨0, hS⟩ : Fin S)

/-- A sum over `[0, m·n)` is the double sum over quotient `a < m` and remainder `b < n` of the position `a·n + b`
    (the bijection `(a, b) ↦ a·n + b` between the product of the two ranges and `[0, m·n)`). -/
theorem sum_fin_mul {M : Type*} [AddCommMonoid M] (m n : Nat) (f : Fin (m * n) → M) :
    ∑ j : Fin (m * n), f j = ∑ a : Fin m, ∑ b : Fin n, f ⟨a.val * n + b.val, mul_add_lt_mul a b⟩ := by
  rw [← Equiv.sum_comp (finProdFinEquiv (m := m) (n := n)) f, Fintype.sum_prod_type]
  refine Finset.sum_congr rfl fun a _ => Finset.sum_congr rfl fun b _ => congrArg f (Fin.ext ?_)
  show b.val + n * a.val = a.val * n + b.val
  rw [Nat.add_comm, Nat.mul_comm]

/-- A length-`T·(P·Q)` vector read as `T` tiles, each tile read row-major as `P` rows of `Q` lanes (element `(p, q)` of
    tile `t` is position `t·(P·Q) + (p·Q + q)`) and summed down its rows, the `T × Q` partial sums then all added, is the
    sum of the whole vector: split the position into tile and offset, the offset into row and lane, and exchange the
    row sum with the lane sum. -/
theorem sum_tiles {M : Type*} [AddCommMonoid M] (T P Q : Nat) (g : Fin (T * (P * Q)) → M) :
    ∑ t : Fin T, ∑ q : Fin Q, ∑ p : Fin P,
        g ⟨t.val * (P * Q) + (p.val * Q + q.val), by exact tile_pos_lt t p q⟩ =
      ∑ j : Fin (T * (P * Q)), g j := by
  rw [sum_fin_mul T (P * Q) g]
  refine Finset.sum_congr rfl fun t _ => ?_
  rw [sum_fin_mul P Q (fun r : Fin (P * Q) => g ⟨t.val * (P * Q) + r.val, mul_add_lt_mul t r⟩)]
  exact Finset.sum_comm

/-- A sum over `[0, M₁)` of a function that is `h` below `M₀` and zero from `M₀` on is the sum of `h` over `[0, M₀)`:
    write `M₁ = M₀ + k`, split the range at `M₀`, and drop the zero part. -/
theorem sum_below {M : Type*} [AddCommMonoid M] {M₀ M₁ : Nat} (h01 : M₀ ≤ M₁) (h : Fin M₀ → M) :
    ∑ j : Fin M₁, (if hj : j.val < M₀ then h ⟨j.val, hj⟩ else 0) = ∑ v : Fin M₀, h v := by
  obtain ⟨k, rfl⟩ := Nat.exists_eq_add_of_le h01
  rw [Fin.sum_trunc]
  · refine Finset.sum_congr rfl fun v _ => ?_
    have hv : (Fin.castAdd k v).val < M₀ := v.isLt
    rw [dif_pos hv]
    exact congrArg h (Fin.ext rfl)
  · intro j
    have hj : ¬ (Fin.natAdd M₀ j).val < M₀ := by
      show ¬ M₀ + j.val < M₀
      exact Nat.not_lt.mpr (Nat.le_add_right _ _)
    rw [dif_neg hj]

/-- An array of `T·S` rows of `Q` lanes (`S > 0`) whose row `t·S` is `f t` and whose other rows `t·S + s`, `s ≠ 0`, are
    zero sums to the sum of the `f t q`: split the row into group `t` and offset `s`, and in each group only the
    offset `0` contributes. -/
theorem sum_first_rows {M : Type*} [AddCommMonoid M] (T S Q : Nat) (hS : 0 < S)
    (out : (⟨2, ![T * S, Q]⟩ : Shape).Idx → M) (f : Fin T → Fin Q → M)
    (h0 : ∀ (t : Fin T) (q : Fin Q), out (ix2 ⟨t.val * S, by exact mul_lt_mul_fin hS t⟩ q) = f t q)
    (hz : ∀ (t : Fin T) (s : Fin S) (q : Fin Q), s.val ≠ 0 →
      out (ix2 ⟨t.val * S + s.val, by exact mul_add_lt_mul t s⟩ q) = 0) :
    ∑ j, out j = ∑ t : Fin T, ∑ q : Fin Q, f t q := by
  rw [sum_idx2, sum_fin_mul T S (fun a : Fin (T * S) => ∑ b : Fin Q, out (ix2 a b))]
  refine Finset.sum_congr rfl fun t _ => ?_
  rw [Finset.sum_eq_single (⟨0, hS⟩ : Fin S)]
  · exact Finset.sum_congr rfl fun q _ => h0 t q
  · intro s _ hs
    have hs0 : s.val ≠ 0 := fun e => hs (Fin.ext e)
    exact Finset.sum_eq_zero fun q _ => hz t s q hs0
  · intro hn
    exact absurd (Finset.mem_univ _) hn

end Idealize.ShloMosaic.ValueIdx
-- ==== Proof.KIRead.lean ====
/-
  The pooling kernel's accumulator after the last grid point, read at (g, q): the sum over ALL 200000 nodes r of
  [the graph id of r is the word of g] times node r's class-q score.  Three steps.  The blocks: at grid point t the node
  features' and the graph ids' blocks are rows t·4000 .. t·4000 + 3999 of their arrays (a block's coordinate is block
  index × block size + the coordinate inside the block), and the weights', the biases' and the reciprocal counts' blocks
  are their whole arrays at every point.  The accumulation: the accumulator after point n is the zero fill plus the
  contributions of points 0 .. n, by induction on n (addition of extended reals is associative with neutral 0).  The
  tiling: 50 tiles of 4000 rows are the 200000 rows, r = t·4000 + n, so the double sum over tiles and rows inside a tile
  is the single sum over rows.
-/
import proofs.«420619_j84035330113568_1_alg».proof.Proof.KIAcc
import proofs.«420619_j84035330113568_1_alg».proof.Proof.Spec
import proofs.«420619_j84035330113568_1_alg».proof.Proof.KIReadPay
import proofs.«420619_j84035330113568_1_alg».proof.Proof.LibTileSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat Cfg Window)
open scoped BigOperators

/-- A grid point's tile row is a row of the whole array: `t·4000 + n < 200000` for `t < 50`, `n < 4000`. -/
theorem tile_row_lt (t : Fin cfg0.N) (n : Fin 4000) : t.val * 4000 + n.val < 200000 := by
  have ht : t.val < 50 := lt_of_lt_of_eq t.isLt N_0
  have hn := n.isLt
  omega

/-- The printed index maps over the grid: the node features and the graph ids move one block of rows per point; the
    weights, the biases and the reciprocal counts stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

variable (m : (ℓ : Loc nD τ sig) → Buf (Elt Ideal) ℓ)

/-- The node features' block at point `t`, read at `(n, k)`: row `t·4000 + n` of the array. -/
theorem iblk0_apply (c : Dev nD) (t : Fin cfg0.N) (n : Fin 4000) (k : Fin 4) :
    (iblk m c 0 t : S4000x4.Idx → EReal) (ix2 n k)
      = (V m c main_v79 : S200000x4.Idx → EReal) (ix2 ⟨t.val * 4000 + n.val, tile_row_lt t n⟩ k) := by
  obtain ⟨e0, e1, -⟩ := idx_facts t
  show V m c main_v79 (((cfg0.win 0).blk t).view.emb (ix2 n k)) = V m c main_v79 (ix2 ⟨t.val * 4000 + n.val, tile_row_lt t n⟩ k)
  refine congrArg _ (funext fun a => Fin.ext ?_)
  match a with
  | ⟨0, _⟩ => show win0_0.index t (0 : Fin 2) * 4000 + 1 * n.val = t.val * 4000 + n.val; omega
  | ⟨1, _⟩ => show win0_0.index t (1 : Fin 2) * 4 + 1 * k.val = k.val; omega

/-- The graph ids' block at point `t`, read at `(n, 0)`: row `t·4000 + n` of the array. -/
theorem iblk1_apply (c : Dev nD) (t : Fin cfg0.N) (n : Fin 4000) :
    (iblk m c 1 t : S4000x1.Idx → BitVec 32) (ix2 n (0 : Fin 1))
      = (V m c main_v93 : S200000x1.Idx → BitVec 32) (ix2 ⟨t.val * 4000 + n.val, tile_row_lt t n⟩ (0 : Fin 1)) := by
  obtain ⟨-, -, e0, e1, -⟩ := idx_facts t
  show V m c main_v93 (((cfg0.win 1).blk t).view.emb (ix2 n (0 : Fin 1))) = V m c main_v93 (ix2 ⟨t.val * 4000 + n.val, tile_row_lt t n⟩ (0 : Fin 1))
  refine congrArg _ (funext fun a => Fin.ext ?_)
  match a with
  | ⟨0, _⟩ => show win0_1.index t (0 : Fin 2) * 4000 + 1 * n.val = t.val * 4000 + n.val; omega
  | ⟨1, _⟩ => show win0_1.index t (1 : Fin 2) * 1 + 1 * 0 = 0; omega

/-- The weights' block at every point is the whole array. -/
theorem iblk2_eq (c : Dev nD) (t : Fin cfg0.N) : (iblk m c 2 t : S4x64.Idx → EReal) = V m c main_v90 := by
  obtain ⟨-, -, -, -, e0, e1, -⟩ := idx_facts t
  funext j
  show V m c main_v90 (((cfg0.win 2).blk t).view.emb j) = V m c main_v90 j
  refine congrArg _ (funext fun a => Fin.ext ?_)
  match a with
  | ⟨0, _⟩ => show win0_2.index t (0 : Fin 2) * 4 + 1 * (j 0).val = (j 0).val; omega
  | ⟨1, _⟩ => show win0_2.index t (1 : Fin 2) * 64 + 1 * (j 1).val = (j 1).val; omega

/-- The summed biases' block at every point is the whole array. -/
theorem iblk3_eq (c : Dev nD) (t : Fin cfg0.N) : (iblk m c 3 t : S1x64.Idx → EReal) = V m c main_v92 := by
  obtain ⟨-, -, -, -, -, -, e0, e1, -⟩ := idx_facts t
  funext j
  show V m c main_v92 (((cfg0.win 3).blk t).view.emb j) = V m c main_v92 j
  refine congrArg _ (funext fun a => Fin.ext ?_)
  match a with
  | ⟨0, _⟩ => show win0_3.index t (0 : Fin 2) * 1 + 1 * (j 0).val = (j 0).val; omega
  | ⟨1, _⟩ => show win0_3.index t (1 : Fin 2) * 64 + 1 * (j 1).val = (j 1).val; omega

/-- The reciprocal counts' block at every point is the whole array. -/
theorem iblk4_eq (c : Dev nD) (t : Fin cfg0.N) : (iblk m c 4 t : S1024x1.Idx → EReal) = V m c main_v89 := by
  obtain ⟨-, -, -, -, -, -, -, -, e0, e1⟩ := idx_facts t
  funext j
  show V m c main_v89 (((cfg0.win 4).blk t).view.emb j) = V m c main_v89 j
  refine congrArg _ (funext fun a => Fin.ext ?_)
  match a with
  | ⟨0, _⟩ => show win0_4.index t (0 : Fin 2) * 1024 + 1 * (j 0).val = (j 0).val; omega
  | ⟨1, _⟩ => show win0_4.index t (1 : Fin 2) * 1 + 1 * (j 1).val = (j 1).val; omega

/-- The tile of point `t` adds, at `(g, q)`, the membership-weighted class-`q` scores of the array's rows
    `t·4000 .. t·4000 + 3999`. -/
theorem contrib_apply (c : Dev nD) (t : Fin cfg0.N) (g : Fin 1024) (q : Fin 64) :
    (contrib m c t : S1024x64.Idx → EReal) (ix2 g q)
      = ∑ n : Fin 4000,
          Cert.Spec.ind (fun r => (V m c main_v93 : S200000x1.Idx → BitVec 32) (ix2 r (0 : Fin 1))) g ⟨t.val * 4000 + n.val, tile_row_lt t n⟩
          * Cert.Spec.nodeK (fun r k => (V m c main_v79 : S200000x4.Idx → EReal) (ix2 r k))
              (fun k q => (V m c main_v90 : S4x64.Idx → EReal) (ix2 k q))
              (fun q => (V m c main_v92 : S1x64.Idx → EReal) (ix2 (0 : Fin 1) q)) ⟨t.val * 4000 + n.val, tile_row_lt t n⟩ q := by
  unfold contrib
  refine (pay4_apply _ _ _ _ g q).trans (Finset.sum_congr rfl fun n _ => ?_)
  rw [iblk1_apply m c t n, iblk0_apply m c t n 0, iblk0_apply m c t n 1, iblk0_apply m c t n 2, iblk0_apply m c t n 3,
    iblk2_eq m c t, iblk3_eq m c t]
  rfl

/-- Point `t`'s contribution at an index, extended by zero past the grid. -/
def ctr (c : Dev nD) (i : S1024x64.Idx) (t : ℕ) : EReal :=
  if h : t < cfg0.N then (contrib m c ⟨t, h⟩ : S1024x64.Idx → EReal) i else 0

/-- The accumulator after point `n` is the zero fill plus the contributions of points `0 .. n`, added left to right. -/
theorem acc_range (c : Dev nD) (i : S1024x64.Idx) : ∀ (n : ℕ) (h : n < cfg0.N),
    (acc m c n h : S1024x64.Idx → EReal) i = 0 + ∑ t ∈ Finset.range (n + 1), ctr m c i t
  | 0, h => by
    rw [Finset.sum_range_one]
    show k0_pay1 (F := Ideal) (contrib m c ⟨0, h⟩) (k0_pay3 (F := Ideal)) i = 0 + ctr m c i 0
    rw [pay1_apply, pay3_apply]
    unfold ctr
    rw [dif_pos h]
  | n + 1, h => by
    rw [Finset.sum_range_succ, ← add_assoc, ← acc_range c i n (Nat.lt_of_succ_lt h)]
    show k0_pay1 (F := Ideal) (contrib m c ⟨n + 1, h⟩) (acc m c n (Nat.lt_of_succ_lt h)) i
      = (acc m c n (Nat.lt_of_succ_lt h) : S1024x64.Idx → EReal) i + ctr m c i (n + 1)
    rw [pay1_apply]
    unfold ctr
    rw [dif_pos h]

/-- The accumulator after the last grid point, read at `(g, q)`: over all 200000 nodes, membership in graph `g` times
    the node's class-`q` score.  The 50 tiles of 4000 rows tile the rows: row `r = t·4000 + n`. -/
theorem acc_apply (c : Dev nD) (g : Fin 1024) (q : Fin 64) :
    (acc m c 49 lastPt : S1024x64.Idx → EReal) (ix2 g q)
      = ∑ r : Fin 200000, Cert.Spec.ind (fun r => (V m c main_v93 : S200000x1.Idx → BitVec 32) (ix2 r (0 : Fin 1))) g r
          * Cert.Spec.nodeK (fun r k => (V m c main_v79 : S200000x4.Idx → EReal) (ix2 r k))
              (fun k q => (V m c main_v90 : S4x64.Idx → EReal) (ix2 k q))
              (fun q => (V m c main_v92 : S1x64.Idx → EReal) (ix2 (0 : Fin 1) q)) r q := by
  rw [acc_range m c (ix2 g q) 49 lastPt, zero_add, Finset.sum_range (fun t => ctr m c (ix2 g q) t)]
  refine Eq.trans ?_ (sum_fin_mul 50 4000 (fun r : Fin (50 * 4000) =>
      Cert.Spec.ind (fun r => (V m c main_v93 : S200000x1.Idx → BitVec 32) (ix2 r (0 : Fin 1))) g r
        * Cert.Spec.nodeK (fun r k => (V m c main_v79 : S200000x4.Idx → EReal) (ix2 r k))
            (fun k q => (V m c main_v90 : S4x64.Idx → EReal) (ix2 k q))
            (fun q => (V m c main_v92 : S1x64.Idx → EReal) (ix2 (0 : Fin 1) q)) r q)).symm
  refine Finset.sum_congr rfl fun t _ => ?_
  have ht : t.val < cfg0.N := lt_of_lt_of_eq t.isLt N_0.symm
  unfold ctr
  rw [dif_pos ht]
  exact contrib_apply m c ⟨t.val, ht⟩ g q

end Cert.KernelIdeal.Val

end
-- ==== Proof.RefDefs.lean ====
/-
  The reference's data as plain functions of small indices, over the stages its host program computes:
  the four propagated node features (one per hop, each a column [200000, 1] of the sparse propagation applied
  1, 2, 3, 4 times to the all-ones column), the weights and biases as matrices [4, 64], the nodes' graph ids, and
  the reciprocal node count of each graph (zero for an empty graph).
-/
import proofs.«420619_j84035330113568_1_alg».proof.Proof.RefReadP
import proofs.«420619_j84035330113568_1_alg».proof.Proof.Spec

noncomputable section

namespace Cert.RefVal

open Cert.ReferenceIdeal Cert.ReferenceIdeal.ReadP Idealize.ShloMosaic Idealize.ShloMosaic.ValueIdx

/-- Node `r`'s feature after hop `k + 1` of the propagation. -/
def XR (x0 : (⟨S2x6400000, .i32⟩ : BufTy).Contents (Elt Ideal)) (r : Fin 200000) (k : Fin 4) : EReal :=
  match k with
  | 0 => val_main_v52 (F := Ideal) x0 (ix2 r (0 : Fin 1))
  | 1 => val_main_v79 (F := Ideal) x0 (ix2 r (0 : Fin 1))
  | 2 => val_main_v106 (F := Ideal) x0 (ix2 r (0 : Fin 1))
  | 3 => val_main_v133 (F := Ideal) x0 (ix2 r (0 : Fin 1))

/-- Hop `k`'s weight for class `q`. -/
def WR (x2 : (⟨S4x1x64, .f32⟩ : BufTy).Contents (Elt Ideal)) (k : Fin 4) (q : Fin 64) : EReal := x2 (ix3 k (0 : Fin 1) q)

/-- Hop `k`'s bias for class `q`. -/
def bR (x3 : (⟨S4x64, .f32⟩ : BufTy).Contents (Elt Ideal)) (k : Fin 4) (q : Fin 64) : EReal := x3 (ix2 k q)

/-- Node `r`'s graph id, a 32-bit word. -/
def btR (x1 : (⟨S200000, .i32⟩ : BufTy).Contents (Elt Ideal)) (r : Fin 200000) : BitVec 32 := x1 (ix1 r)

/-- The reciprocal of graph `g`'s node count, zero when the graph is empty. -/
def icR (x1 : (⟨S200000, .i32⟩ : BufTy).Contents (Elt Ideal)) (g : Fin 1024) : EReal := val_main_v39 (F := Ideal) x1 (ix1 g)

end Cert.RefVal

end
-- ==== Proof.KHostA.lean ====
/-
  Three of the five arrays the pooling kernel's region is entered with are layout changes of an argument, and one a
  host sum: the graph ids as a column [200000, 1], the weights [4, 1, 64] with the unit axis dropped, the four hops'
  biases summed by the host (zero, then the rows) and laid out as a row [1, 64].  Each is read at an index as the
  reference's datum there.
-/
import proofs.«420619_j84035330113568_1_alg».proof.Proof.KIRuns
import proofs.«420619_j84035330113568_1_alg».proof.Proof.RefDefs
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.KHost

open Cert.KernelIdeal Cert.KernelIdeal.Gen Cert.KernelIdeal.Fr
open Idealize.ShloMosaic Idealize.ShloMosaic.TcCoe Idealize.ShloMosaic.StableHlo Idealize.ShloMosaic.ValueIdx
open Idealize.SL.Sem

variable (m : (ℓ : Loc nD τ sig) → Buf (Elt Ideal) ℓ) (c : Dev nD)

/-! ## The three operands that are layout changes of an argument -/

set_option maxHeartbeats 4000000 in
/-- The graph ids as the region finds them: the argument reshaped to a column. -/
theorem bt_term : (V m c main_v93 : S200000x1.Idx → BitVec 32)
    = shapeCast S200000x1 (m ((c : Thread nD τ).loc main_arg1)) shapeCasts_S200000_S200000x1 := by
  dsimp only [Cert.KernelIdeal.Fr.V, Cert.KernelIdeal.Fr.V0]
  simp only [hostOps0, hostOps0_1, hostOps0_2, hostOps0_3, hostOps0_4, List.flatten_cons, List.flatten_nil, List.append_nil, List.cons_append, List.nil_append]
  after_results_simp
  try rfl

/-- Row `r` of the column is node `r`'s graph id. -/
theorem bt_apply (r : Fin 200000) :
    (V m c main_v93 : S200000x1.Idx → BitVec 32) (ix2 r (0 : Fin 1)) = Cert.RefVal.btR (m ((c : Thread nD τ).loc main_arg1)) r := by
  rw [bt_term]
  unfold Cert.RefVal.btR
  refine shapeCast_apply _ _ (ix2 r (0 : Fin 1)) (ix1 r) ?_
  rw [Shape.rowMajor_val_two, Shape.rowMajor_val_one]
  show r.val = r.val * 1 + 0
  omega

set_option maxHeartbeats 4000000 in
/-- The weights as the region finds them: the argument with its unit axis dropped. -/
theorem W_term : (V m c main_v90 : S4x64.Idx → EReal)
    = shapeCast S4x64 (m ((c : Thread nD τ).loc main_arg2)) shapeCasts_S4x1x64_S4x64 := by
  dsimp only [Cert.KernelIdeal.Fr.V, Cert.KernelIdeal.Fr.V0]
  simp only [hostOps0, hostOps0_1, hostOps0_2, hostOps0_3, hostOps0_4, List.flatten_cons, List.flatten_nil, List.append_nil, List.cons_append, List.nil_append]
  after_results_simp
  try rfl

/-- Entry `(k, q)` is hop `k`'s weight for class `q`. -/
theorem W_apply (k : Fin 4) (q : Fin 64) :
    (V m c main_v90 : S4x64.Idx → EReal) (ix2 k q) = Cert.RefVal.WR (m ((c : Thread nD τ).loc main_arg2)) k q := by
  rw [W_term]
  unfold Cert.RefVal.WR
  refine shapeCast_apply _ _ (ix2 k q) (ix3 k (0 : Fin 1) q) ?_
  rw [Shape.rowMajor_val_two, Shape.rowMajor_val_three]
  show (k.val * 1 + 0) * 64 + q.val = k.val * 64 + q.val
  omega

set_option maxHeartbeats 4000000 in
/-- The summed biases as the region finds them: the host sum over the hops, as a row. -/
theorem bs_term : (V m c main_v92 : S1x64.Idx → EReal)
    = broadcastInDim S1x64 ![1] bcast_S64_S1x64_1 (Host.reduceAdd (F := Ideal) (m ((c : Thread nD τ).loc main_arg3)) (constant (F := Ideal) S_ .f32 0x00000000#32) reducesTo_S4x64_S64_d0 h_S_) := by
  dsimp only [Cert.KernelIdeal.Fr.V, Cert.KernelIdeal.Fr.V0]
  simp only [hostOps0, hostOps0_1, hostOps0_2, hostOps0_3, hostOps0_4, List.flatten_cons, List.flatten_nil, List.append_nil, List.cons_append, List.nil_append]
  after_results_simp
  try rfl

/-- The index the host sum over the hops reads at hop `k` for class `q`. -/
theorem lift_bias (h : S4x64.Reduces [0] S64) (q : Fin 64) (k : Fin 4) : h.lift (ix1 q) k = ix2 k q := by
  funext a
  match a with
  | ⟨0, _⟩ => exact Fin.ext rfl
  | ⟨1, _⟩ => exact Fin.ext rfl

/-- Entry `(0, q)` is zero plus the four hops' biases for class `q`. -/
theorem bs_apply (q : Fin 64) :
    (V m c main_v92 : S1x64.Idx → EReal) (ix2 (0 : Fin 1) q) = Cert.Spec.bsum (Cert.RefVal.bR (m ((c : Thread nD τ).loc main_arg3))) q := by
  rw [bs_term]
  rw [broadcastInDim_apply _ bcast_S64_S1x64_1 _ (ix2 (0 : Fin 1) q) (ix1 q) (fun a => match a with
    | ⟨0, _⟩ => by show q.val = if (64 : Nat) = 1 then 0 else q.val; rw [if_neg (by decide)])]
  rw [hostReduceAdd_apply]
  have hR : S4x64.Reduces [0] S64 := by decide
  rw [Ideal.hostReduceAdd_single reducesTo_S4x64_S64_d0 hR]
  unfold Cert.Spec.bsum Cert.RefVal.bR
  show Ideal.ofBits .f32 0x00000000#32 + ∑ k : Fin 4, _ = _
  rw [Ideal.ofBits_zero_f32]
  congr 1
  refine Finset.sum_congr rfl (fun k _ => ?_)
  rw [lift_bias]

end Cert.KHost

end
-- ==== Proof.KHostB.lean ====
/-
  The reciprocal graph sizes the pooling kernel's region is entered with: a column [1024, 1], the reshape of the
  host's count-and-invert chain (a scatter-add of ones by graph id, one over the count, zero where the count is not
  positive).  The chain is, operation for operation, the reference's own, so the array before the reshape is the
  reference's stage at any float family; the column's row g is that stage at g.
-/
import proofs.«420619_j84035330113568_1_alg».proof.Proof.KIRuns
import proofs.«420619_j84035330113568_1_alg».proof.Proof.RefDefs
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.KHost

open Cert.KernelIdeal Cert.KernelIdeal.Gen Cert.KernelIdeal.Fr
open Idealize.ShloMosaic Idealize.ShloMosaic.TcCoe Idealize.ShloMosaic.StableHlo Idealize.ShloMosaic.ValueIdx
open Idealize.SL.Sem
open Cert.ReferenceIdeal.ReadP

/-! ## The whole array, at any float family -/
section AnyFloats

variable {F : FTy → Type} [FloatOps F]
variable (m : (ℓ : Loc nD τ sig) → Buf (Elt F) ℓ) (c : Dev nD)

set_option maxHeartbeats 4000000 in
/-- The reciprocal sizes as the region finds them: the reference's stage, reshaped to a column. -/
theorem ic_term : (V m c main_v89 : (⟨S1024x1, .f32⟩ : BufTy).Contents (Elt F))
    = shapeCast S1024x1 (val_main_v39 (F := F) (m ((c : Thread nD τ).loc main_arg1))) shapeCasts_S1024_S1024x1 := by
  dsimp only [Cert.KernelIdeal.Fr.V, Cert.KernelIdeal.Fr.V0]
  simp only [hostOps0, hostOps0_1, hostOps0_2, hostOps0_3, hostOps0_4, List.flatten_cons, List.flatten_nil, List.append_nil, List.cons_append, List.nil_append]
  after_results_simp
  simp only [StableHlo.TRef.ofBuf, StableHlo.TRef.toBuf, cast_eq]
  rfl

end AnyFloats

/-! ## At the ideal family, at an index -/

section AtIdeal

variable (m : (ℓ : Loc nD τ sig) → Buf (Elt Ideal) ℓ) (c : Dev nD)

/-- Row `g` of the column is the reciprocal of graph `g`'s node count. -/
theorem ic_apply (g : Fin 1024) :
    (V m c main_v89 : S1024x1.Idx → EReal) (ix2 g (0 : Fin 1)) = Cert.RefVal.icR (m ((c : Thread nD τ).loc main_arg1)) g := by
  refine (congrFun (ic_term (F := Ideal) m c) (ix2 g (0 : Fin 1))).trans ?_
  unfold Cert.RefVal.icR
  refine shapeCast_apply _ _ (ix2 g (0 : Fin 1)) (ix1 g) ?_
  rw [Shape.rowMajor_val_two, Shape.rowMajor_val_one]
  show g.val = g.val * 1 + 0
  omega

end AtIdeal

end Cert.KHost

end
-- ==== Proof.KHostC.lean ====
/-
  The propagated node features the pooling kernel's region is entered with: four columns [200000, 1] joined side by
  side into [200000, 4].  Column k is the sparse propagation applied k + 1 times to the all-ones column, and the host
  operations that prepare it are, operation for operation, the reference's own (edge lists with self loops appended,
  degrees by a scatter-add, their inverse square roots selected where positive, the edge weights as a product of two
  gathers, then per hop a gather, a product and a scatter-add).  So each column equals the reference's stage as a whole
  array, at any float family: the two terms are the same tree of operations over the same argument.
-/
import proofs.«420619_j84035330113568_1_alg».proof.Proof.KIRuns
import proofs.«420619_j84035330113568_1_alg».proof.Proof.RefDefs
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.KHost

open Cert.KernelIdeal Cert.KernelIdeal.Gen Cert.KernelIdeal.Fr
open Idealize.ShloMosaic Idealize.ShloMosaic.TcCoe Idealize.ShloMosaic.StableHlo Idealize.ShloMosaic.ValueIdx
open Idealize.SL.Sem
open Cert.ReferenceIdeal.ReadP

/-- Column `0` of four columns joined side by side is the first of them. -/
theorem concat4_apply0 {α : Type} (x0 x1 x2 x3 : S200000x1.Idx → α)
    (h : Shape.Concatenates [S200000x1, S200000x1, S200000x1, S200000x1] S200000x4 1) (r : Fin 200000) :
    concatenate S200000x4 1 [⟨S200000x1, x0⟩, ⟨S200000x1, x1⟩, ⟨S200000x1, x2⟩, ⟨S200000x1, x3⟩] h (ix2 r (0 : Fin 4))
      = x0 (ix2 r (0 : Fin 1)) :=
  concatenate_apply_piece 1 ([⟨S200000x1, x0⟩, ⟨S200000x1, x1⟩, ⟨S200000x1, x2⟩, ⟨S200000x1, x3⟩] : List ((s : Shape) × (s.Idx → α)))
    h (ix2 r (0 : Fin 4)) 0 (by show 0 < 4; omega) S200000x1 x0 rfl rfl 0 rfl (ix2 r (0 : Fin 1))
    (fun b hb => by
      match b with
      | ⟨0, _⟩ => rfl
      | ⟨1, _⟩ => exact absurd rfl hb) rfl

/-- Column `1` of four columns joined side by side is the second of them. -/
theorem concat4_apply1 {α : Type} (x0 x1 x2 x3 : S200000x1.Idx → α)
    (h : Shape.Concatenates [S200000x1, S200000x1, S200000x1, S200000x1] S200000x4 1) (r : Fin 200000) :
    concatenate S200000x4 1 [⟨S200000x1, x0⟩, ⟨S200000x1, x1⟩, ⟨S200000x1, x2⟩, ⟨S200000x1, x3⟩] h (ix2 r (1 : Fin 4))
      = x1 (ix2 r (0 : Fin 1)) :=
  concatenate_apply_piece 1 ([⟨S200000x1, x0⟩, ⟨S200000x1, x1⟩, ⟨S200000x1, x2⟩, ⟨S200000x1, x3⟩] : List ((s : Shape) × (s.Idx → α)))
    h (ix2 r (1 : Fin 4)) 1 (by show 1 < 4; omega) S200000x1 x1 rfl rfl 1 rfl (ix2 r (0 : Fin 1))
    (fun b hb => by
      match b with
      | ⟨0, _⟩ => rfl
      | ⟨1, _⟩ => exact absurd rfl hb) rfl

/-- Column `2` of four columns joined side by side is the third of them. -/
theorem concat4_apply2 {α : Type} (x0 x1 x2 x3 : S200000x1.Idx → α)
    (h : Shape.Concatenates [S200000x1, S200000x1, S200000x1, S200000x1] S200000x4 1) (r : Fin 200000) :
    concatenate S200000x4 1 [⟨S200000x1, x0⟩, ⟨S200000x1, x1⟩, ⟨S200000x1, x2⟩, ⟨S200000x1, x3⟩] h (ix2 r (2 : Fin 4))
      = x2 (ix2 r (0 : Fin 1)) :=
  concatenate_apply_piece 1 ([⟨S200000x1, x0⟩, ⟨S200000x1, x1⟩, ⟨S200000x1, x2⟩, ⟨S200000x1, x3⟩] : List ((s : Shape) × (s.Idx → α)))
    h (ix2 r (2 : Fin 4)) 2 (by show 2 < 4; omega) S200000x1 x2 rfl rfl 2 rfl (ix2 r (0 : Fin 1))
    (fun b hb => by
      match b with
      | ⟨0, _⟩ => rfl
      | ⟨1, _⟩ => exact absurd rfl hb) rfl

/-- Column `3` of four columns joined side by side is the fourth of them. -/
theorem concat4_apply3 {α : Type} (x0 x1 x2 x3 : S200000x1.Idx → α)
    (h : Shape.Concatenates [S200000x1, S200000x1, S200000x1, S200000x1] S200000x4 1) (r : Fin 200000) :
    concatenate S200000x4 1 [⟨S200000x1, x0⟩, ⟨S200000x1, x1⟩, ⟨S200000x1, x2⟩, ⟨S200000x1, x3⟩] h (ix2 r (3 : Fin 4))
      = x3 (ix2 r (0 : Fin 1)) :=
  concatenate_apply_piece 1 ([⟨S200000x1, x0⟩, ⟨S200000x1, x1⟩, ⟨S200000x1, x2⟩, ⟨S200000x1, x3⟩] : List ((s : Shape) × (s.Idx → α)))
    h (ix2 r (3 : Fin 4)) 3 (by show 3 < 4; omega) S200000x1 x3 rfl rfl 3 rfl (ix2 r (0 : Fin 1))
    (fun b hb => by
      match b with
      | ⟨0, _⟩ => rfl
      | ⟨1, _⟩ => exact absurd rfl hb) rfl

/-! ## The four columns, at any float family -/
section AnyFloats

variable {F : FTy → Type} [FloatOps F]
variable (m : (ℓ : Loc nD τ sig) → Buf (Elt F) ℓ) (c : Dev nD)

set_option maxHeartbeats 4000000 in
/-- Column `0` of the propagated features as the region finds them is the reference's hop-1 stage. -/
theorem X_col0 (r : Fin 200000) :
    (V m c main_v79 : (⟨S200000x4, .f32⟩ : BufTy).Contents (Elt F)) (ix2 r (0 : Fin 4))
      = val_main_v52 (F := F) (m ((c : Thread nD τ).loc main_arg0)) (ix2 r (0 : Fin 1)) := by
  dsimp only [Cert.KernelIdeal.Fr.V, Cert.KernelIdeal.Fr.V0]
  simp only [hostOps0, hostOps0_1, hostOps0_2, hostOps0_3, hostOps0_4, List.flatten_cons, List.flatten_nil, List.append_nil, List.cons_append, List.nil_append]
  simp (disch := decide) only [after_cons, after_nil, nary_result', nullary_result_ne', unary_result_ne', binary_result_ne', ternary_result_ne', quaternary_result_ne', reshape_result_ne', nary_result_ne', Matrix.cons_val_zero, Matrix.cons_val_one, Matrix.cons_val]
  refine (concat4_apply0 _ _ _ _ _ r).trans ?_
  refine congrFun ?_ (ix2 r (0 : Fin 1))
  after_results_simp
  simp only [StableHlo.TRef.ofBuf, StableHlo.TRef.toBuf, cast_eq]
  rfl

set_option maxHeartbeats 4000000 in
/-- Column `1` of the propagated features as the region finds them is the reference's hop-2 stage. -/
theorem X_col1 (r : Fin 200000) :
    (V m c main_v79 : (⟨S200000x4, .f32⟩ : BufTy).Contents (Elt F)) (ix2 r (1 : Fin 4))
      = val_main_v79 (F := F) (m ((c : Thread nD τ).loc main_arg0)) (ix2 r (0 : Fin 1)) := by
  dsimp only [Cert.KernelIdeal.Fr.V, Cert.KernelIdeal.Fr.V0]
  simp only [hostOps0, hostOps0_1, hostOps0_2, hostOps0_3, hostOps0_4, List.flatten_cons, List.flatten_nil, List.append_nil, List.cons_append, List.nil_append]
  simp (disch := decide) only [after_cons, after_nil, nary_result', nullary_result_ne', unary_result_ne', binary_result_ne', ternary_result_ne', quaternary_result_ne', reshape_result_ne', nary_result_ne', Matrix.cons_val_zero, Matrix.cons_val_one, Matrix.cons_val]
  refine (concat4_apply1 _ _ _ _ _ r).trans ?_
  refine congrFun ?_ (ix2 r (0 : Fin 1))
  after_results_simp
  simp only [StableHlo.TRef.ofBuf, StableHlo.TRef.toBuf, cast_eq]
  rfl

set_option maxHeartbeats 4000000 in
/-- Column `2` of the propagated features as the region finds them is the reference's hop-3 stage. -/
theorem X_col2 (r : Fin 200000) :
    (V m c main_v79 : (⟨S200000x4, .f32⟩ : BufTy).Contents (Elt F)) (ix2 r (2 : Fin 4))
      = val_main_v106 (F := F) (m ((c : Thread nD τ).loc main_arg0)) (ix2 r (0 : Fin 1)) := by
  dsimp only [Cert.KernelIdeal.Fr.V, Cert.KernelIdeal.Fr.V0]
  simp only [hostOps0, hostOps0_1, hostOps0_2, hostOps0_3, hostOps0_4, List.flatten_cons, List.flatten_nil, List.append_nil, List.cons_append, List.nil_append]
  simp (disch := decide) only [after_cons, after_nil, nary_result', nullary_result_ne', unary_result_ne', binary_result_ne', ternary_result_ne', quaternary_result_ne', reshape_result_ne', nary_result_ne', Matrix.cons_val_zero, Matrix.cons_val_one, Matrix.cons_val]
  refine (concat4_apply2 _ _ _ _ _ r).trans ?_
  refine congrFun ?_ (ix2 r (0 : Fin 1))
  after_results_simp
  simp only [StableHlo.TRef.ofBuf, StableHlo.TRef.toBuf, cast_eq]
  rfl

set_option maxHeartbeats 4000000 in
/-- Column `3` of the propagated features as the region finds them is the reference's hop-4 stage. -/
theorem X_col3 (r : Fin 200000) :
    (V m c main_v79 : (⟨S200000x4, .f32⟩ : BufTy).Contents (Elt F)) (ix2 r (3 : Fin 4))
      = val_main_v133 (F := F) (m ((c : Thread nD τ).loc main_arg0)) (ix2 r (0 : Fin 1)) := by
  dsimp only [Cert.KernelIdeal.Fr.V, Cert.KernelIdeal.Fr.V0]
  simp only [hostOps0, hostOps0_1, hostOps0_2, hostOps0_3, hostOps0_4, List.flatten_cons, List.flatten_nil, List.append_nil, List.cons_append, List.nil_append]
  simp (disch := decide) only [after_cons, after_nil, nary_result', nullary_result_ne', unary_result_ne', binary_result_ne', ternary_result_ne', quaternary_result_ne', reshape_result_ne', nary_result_ne', Matrix.cons_val_zero, Matrix.cons_val_one, Matrix.cons_val]
  refine (concat4_apply3 _ _ _ _ _ r).trans ?_
  refine congrFun ?_ (ix2 r (0 : Fin 1))
  after_results_simp
  simp only [StableHlo.TRef.ofBuf, StableHlo.TRef.toBuf, cast_eq]
  rfl

end AnyFloats

/-! ## At the ideal family -/

section AtIdeal

variable (m : (ℓ : Loc nD τ sig) → Buf (Elt Ideal) ℓ) (c : Dev nD)

/-- Node `r`'s feature after hop `k + 1`, as the region finds it, is the reference's. -/
theorem X_apply (r : Fin 200000) (k : Fin 4) :
    (V m c main_v79 : S200000x4.Idx → EReal) (ix2 r k) = Cert.RefVal.XR (m ((c : Thread nD τ).loc main_arg0)) r k := by
  match k with
  | 0 => exact X_col0 (F := Ideal) m c r
  | 1 => exact X_col1 (F := Ideal) m c r
  | 2 => exact X_col2 (F := Ideal) m c r
  | 3 => exact X_col3 (F := Ideal) m c r

end AtIdeal

end Cert.KHost

end
-- ==== Proof.KHost.lean ====
/-
  What the pooling kernel's region finds in its five operand arrays, index by index, in the reference's terms:
  the propagated features (four hops), the graph ids, the weights, the summed biases, the reciprocal graph sizes.
-/
import proofs.«420619_j84035330113568_1_alg».proof.Proof.KHostA
import proofs.«420619_j84035330113568_1_alg».proof.Proof.KHostB
import proofs.«420619_j84035330113568_1_alg».proof.Proof.KHostC
-- ==== Proof.LibRowScatterAdd.lean ====
/-
  An accumulating scatter of whole rows, read at an index on the extended reals.

  `segment_sum(upd, idx)` of rows `upd : [R, C]` into `[N, C]` lowers to a scatter with an `add` body, update window
  axis 1, inserted window axis 0, the scatter index naming operand axis 0, over the indices as a column `[R, 1]`.
  Update element `(r, q')` lands on operand element `(idx[r, 0], q')` (the index read signed, NOT clamped; outside
  `[0, N)` the update is dropped). So element `(n, q)` of the result is the operand's plus the sum over the rows `r`
  whose index is `n` of `upd (r, q)`: columns never mix, which is why scattering rows laid side by side is scattering
  each part on its own.
-/
import Idealize.ShloMosaic.Lib.ValueIdx
import Idealize.ShloMosaic.PureOps.Ideal.Laws

noncomputable section

namespace Idealize.ShloMosaic.ValueIdx

section RowScatterAdd

/-- Those dimension numbers for an operand `[N, C]`, scatter indices `[R, 1]` and updates `[R, C]`. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Operand axis 1 is not an inserted window axis: it is the one axis the update window runs over. -/
theorem rs_mem_sKept {N R C : Nat}
    (wf : ScatterDims.WF ⟨2, ![N, C]⟩ ⟨2, ![R, 1]⟩ ⟨2, ![R, C]⟩ [1] [0] [0] 1) :
    (1 : Fin 2) ∈ (rowScatterDims N R C wf).sKept := by
  show (1 : Fin 2) ∈ (List.finRange 2).filter (fun a => a ∉ [(0 : Fin 2)])
  decide

/-- Operand axis 0 is the inserted window axis. -/
theorem rs_not_mem_sKept {N R C : Nat}
    (wf : ScatterDims.WF ⟨2, ![N, C]⟩ ⟨2, ![R, 1]⟩ ⟨2, ![R, C]⟩ [1] [0] [0] 1) :
    (0 : Fin 2) ∉ (rowScatterDims N R C wf).sKept := by
  show (0 : Fin 2) ∉ (List.finRange 2).filter (fun a => a ∉ [(0 : Fin 2)])
  decide

/-- On operand axis 0 the window coordinate is `0`. -/
theorem rs_window0 {N R C : Nat}
    (wf : ScatterDims.WF ⟨2, ![N, C]⟩ ⟨2, ![R, 1]⟩ ⟨2, ![R, C]⟩ [1] [0] [0] 1) (r : Fin R) (q' : Fin C) :
    (rowScatterDims N R C wf).window (ix2 r q') 0 = 0 := by
  unfold ScatterDims.window
  rw [dif_neg (rs_not_mem_sKept wf)]

/-- On operand axis 1 the window coordinate is the update's column `q'`. -/
theorem rs_window1 {N R C : Nat}
    (wf : ScatterDims.WF ⟨2, ![N, C]⟩ ⟨2, ![R, 1]⟩ ⟨2, ![R, C]⟩ [1] [0] [0] 1) (r : Fin R) (q' : Fin C) :
    (rowScatterDims N R C wf).window (ix2 r q') 1 = q'.val := by
  unfold ScatterDims.window
  rw [dif_pos (rs_mem_sKept wf)]
  rfl

/-- On operand axis 1, which the scatter index does not name, the window starts at `0`. -/
theorem rs_start1 {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) :
    (rowScatterDims N R C wf).start (ix2 r q') idx 1 = 0 := by
  unfold ScatterDims.start
  rw [dif_neg (show (1 : Fin 2) ∉ [(0 : Fin 2)] by decide)]

/-- On operand axis 0 the window starts at row `r`'s index `idx[r, 0]`, read signed. -/
theorem rs_start0 {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) :
    (rowScatterDims N R C wf).start (ix2 r q') idx 0 = (idx (ix2 r (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 r q') ⟨List.idxOf (0 : Fin 2) (rowScatterDims N R C wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- Update element `(r, q')` lands on `(n, q)` iff row `r`'s index, read signed, is `n`, and the columns agree. -/
theorem rowScatter_resultIdx_iff {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) (n : Fin N) (q : Fin C) :
    (rowScatterDims N R C wf).resultIdx? (ix2 r q') idx = some (ix2 n q)
      ↔ (idx (ix2 r (0 : Fin 1))).toInt = (n.val : Int) ∧ q' = q := by
  unfold ScatterDims.resultIdx?
  have hN : (![N, C] 0 : Nat) = N := rfl
  have hC : (![N, C] 1 : Nat) = C := rfl
  have hn := n.isLt
  have hq' := q'.isLt
  simp only [Fin.forall_fin_two, rs_start0, rs_start1, rs_window0, rs_window1]
  split
  · rw [Option.some.injEq]
    constructor
    · intro he
      have e0 : ((rowScatterDims N R C wf).start (ix2 r q') idx 0
          + ((rowScatterDims N R C wf).window (ix2 r q') 0 : Nat)).toNat = n.val :=
        congrArg (fun f => (f 0).val) he
      have e1 : ((rowScatterDims N R C wf).start (ix2 r q') idx 1
          + ((rowScatterDims N R C wf).window (ix2 r q') 1 : Nat)).toNat = q.val :=
        congrArg (fun f => (f 1).val) he
      rw [rs_start0, rs_window0] at e0
      rw [rs_start1, rs_window1] at e1
      exact ⟨by omega, Fin.ext (by omega)⟩
    · rintro ⟨e0, e1⟩
      funext a
      refine Fin.ext ?_
      match a with
      | ⟨0, _⟩ =>
        show ((rowScatterDims N R C wf).start (ix2 r q') idx 0
          + ((rowScatterDims N R C wf).window (ix2 r q') 0 : Nat)).toNat = n.val
        rw [rs_start0, rs_window0]; omega
      | ⟨1, _⟩ =>
        show ((rowScatterDims N R C wf).start (ix2 r q') idx 1
          + ((rowScatterDims N R C wf).window (ix2 r q') 1 : Nat)).toNat = q.val
        rw [rs_start1, rs_window1, e1]; omega
  · rename_i h
    constructor
    · intro he; cases he
    · rintro ⟨e0, e1⟩
      exact absurd ⟨⟨by omega, by omega⟩, by omega, by omega⟩ h

/-- THE ROW SCATTER-ADD READ AT `(n, q)` on the extended reals: the operand's element plus the sum, over the rows whose
    index is `n`, of the update's element in column `q`. -/
theorem rowScatterAdd_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (q : Fin C) :
    Ideal.hostScatterAdd (rowScatterDims N R C wf) x idx upd (ix2 n q)
      = x (ix2 n q) + ∑ r : Fin R, if (idx (ix2 r (0 : Fin 1))).toInt = (n.val : Int) then upd (ix2 r q) else 0 := by
  show x (ix2 n q) + ∑ j ∈ Finset.univ.filter
      (fun j => (rowScatterDims N R C wf).resultIdx? j idx = some (ix2 n q)), upd j = _
  congr 1
  rw [Finset.sum_filter, sum_idx2]
  refine Finset.sum_congr rfl (fun r _ => ?_)
  simp only [rowScatter_resultIdx_iff]
  by_cases h : (idx (ix2 r (0 : Fin 1))).toInt = (n.val : Int)
  · simp only [h, true_and, if_true]
    rw [Finset.sum_ite_eq' Finset.univ q (fun q' => upd (ix2 r q')), if_pos (Finset.mem_univ q)]
  · simp only [h, false_and, if_false, Finset.sum_const_zero]

end RowScatterAdd

end Idealize.ShloMosaic.ValueIdx

end
-- ==== Proof.RefScore.lean ====
/-
  The reference's score matrix, read at an index. Hop by hop the reference forms each node's linear layer
  X r k · W k q + b k q (a contraction over an axis of size one, plus a broadcast bias row), pools it over the nodes of
  graph g by an accumulating scatter of rows onto a zero matrix, and scales the pool by the graph's reciprocal node
  count; the four scaled pools are added, left to right, onto a zero matrix. Entry (g, q) is therefore the sum
  ((pool 0 · ic g + pool 1 · ic g) + pool 2 · ic g) + pool 3 · ic g of the specification. Only 0 + x = x, one-term sums
  and rewriting under a sum are used: no value needs to be finite.
-/
import proofs.«420619_j84035330113568_1_alg».proof.Proof.RefDefs
import proofs.«420619_j84035330113568_1_alg».proof.Proof.LibRowScatterAdd

noncomputable section

open scoped BigOperators

namespace Cert.RefVal

open Cert.ReferenceIdeal Cert.ReferenceIdeal.ReadP Idealize.ShloMosaic Idealize.ShloMosaic.ValueIdx

/-- The pooling scatter's dimension numbers are the row scatter's: update window axis 1, inserted window axis 0,
    the scatter index naming operand axis 0, the indices a column. -/
theorem scatter_eq :
    (scatter_S1024x64_S200000x1_S200000x64_1_0_0_1 : ScatterDims S1024x64 S200000x1 S200000x64)
      = rowScatterDims 1024 200000 64 Cert.ReferenceIdeal.Gen.scatter_S1024x64_S200000x1_S200000x64_1_0_0_1_wf := rfl

/-- The pooling scatter read at (g, q): the operand's entry plus the sum, over the nodes whose graph id is g, of the
    update's entry in column q. -/
theorem scatter_read (x : S1024x64.Idx → EReal) (idx : IVec S200000x1 32) (upd : S200000x64.Idx → EReal)
    (g : Fin 1024) (q : Fin 64) :
    Host.scatterAdd (F := Ideal) (φ := .f32) scatter_S1024x64_S200000x1_S200000x64_1_0_0_1 x idx upd (ix2 g q)
      = x (ix2 g q) + ∑ r : Fin 200000, if (idx (ix2 r (0 : Fin 1))).toInt = (g.val : Int) then upd (ix2 r q) else 0 :=
  rowScatterAdd_apply Cert.ReferenceIdeal.Gen.scatter_S1024x64_S200000x1_S200000x64_1_0_0_1_wf x idx upd g q

/-! ### Hop 1 -/

/-- Hop 1's weight row: row 0 of the weights sliced out and reshaped, read at the column the product asks for. -/
theorem weight1 (x2 : (⟨S4x1x64, .f32⟩ : BufTy).Contents (Elt Ideal)) (r : Fin 200000) (q : Fin 64) :
    val_main_v54 (F := Ideal) x2 (ridx_main_v55 (ix2 r q) 0) = WR x2 0 q := by
  rw [val_main_v54_apply, val_main_v53_apply]
  have e : idx_main_v53 (idx_main_v54 (ridx_main_v55 (ix2 r q) 0)) = ix3 (0 : Fin 4) (0 : Fin 1) q :=
    funext fun a => Fin.ext (by
      match a with
      | ⟨0, _⟩ => rfl
      | ⟨1, _⟩ => rfl
      | ⟨2, _⟩ => show (0 * 64 + q.val) % 64 = q.val; have := q.isLt; omega)
  rw [e]
  rfl

/-- Hop 1's bias row broadcast over the nodes: entry (r, q) is the bias of class q. -/
theorem bias1 (x3 : (⟨S4x64, .f32⟩ : BufTy).Contents (Elt Ideal)) (r : Fin 200000) (q : Fin 64) :
    val_main_v59 (F := Ideal) x3 (ix2 r q) = bR x3 0 q := by
  rw [val_main_v59_apply, val_main_v58_apply, val_main_v57_apply, val_main_v56_apply]
  have e : idx_main_v56 (idx_main_v57 (idx_main_v58 (idx_main_v59 (ix2 r q)))) = ix2 (0 : Fin 4) q :=
    funext fun a => Fin.ext (by
      match a with
      | ⟨0, _⟩ => rfl
      | ⟨1, _⟩ => show q.val % 64 = q.val; have := q.isLt; omega)
  rw [e]
  rfl

/-- Hop 1's linear layer at node r, class q: a contraction over an axis of size one is a single product; the bias is
    added. -/
theorem layer1 (x0 : (⟨S2x6400000, .i32⟩ : BufTy).Contents (Elt Ideal)) (x2 : (⟨S4x1x64, .f32⟩ : BufTy).Contents (Elt Ideal))
    (x3 : (⟨S4x64, .f32⟩ : BufTy).Contents (Elt Ideal)) (r : Fin 200000) (q : Fin 64) :
    val_main_v60 (F := Ideal) x0 x2 x3 (ix2 r q) = XR x0 r 0 * WR x2 0 q + bR x3 0 q := by
  rw [val_main_v60_apply, Ideal.addf_def, val_main_v55_apply, Fin.sum_univ_one, weight1, bias1]
  have e : lidx_main_v55 (ix2 r q) 0 = ix2 r (0 : Fin 1) := funext fun a => Fin.ext (by
    match a with
    | ⟨0, _⟩ => rfl
    | ⟨1, _⟩ => rfl)
  rw [e]
  rfl

/-- The zero matrix hop 1's pool is scattered onto reads zero everywhere. -/
theorem zero1 (g : Fin 1024) (q : Fin 64) : val_main_v61 (F := Ideal) (ix2 g q) = 0 := by
  rw [val_main_v61_apply, val_main_cst_16_apply, Ideal.ofBits_def, Ideal.ofBits_zero_f32]

/-- The graph ids as a column: entry (r, 0) is node r's graph id. -/
theorem ids1 (x1 : (⟨S200000, .i32⟩ : BufTy).Contents (Elt Ideal)) (r : Fin 200000) :
    val_main_v62 (F := Ideal) x1 (ix2 r (0 : Fin 1)) = btR x1 r := by
  rw [val_main_v62_apply]
  have e : idx_main_v62 (ix2 r (0 : Fin 1)) = ix1 r := funext fun a => Fin.ext (by
    match a with
    | ⟨0, _⟩ => rfl)
  rw [e]
  rfl

/-- The reciprocal counts broadcast along the classes: entry (g, q) is graph g's reciprocal count. -/
theorem count1 (x1 : (⟨S200000, .i32⟩ : BufTy).Contents (Elt Ideal)) (g : Fin 1024) (q : Fin 64) :
    val_main_v65 (F := Ideal) x1 (ix2 g q) = icR x1 g := by
  rw [val_main_v65_apply, val_main_v64_apply]
  have e : idx_main_v64 (idx_main_v65 (ix2 g q)) = ix1 g := funext fun a => Fin.ext (by
    match a with
    | ⟨0, _⟩ => rfl)
  rw [e]
  rfl

/-- Hop 1's scaled pool at (g, q): the members' linear layer summed, times the reciprocal count. -/
theorem pool1 (x0 : (⟨S2x6400000, .i32⟩ : BufTy).Contents (Elt Ideal)) (x1 : (⟨S200000, .i32⟩ : BufTy).Contents (Elt Ideal))
    (x2 : (⟨S4x1x64, .f32⟩ : BufTy).Contents (Elt Ideal)) (x3 : (⟨S4x64, .f32⟩ : BufTy).Contents (Elt Ideal))
    (g : Fin 1024) (q : Fin 64) :
    val_main_v66 (F := Ideal) x0 x1 x2 x3 (ix2 g q)
      = Cert.Spec.poolR (XR x0) (WR x2) (bR x3) (btR x1) 0 g q * icR x1 g := by
  rw [val_main_v66_apply, Ideal.mulf_def, count1]
  refine congrArg (fun t : EReal => t * icR x1 g) ?_
  unfold val_main_v63
  refine (scatter_read _ _ _ g q).trans ?_
  rw [zero1, zero_add]
  unfold Cert.Spec.poolR
  refine Finset.sum_congr rfl fun r _ => ?_
  rw [ids1, layer1]

/-! ### Hop 2 -/

/-- Hop 2's weight row: row 1 of the weights sliced out and reshaped, read at the column the product asks for. -/
theorem weight2 (x2 : (⟨S4x1x64, .f32⟩ : BufTy).Contents (Elt Ideal)) (r : Fin 200000) (q : Fin 64) :
    val_main_v81 (F := Ideal) x2 (ridx_main_v82 (ix2 r q) 0) = WR x2 1 q := by
  rw [val_main_v81_apply, val_main_v80_apply]
  have e : idx_main_v80 (idx_main_v81 (ridx_main_v82 (ix2 r q) 0)) = ix3 (1 : Fin 4) (0 : Fin 1) q :=
    funext fun a => Fin.ext (by
      match a with
      | ⟨0, _⟩ => rfl
      | ⟨1, _⟩ => rfl
      | ⟨2, _⟩ => show (0 * 64 + q.val) % 64 = q.val; have := q.isLt; omega)
  rw [e]
  rfl

/-- Hop 2's bias row broadcast over the nodes: entry (r, q) is the bias of class q. -/
theorem bias2 (x3 : (⟨S4x64, .f32⟩ : BufTy).Contents (Elt Ideal)) (r : Fin 200000) (q : Fin 64) :
    val_main_v86 (F := Ideal) x3 (ix2 r q) = bR x3 1 q := by
  rw [val_main_v86_apply, val_main_v85_apply, val_main_v84_apply, val_main_v83_apply]
  have e : idx_main_v83 (idx_main_v84 (idx_main_v85 (idx_main_v86 (ix2 r q)))) = ix2 (1 : Fin 4) q :=
    funext fun a => Fin.ext (by
      match a with
      | ⟨0, _⟩ => rfl
      | ⟨1, _⟩ => show q.val % 64 = q.val; have := q.isLt; omega)
  rw [e]
  rfl

/-- Hop 2's linear layer at node r, class q: a contraction over an axis of size one is a single product; the bias is
    added. -/
theorem layer2 (x0 : (⟨S2x6400000, .i32⟩ : BufTy).Contents (Elt Ideal)) (x2 : (⟨S4x1x64, .f32⟩ : BufTy).Contents (Elt Ideal))
    (x3 : (⟨S4x64, .f32⟩ : BufTy).Contents (Elt Ideal)) (r : Fin 200000) (q : Fin 64) :
    val_main_v87 (F := Ideal) x0 x2 x3 (ix2 r q) = XR x0 r 1 * WR x2 1 q + bR x3 1 q := by
  rw [val_main_v87_apply, Ideal.addf_def, val_main_v82_apply, Fin.sum_univ_one, weight2, bias2]
  have e : lidx_main_v82 (ix2 r q) 0 = ix2 r (0 : Fin 1) := funext fun a => Fin.ext (by
    match a with
    | ⟨0, _⟩ => rfl
    | ⟨1, _⟩ => rfl)
  rw [e]
  rfl

/-- The zero matrix hop 2's pool is scattered onto reads zero everywhere. -/
theorem zero2 (g : Fin 1024) (q : Fin 64) : val_main_v88 (F := Ideal) (ix2 g q) = 0 := by
  rw [val_main_v88_apply, val_main_cst_20_apply, Ideal.ofBits_def, Ideal.ofBits_zero_f32]

/-- The graph ids as a column: entry (r, 0) is node r's graph id. -/
theorem ids2 (x1 : (⟨S200000, .i32⟩ : BufTy).Contents (Elt Ideal)) (r : Fin 200000) :
    val_main_v89 (F := Ideal) x1 (ix2 r (0 : Fin 1)) = btR x1 r := by
  rw [val_main_v89_apply]
  have e : idx_main_v89 (ix2 r (0 : Fin 1)) = ix1 r := funext fun a => Fin.ext (by
    match a with
    | ⟨0, _⟩ => rfl)
  rw [e]
  rfl

/-- The reciprocal counts broadcast along the classes: entry (g, q) is graph g's reciprocal count. -/
theorem count2 (x1 : (⟨S200000, .i32⟩ : BufTy).Contents (Elt Ideal)) (g : Fin 1024) (q : Fin 64) :
    val_main_v92 (F := Ideal) x1 (ix2 g q) = icR x1 g := by
  rw [val_main_v92_apply, val_main_v91_apply]
  have e : idx_main_v91 (idx_main_v92 (ix2 g q)) = ix1 g := funext fun a => Fin.ext (by
    match a with
    | ⟨0, _⟩ => rfl)
  rw [e]
  rfl

/-- Hop 2's scaled pool at (g, q): the members' linear layer summed, times the reciprocal count. -/
theorem pool2 (x0 : (⟨S2x6400000, .i32⟩ : BufTy).Contents (Elt Ideal)) (x1 : (⟨S200000, .i32⟩ : BufTy).Contents (Elt Ideal))
    (x2 : (⟨S4x1x64, .f32⟩ : BufTy).Contents (Elt Ideal)) (x3 : (⟨S4x64, .f32⟩ : BufTy).Contents (Elt Ideal))
    (g : Fin 1024) (q : Fin 64) :
    val_main_v93 (F := Ideal) x0 x1 x2 x3 (ix2 g q)
      = Cert.Spec.poolR (XR x0) (WR x2) (bR x3) (btR x1) 1 g q * icR x1 g := by
  rw [val_main_v93_apply, Ideal.mulf_def, count2]
  refine congrArg (fun t : EReal => t * icR x1 g) ?_
  unfold val_main_v90
  refine (scatter_read _ _ _ g q).trans ?_
  rw [zero2, zero_add]
  unfold Cert.Spec.poolR
  refine Finset.sum_congr rfl fun r _ => ?_
  rw [ids2, layer2]

/-! ### Hop 3 -/

/-- Hop 3's weight row: row 2 of the weights sliced out and reshaped, read at the column the product asks for. -/
theorem weight3 (x2 : (⟨S4x1x64, .f32⟩ : BufTy).Contents (Elt Ideal)) (r : Fin 200000) (q : Fin 64) :
    val_main_v108 (F := Ideal) x2 (ridx_main_v109 (ix2 r q) 0) = WR x2 2 q := by
  rw [val_main_v108_apply, val_main_v107_apply]
  have e : idx_main_v107 (idx_main_v108 (ridx_main_v109 (ix2 r q) 0)) = ix3 (2 : Fin 4) (0 : Fin 1) q :=
    funext fun a => Fin.ext (by
      match a with
      | ⟨0, _⟩ => rfl
      | ⟨1, _⟩ => rfl
      | ⟨2, _⟩ => show (0 * 64 + q.val) % 64 = q.val; have := q.isLt; omega)
  rw [e]
  rfl

/-- Hop 3's bias row broadcast over the nodes: entry (r, q) is the bias of class q. -/
theorem bias3 (x3 : (⟨S4x64, .f32⟩ : BufTy).Contents (Elt Ideal)) (r : Fin 200000) (q : Fin 64) :
    val_main_v113 (F := Ideal) x3 (ix2 r q) = bR x3 2 q := by
  rw [val_main_v113_apply, val_main_v112_apply, val_main_v111_apply, val_main_v110_apply]
  have e : idx_main_v110 (idx_main_v111 (idx_main_v112 (idx_main_v113 (ix2 r q)))) = ix2 (2 : Fin 4) q :=
    funext fun a => Fin.ext (by
      match a with
      | ⟨0, _⟩ => rfl
      | ⟨1, _⟩ => show q.val % 64 = q.val; have := q.isLt; omega)
  rw [e]
  rfl

/-- Hop 3's linear layer at node r, class q: a contraction over an axis of size one is a single product; the bias is
    added. -/
theorem layer3 (x0 : (⟨S2x6400000, .i32⟩ : BufTy).Contents (Elt Ideal)) (x2 : (⟨S4x1x64, .f32⟩ : BufTy).Contents (Elt Ideal))
    (x3 : (⟨S4x64, .f32⟩ : BufTy).Contents (Elt Ideal)) (r : Fin 200000) (q : Fin 64) :
    val_main_v114 (F := Ideal) x0 x2 x3 (ix2 r q) = XR x0 r 2 * WR x2 2 q + bR x3 2 q := by
  rw [val_main_v114_apply, Ideal.addf_def, val_main_v109_apply, Fin.sum_univ_one, weight3, bias3]
  have e : lidx_main_v109 (ix2 r q) 0 = ix2 r (0 : Fin 1) := funext fun a => Fin.ext (by
    match a with
    | ⟨0, _⟩ => rfl
    | ⟨1, _⟩ => rfl)
  rw [e]
  rfl

/-- The zero matrix hop 3's pool is scattered onto reads zero everywhere. -/
theorem zero3 (g : Fin 1024) (q : Fin 64) : val_main_v115 (F := Ideal) (ix2 g q) = 0 := by
  rw [val_main_v115_apply, val_main_cst_24_apply, Ideal.ofBits_def, Ideal.ofBits_zero_f32]

/-- The graph ids as a column: entry (r, 0) is node r's graph id. -/
theorem ids3 (x1 : (⟨S200000, .i32⟩ : BufTy).Contents (Elt Ideal)) (r : Fin 200000) :
    val_main_v116 (F := Ideal) x1 (ix2 r (0 : Fin 1)) = btR x1 r := by
  rw [val_main_v116_apply]
  have e : idx_main_v116 (ix2 r (0 : Fin 1)) = ix1 r := funext fun a => Fin.ext (by
    match a with
    | ⟨0, _⟩ => rfl)
  rw [e]
  rfl

/-- The reciprocal counts broadcast along the classes: entry (g, q) is graph g's reciprocal count. -/
theorem count3 (x1 : (⟨S200000, .i32⟩ : BufTy).Contents (Elt Ideal)) (g : Fin 1024) (q : Fin 64) :
    val_main_v119 (F := Ideal) x1 (ix2 g q) = icR x1 g := by
  rw [val_main_v119_apply, val_main_v118_apply]
  have e : idx_main_v118 (idx_main_v119 (ix2 g q)) = ix1 g := funext fun a => Fin.ext (by
    match a with
    | ⟨0, _⟩ => rfl)
  rw [e]
  rfl

/-- Hop 3's scaled pool at (g, q): the members' linear layer summed, times the reciprocal count. -/
theorem pool3 (x0 : (⟨S2x6400000, .i32⟩ : BufTy).Contents (Elt Ideal)) (x1 : (⟨S200000, .i32⟩ : BufTy).Contents (Elt Ideal))
    (x2 : (⟨S4x1x64, .f32⟩ : BufTy).Contents (Elt Ideal)) (x3 : (⟨S4x64, .f32⟩ : BufTy).Contents (Elt Ideal))
    (g : Fin 1024) (q : Fin 64) :
    val_main_v120 (F := Ideal) x0 x1 x2 x3 (ix2 g q)
      = Cert.Spec.poolR (XR x0) (WR x2) (bR x3) (btR x1) 2 g q * icR x1 g := by
  rw [val_main_v120_apply, Ideal.mulf_def, count3]
  refine congrArg (fun t : EReal => t * icR x1 g) ?_
  unfold val_main_v117
  refine (scatter_read _ _ _ g q).trans ?_
  rw [zero3, zero_add]
  unfold Cert.Spec.poolR
  refine Finset.sum_congr rfl fun r _ => ?_
  rw [ids3, layer3]

/-! ### Hop 4 -/

/-- Hop 4's weight row: row 3 of the weights sliced out and reshaped, read at the column the product asks for. -/
theorem weight4 (x2 : (⟨S4x1x64, .f32⟩ : BufTy).Contents (Elt Ideal)) (r : Fin 200000) (q : Fin 64) :
    val_main_v135 (F := Ideal) x2 (ridx_main_v136 (ix2 r q) 0) = WR x2 3 q := by
  rw [val_main_v135_apply, val_main_v134_apply]
  have e : idx_main_v134 (idx_main_v135 (ridx_main_v136 (ix2 r q) 0)) = ix3 (3 : Fin 4) (0 : Fin 1) q :=
    funext fun a => Fin.ext (by
      match a with
      | ⟨0, _⟩ => rfl
      | ⟨1, _⟩ => rfl
      | ⟨2, _⟩ => show (0 * 64 + q.val) % 64 = q.val; have := q.isLt; omega)
  rw [e]
  rfl

/-- Hop 4's bias row broadcast over the nodes: entry (r, q) is the bias of class q. -/
theorem bias4 (x3 : (⟨S4x64, .f32⟩ : BufTy).Contents (Elt Ideal)) (r : Fin 200000) (q : Fin 64) :
    val_main_v140 (F := Ideal) x3 (ix2 r q) = bR x3 3 q := by
  rw [val_main_v140_apply, val_main_v139_apply, val_main_v138_apply, val_main_v137_apply]
  have e : idx_main_v137 (idx_main_v138 (idx_main_v139 (idx_main_v140 (ix2 r q)))) = ix2 (3 : Fin 4) q :=
    funext fun a => Fin.ext (by
      match a with
      | ⟨0, _⟩ => rfl
      | ⟨1, _⟩ => show q.val % 64 = q.val; have := q.isLt; omega)
  rw [e]
  rfl

/-- Hop 4's linear layer at node r, class q: a contraction over an axis of size one is a single product; the bias is
    added. -/
theorem layer4 (x0 : (⟨S2x6400000, .i32⟩ : BufTy).Contents (Elt Ideal)) (x2 : (⟨S4x1x64, .f32⟩ : BufTy).Contents (Elt Ideal))
    (x3 : (⟨S4x64, .f32⟩ : BufTy).Contents (Elt Ideal)) (r : Fin 200000) (q : Fin 64) :
    val_main_v141 (F := Ideal) x0 x2 x3 (ix2 r q) = XR x0 r 3 * WR x2 3 q + bR x3 3 q := by
  rw [val_main_v141_apply, Ideal.addf_def, val_main_v136_apply, Fin.sum_univ_one, weight4, bias4]
  have e : lidx_main_v136 (ix2 r q) 0 = ix2 r (0 : Fin 1) := funext fun a => Fin.ext (by
    match a with
    | ⟨0, _⟩ => rfl
    | ⟨1, _⟩ => rfl)
  rw [e]
  rfl

/-- The zero matrix hop 4's pool is scattered onto reads zero everywhere. -/
theorem zero4 (g : Fin 1024) (q : Fin 64) : val_main_v142 (F := Ideal) (ix2 g q) = 0 := by
  rw [val_main_v142_apply, val_main_cst_28_apply, Ideal.ofBits_def, Ideal.ofBits_zero_f32]

/-- The graph ids as a column: entry (r, 0) is node r's graph id. -/
theorem ids4 (x1 : (⟨S200000, .i32⟩ : BufTy).Contents (Elt Ideal)) (r : Fin 200000) :
    val_main_v143 (F := Ideal) x1 (ix2 r (0 : Fin 1)) = btR x1 r := by
  rw [val_main_v143_apply]
  have e : idx_main_v143 (ix2 r (0 : Fin 1)) = ix1 r := funext fun a => Fin.ext (by
    match a with
    | ⟨0, _⟩ => rfl)
  rw [e]
  rfl

/-- The reciprocal counts broadcast along the classes: entry (g, q) is graph g's reciprocal count. -/
theorem count4 (x1 : (⟨S200000, .i32⟩ : BufTy).Contents (Elt Ideal)) (g : Fin 1024) (q : Fin 64) :
    val_main_v146 (F := Ideal) x1 (ix2 g q) = icR x1 g := by
  rw [val_main_v146_apply, val_main_v145_apply]
  have e : idx_main_v145 (idx_main_v146 (ix2 g q)) = ix1 g := funext fun a => Fin.ext (by
    match a with
    | ⟨0, _⟩ => rfl)
  rw [e]
  rfl

/-- Hop 4's scaled pool at (g, q): the members' linear layer summed, times the reciprocal count. -/
theorem pool4 (x0 : (⟨S2x6400000, .i32⟩ : BufTy).Contents (Elt Ideal)) (x1 : (⟨S200000, .i32⟩ : BufTy).Contents (Elt Ideal))
    (x2 : (⟨S4x1x64, .f32⟩ : BufTy).Contents (Elt Ideal)) (x3 : (⟨S4x64, .f32⟩ : BufTy).Contents (Elt Ideal))
    (g : Fin 1024) (q : Fin 64) :
    val_main_v147 (F := Ideal) x0 x1 x2 x3 (ix2 g q)
      = Cert.Spec.poolR (XR x0) (WR x2) (bR x3) (btR x1) 3 g q * icR x1 g := by
  rw [val_main_v147_apply, Ideal.mulf_def, count4]
  refine congrArg (fun t : EReal => t * icR x1 g) ?_
  unfold val_main_v144
  refine (scatter_read _ _ _ g q).trans ?_
  rw [zero4, zero_add]
  unfold Cert.Spec.poolR
  refine Finset.sum_congr rfl fun r _ => ?_
  rw [ids4, layer4]

/-! ### The four scaled pools added -/

/-- The zero matrix the four scaled pools are added onto reads zero everywhere. -/
theorem base_zero (g : Fin 1024) (q : Fin 64) : val_main_v40 (F := Ideal) (ix2 g q) = 0 := by
  rw [val_main_v40_apply, val_main_cst_12_apply, Ideal.ofBits_def, Ideal.ofBits_zero_f32]

/-- The score matrix at (g, q): zero plus hop 1's scaled pool is that pool; the other three are added left to right. -/
theorem score_apply (x0 : (⟨S2x6400000, .i32⟩ : BufTy).Contents (Elt Ideal)) (x1 : (⟨S200000, .i32⟩ : BufTy).Contents (Elt Ideal))
    (x2 : (⟨S4x1x64, .f32⟩ : BufTy).Contents (Elt Ideal)) (x3 : (⟨S4x64, .f32⟩ : BufTy).Contents (Elt Ideal))
    (g : Fin 1024) (q : Fin 64) :
    Cert.ReferenceIdeal.ReadP.val_main_v148 (F := Ideal) x0 x1 x2 x3 (ValueIdx.ix2 g q)
      = Cert.Spec.scoreR (XR x0) (WR x2) (bR x3) (btR x1) (icR x1) g q := by
  unfold Cert.Spec.scoreR
  rw [val_main_v148_apply, Ideal.addf_def, val_main_v121_apply, Ideal.addf_def, val_main_v94_apply, Ideal.addf_def,
    val_main_v67_apply, Ideal.addf_def, base_zero, zero_add, pool1, pool2, pool3, pool4]

end Cert.RefVal

end
-- ==== Proof.LibFinite.lean ====
/-
  Finiteness of arrays of extended reals through the operations of a layered network.

  In the extended reals the distributive law x·(a + b) = x·a + x·b fails at the infinities, and holds whenever
  x, a and b are real numbers. This file says what it means for an extended real, and for every entry of an array, to be
  a real number, and shows that the property passes from the operands to the result of each operation the network uses:
  sums, products, maxima, finite sums, matrix products, re-indexings (broadcasts, reshapes, gathers, selections),
  accumulating scatters, and a quotient by a real number that is at least one.
-/
import Idealize.ShloMosaic.PureOps.Ideal
import Idealize.ShloMosaic.PureOps.Ideal.Laws
import Idealize.ShloMosaic.Lib.ValueIdx
import Idealize.ShloMosaic.Lib.IdealHost
import Mathlib.Data.EReal.Basic
import Mathlib.Data.EReal.Operations
import Mathlib.Data.EReal.Inv
import Mathlib.Algebra.BigOperators.Group.Finset.Basic

noncomputable section

open scoped BigOperators

namespace Cert.Fin

open Idealize.ShloMosaic Idealize.ShloMosaic.ValueIdx

/-! ### Scalars -/

/-- An extended real is finite when it is neither infinity: it is a real number. -/
def IsFin (x : EReal) : Prop := x ≠ ⊤ ∧ x ≠ ⊥

/-- Finite means: the image of a real number. -/
theorem isFin_iff (x : EReal) : IsFin x ↔ ∃ r : ℝ, x = (r : EReal) := by
  constructor
  · rintro ⟨ht, hb⟩
    exact ⟨x.toReal, (EReal.coe_toReal ht hb).symm⟩
  · rintro ⟨r, rfl⟩
    exact ⟨EReal.coe_ne_top r, EReal.coe_ne_bot r⟩

theorem IsFin.coe (r : ℝ) : IsFin (r : EReal) := ⟨EReal.coe_ne_top r, EReal.coe_ne_bot r⟩

theorem IsFin.zero : IsFin (0 : EReal) := by
  rw [← EReal.coe_zero]; exact IsFin.coe 0

theorem IsFin.one : IsFin (1 : EReal) := by
  rw [← EReal.coe_one]; exact IsFin.coe 1

/-- The sum of two real numbers is a real number. -/
theorem IsFin.add {x y : EReal} (hx : IsFin x) (hy : IsFin y) : IsFin (x + y) := by
  obtain ⟨r, rfl⟩ := (isFin_iff x).1 hx
  obtain ⟨s, rfl⟩ := (isFin_iff y).1 hy
  rw [← EReal.coe_add]; exact IsFin.coe _

/-- The product of two real numbers is a real number. -/
theorem IsFin.mul {x y : EReal} (hx : IsFin x) (hy : IsFin y) : IsFin (x * y) := by
  obtain ⟨r, rfl⟩ := (isFin_iff x).1 hx
  obtain ⟨s, rfl⟩ := (isFin_iff y).1 hy
  rw [← EReal.coe_mul]; exact IsFin.coe _

/-- The greater of two real numbers is one of them. -/
theorem IsFin.max {x y : EReal} (hx : IsFin x) (hy : IsFin y) : IsFin (max x y) := by
  rcases max_choice x y with h | h <;> rw [h] <;> assumption

/-- A finite sum of real numbers is a real number. -/
theorem IsFin.sum {ι : Type*} (s : Finset ι) (f : ι → EReal) (h : ∀ i ∈ s, IsFin (f i)) : IsFin (∑ i ∈ s, f i) := by
  classical
  induction s using Finset.induction_on with
  | empty => rw [Finset.sum_empty]; exact IsFin.zero
  | insert a s ha ih =>
    rw [Finset.sum_insert ha]
    exact IsFin.add (h a (Finset.mem_insert_self a s)) (ih fun i hi => h i (Finset.mem_insert_of_mem hi))

/-- THE DISTRIBUTIVE LAW, where all three are real numbers. -/
theorem mul_add_of_isFin {x a b : EReal} (hx : IsFin x) (ha : IsFin a) (hb : IsFin b) :
    x * (a + b) = x * a + x * b := by
  obtain ⟨r, rfl⟩ := (isFin_iff x).1 hx
  obtain ⟨s, rfl⟩ := (isFin_iff a).1 ha
  obtain ⟨t, rfl⟩ := (isFin_iff b).1 hb
  rw [← EReal.coe_add, ← EReal.coe_mul, ← EReal.coe_mul, ← EReal.coe_mul, ← EReal.coe_add, mul_add]

/-! ### Arrays -/

/-- Every entry of the array is a real number. -/
def IsFinV {s : Shape} (v : s.Idx → EReal) : Prop := ∀ i, IsFin (v i)

variable {s : Shape}

/-- An entrywise sum of finite arrays is finite. -/
theorem IsFinV.addf (a b : FVec Ideal s .f32) (ha : IsFinV a) (hb : IsFinV b) : IsFinV (addf a b) :=
  fun i => IsFin.add (ha i) (hb i)

/-- An entrywise maximum of finite arrays is finite. -/
theorem IsFinV.maximumf (a b : FVec Ideal s .f32) (ha : IsFinV a) (hb : IsFinV b) : IsFinV (maximumf a b) :=
  fun i => IsFin.max (ha i) (hb i)

/-- The array whose every entry is zero is finite. -/
theorem IsFinV.constant_zero (s : Shape) : IsFinV (constant (F := Ideal) s .f32 0x00000000#32) := by
  intro i
  rw [constant_apply, Ideal.ofBits_zero_f32]
  exact IsFin.zero

/-- The array whose every entry is one is finite. -/
theorem IsFinV.constant_one (s : Shape) : IsFinV (constant (F := Ideal) s .f32 0x3F800000#32) := by
  intro i
  rw [constant_apply, Ideal.ofBits_one_f32]
  exact IsFin.one

/-- A broadcast along axes reads, at every index, some entry of its operand. -/
theorem IsFinV.broadcastInDim {t : Shape} (dims : Fin s.rank → Fin t.rank) (h : s.BroadcastsInDim t dims)
    (x : s.Idx → EReal) (hx : IsFinV x) : IsFinV (broadcastInDim t dims h x) :=
  fun _ => hx _

/-- A reshape reads, at every index, some entry of its operand. -/
theorem IsFinV.shapeCast {t : Shape} (x : s.Idx → EReal) (h : s.ShapeCasts t) (hx : IsFinV x) :
    IsFinV (shapeCast t x h) :=
  fun _ => hx _

/-- The splat of a real number is finite. -/
theorem IsFinV.broadcast (t : Shape) {x : EReal} (hx : IsFin x) : IsFinV (broadcast t x) :=
  fun _ => hx

/-- A selection reads, at every index, the entry of one of its two operands there. -/
theorem IsFinV.select (c : IVec s 1) (a b : s.Idx → EReal) (ha : IsFinV a) (hb : IsFinV b) : IsFinV (select c a b) := by
  intro i
  rw [select_apply]
  unfold Scalar.select
  split
  · exact ha i
  · exact hb i

/-- A gather reads, at every index, some entry of its operand. -/
theorem IsFinV.gather {si t : Shape} {w : Nat} (d : GatherDims s si t) (x : s.Idx → EReal) (idx : IVec si w)
    (hx : IsFinV x) : IsFinV (Host.gather d x idx) :=
  fun _ => hx _

/-- An accumulating scatter at an index: the operand's entry plus the sum of the updates that land there. -/
theorem scatterAdd_apply {si u : Shape} {w : Nat} (d : ScatterDims s si u) (x : FVec Ideal s .f32) (idx : IVec si w)
    (upd : FVec Ideal u .f32) (i : s.Idx) :
    Host.scatterAdd d x idx upd i = x i + ∑ j ∈ Finset.univ.filter (fun j => d.resultIdx? j idx = some i), upd j := rfl

/-- An accumulating scatter of finite updates into a finite array is finite: each entry is a finite sum. -/
theorem IsFinV.scatterAdd {si u : Shape} {w : Nat} (d : ScatterDims s si u) (x : FVec Ideal s .f32) (idx : IVec si w)
    (upd : FVec Ideal u .f32) (hx : IsFinV x) (hu : IsFinV upd) : IsFinV (Host.scatterAdd d x idx upd) := by
  intro i
  rw [scatterAdd_apply]
  exact IsFin.add (hx i) (IsFin.sum _ _ fun j _ => hu j)

/-- An accumulating scatter of updates that are not negative into an array that is not negative is not negative. -/
theorem scatterAdd_ge {si u : Shape} {w : Nat} (d : ScatterDims s si u) (x : FVec Ideal s .f32) (idx : IVec si w)
    (upd : FVec Ideal u .f32) (hx : ∀ i, 0 ≤ x i) (hu : ∀ j, 0 ≤ upd j) :
    ∀ i, 0 ≤ Host.scatterAdd (F := Ideal) d x idx upd i := by
  intro i
  rw [scatterAdd_apply]
  exact add_nonneg (hx i) (Finset.sum_nonneg fun j _ => hu j)

/-- The quotient of a real number by a real number that is at least one is a real number. -/
theorem IsFin.div {x y : EReal} (hx : IsFin x) (hy : IsFin y) (h1 : (1 : EReal) ≤ y) : IsFin (Ideal.div x y) := by
  obtain ⟨r, rfl⟩ := (isFin_iff y).1 hy
  have h1r : (1 : ℝ) ≤ r := by exact_mod_cast h1
  have hr : r ≠ 0 := ne_of_gt (lt_of_lt_of_le one_pos h1r)
  rw [Ideal.div_coe hr]
  exact IsFin.mul hx (IsFin.coe _)

/-- An entrywise quotient of a finite array by a finite array whose entries are at least one is finite. -/
theorem IsFinV.divf (a b : FVec Ideal s .f32) (ha : IsFinV a) (hb : IsFinV b) (h1 : ∀ i, (1 : EReal) ≤ b i) :
    IsFinV (Host.divf a b) := by
  intro i
  rw [hostDivf_apply]
  exact IsFin.div (ha i) (hb i) (h1 i)

/-- A maximum with an array of ones is at least one everywhere. -/
theorem one_le_maximumf_of_eq_one (a b : FVec Ideal s .f32) (hb : ∀ i, b i = 1) :
    ∀ i, (1 : EReal) ≤ maximumf a b i := by
  intro i
  rw [maximumf_apply, hb i]
  exact le_max_right _ _

/-- A maximum with the constant array of ones is at least one everywhere. -/
theorem one_le_maximumf_one (a : FVec Ideal s .f32) :
    ∀ i, (1 : EReal) ≤ maximumf a (constant s .f32 0x3F800000#32) i :=
  one_le_maximumf_of_eq_one a _ fun i => by rw [constant_apply, Ideal.ofBits_one_f32]

/-- A matrix product of finite arrays is finite: each entry is a finite sum of products. -/
theorem IsFinV.dotGeneral {sl sr so : Shape} (d : DotDims sl sr so) (l : FVec Ideal sl .f32) (r : FVec Ideal sr .f32)
    (hl : IsFinV l) (hr : IsFinV r) : IsFinV (Host.dotGeneral (F := Ideal) d none l r) := by
  intro j
  show IsFin (FloatOps.dotGeneral d none .single l r j)
  rw [Ideal.dotGeneral_apply]
  exact IsFin.sum _ _ fun k _ => IsFin.mul (hl _) (hr _)

end Cert.Fin

end
-- ==== Proof.FinHost.lean ====
/-
  The arrays the reference's host program computes before its dense layers hold only real numbers, whatever integer
  words the inputs carry.  A degree or a graph size is an accumulation of ones into zero: a finite sum, a real number.
  Its reciprocal square root, or its reciprocal, is taken only behind the comparison "> 0", where it is a real number;
  elsewhere the entry is zero.  An edge weight is a product of two such factors, and one hop of the propagation
  accumulates, at each node, weights times features read through a gather: finite sums of products of real numbers.
  Gathers and accumulating scatters read and write at entries chosen by integer words, and which entries they choose
  does not matter here.
-/
import proofs.«420619_j84035330113568_1_alg».proof.Proof.RefDefs
import proofs.«420619_j84035330113568_1_alg».proof.Proof.LibFinite

noncomputable section

namespace Cert.RefVal

open Cert.Fin Cert.ReferenceIdeal Cert.ReferenceIdeal.Gen Cert.ReferenceIdeal.ReadP Idealize.ShloMosaic
  Idealize.ShloMosaic.ValueIdx

/-! ### Three facts at one number -/

/-- The reciprocal square root of a positive real number is a real number. -/
theorem rsqrt_isFin {x : EReal} (hx : IsFin x) (hpos : 0 < x) : IsFin (Ideal.rsqrt x) := by
  obtain ⟨r, rfl⟩ := (isFin_iff x).1 hx
  have hr : (0 : ℝ) < r := by exact_mod_cast hpos
  rw [Ideal.rsqrt_coe, if_neg (not_lt.2 hr.le), if_neg (ne_of_gt hr)]
  exact IsFin.coe _

/-- The quotient of a real number by a positive real number is a real number. -/
theorem div_isFin_of_pos {x y : EReal} (hx : IsFin x) (hy : IsFin y) (hpos : 0 < y) : IsFin (Ideal.div x y) := by
  obtain ⟨r, rfl⟩ := (isFin_iff y).1 hy
  have hr : (0 : ℝ) < r := by exact_mod_cast hpos
  rw [Ideal.div_coe (ne_of_gt hr)]
  exact IsFin.mul hx (IsFin.coe _)

/-- A choice guarded by the comparison `a > 0`: it is the first operand only where `a` is positive, and the second
    otherwise; so it is a real number when the second operand is one and the first is one wherever `a` is positive. -/
theorem select_ogt_isFin {a z x y : EReal} (hz : z = 0) (hy : IsFin y) (hx : 0 < a → IsFin x) :
    IsFin (Scalar.select (Ideal.cmp .ogt a z) x y) := by
  unfold Scalar.select
  split
  next h =>
    apply hx
    by_contra hlt
    have hlt' : ¬ z < a := by rw [hz]; exact hlt
    have h' : BitVec.ofBool (decide (z < a)) = 1 := h
    rw [decide_eq_false hlt'] at h'
    exact absurd h' (by decide)
  next _ => exact hy

/-- An entrywise product of finite arrays is finite. -/
theorem IsFinV_mulf {s : Shape} (a b : FVec Ideal s .f32) (ha : IsFinV a) (hb : IsFinV b) : IsFinV (mulf a b) :=
  fun i => IsFin.mul (ha i) (hb i)

/-- The splat of the word of zero is finite. -/
theorem splat_zero_fin (t : Shape) (h : (S_ : Shape).BroadcastsInDim t ![]) :
    IsFinV (broadcastInDim t ![] h (constant (F := Ideal) S_ .f32 0x00000000#32)) :=
  IsFinV.broadcastInDim _ _ _ (IsFinV.constant_zero S_)

/-- The splat of the word of one is finite. -/
theorem splat_one_fin (t : Shape) (h : (S_ : Shape).BroadcastsInDim t ![]) :
    IsFinV (broadcastInDim t ![] h (constant (F := Ideal) S_ .f32 0x3F800000#32)) :=
  IsFinV.broadcastInDim _ _ _ (IsFinV.constant_one S_)

/-! ### The node degrees and their reciprocal square roots -/

/-- A node's degree, an accumulation of ones into zero, is a real number. -/
theorem deg_fin (x0 : (⟨S2x6400000, .i32⟩ : BufTy).Contents (Elt Ideal)) :
    IsFinV (s := S200000) (val_main_v10 (F := Ideal) x0) :=
  IsFinV.scatterAdd _ _ _ _ (splat_zero_fin _ _) (splat_one_fin _ _)

/-- The threshold the degrees are compared with is zero. -/
theorem v11_zero (i : S200000.Idx) : val_main_v11 (F := Ideal) i = 0 := by
  rw [val_main_v11_apply, val_main_cst_1_apply]
  exact Ideal.ofBits_zero_f32

/-- The normalising factor of a node: the reciprocal square root of its degree where that is positive, zero elsewhere;
    a real number in both cases. -/
theorem dinv_fin (x0 : (⟨S2x6400000, .i32⟩ : BufTy).Contents (Elt Ideal)) :
    IsFinV (s := S200000) (val_main_v14 (F := Ideal) x0) := by
  intro i
  rw [val_main_v14_apply, val_main_v12_apply, val_main_v13_apply, Ideal.cmpf_def, Ideal.hostUnary_rsqrt_def]
  exact select_ogt_isFin (v11_zero i) (splat_zero_fin _ _ i) (fun h => rsqrt_isFin (deg_fin x0 i) h)

/-- An edge's weight, the product of its two ends' factors, is a real number. -/
theorem norm_fin (x0 : (⟨S2x6400000, .i32⟩ : BufTy).Contents (Elt Ideal)) :
    IsFinV (s := S6600000) (val_main_v29 (F := Ideal) x0) :=
  IsFinV_mulf _ _ (IsFinV.gather _ _ _ (dinv_fin x0)) (IsFinV.gather _ _ _ (dinv_fin x0))

/-! ### One hop of the propagation, and the four hops -/

/-- One hop: every edge carries its weight times the feature read at one end, and the other end accumulates what
    arrives. Finite weights and finite features give finite features. -/
theorem hop_fin (z x : FVec Ideal S200000x1 .f32) (n : FVec Ideal S6600000 .f32) (di gi : IVec S6600000x1 32)
    (hz : IsFinV z) (hn : IsFinV n) (hx : IsFinV x) :
    IsFinV (Host.scatterAdd scatter_S200000x1_S6600000x1_S6600000x1_1_0_0_1 z di
      (mulf (broadcastInDim S6600000x1 ![0] bcast_S6600000_S6600000x1_0 n)
        (Host.gather gather_S200000x1_S6600000x1_S6600000x1_1_0_n_n_0_1_11 x gi))) :=
  IsFinV.scatterAdd _ _ _ _ hz (IsFinV_mulf _ _ (IsFinV.broadcastInDim _ _ _ hn) (IsFinV.gather _ _ _ hx))

/-- The features after the first hop, from the column of ones. -/
theorem x1_fin (x0 : (⟨S2x6400000, .i32⟩ : BufTy).Contents (Elt Ideal)) :
    IsFinV (s := S200000x1) (val_main_v52 (F := Ideal) x0) :=
  hop_fin _ _ _ _ _ (splat_zero_fin _ _) (norm_fin x0) (splat_one_fin _ _)

/-- The features after the second hop. -/
theorem x2_fin (x0 : (⟨S2x6400000, .i32⟩ : BufTy).Contents (Elt Ideal)) :
    IsFinV (s := S200000x1) (val_main_v79 (F := Ideal) x0) :=
  hop_fin _ _ _ _ _ (splat_zero_fin _ _) (norm_fin x0) (x1_fin x0)

/-- The features after the third hop. -/
theorem x3_fin (x0 : (⟨S2x6400000, .i32⟩ : BufTy).Contents (Elt Ideal)) :
    IsFinV (s := S200000x1) (val_main_v106 (F := Ideal) x0) :=
  hop_fin _ _ _ _ _ (splat_zero_fin _ _) (norm_fin x0) (x2_fin x0)

/-- The features after the fourth hop. -/
theorem x4_fin (x0 : (⟨S2x6400000, .i32⟩ : BufTy).Contents (Elt Ideal)) :
    IsFinV (s := S200000x1) (val_main_v133 (F := Ideal) x0) :=
  hop_fin _ _ _ _ _ (splat_zero_fin _ _) (norm_fin x0) (x3_fin x0)

/-- Every propagated node feature is a real number. -/
theorem XR_fin (x0 : (⟨Cert.ReferenceIdeal.S2x6400000, .i32⟩ : BufTy).Contents (Elt Ideal)) (r : Fin 200000) (k : Fin 4) :
    Cert.Spec.Fin' (XR x0 r k) := by
  match k with
  | 0 => exact x1_fin x0 (ix2 r (0 : Fin 1))
  | 1 => exact x2_fin x0 (ix2 r (0 : Fin 1))
  | 2 => exact x3_fin x0 (ix2 r (0 : Fin 1))
  | 3 => exact x4_fin x0 (ix2 r (0 : Fin 1))

/-! ### The graph sizes and their reciprocals -/

/-- A graph's node count, an accumulation of ones into zero, is a real number. -/
theorem counts_fin (x1 : (⟨S200000, .i32⟩ : BufTy).Contents (Elt Ideal)) :
    IsFinV (s := S1024) (val_main_v34 (F := Ideal) x1) :=
  IsFinV.scatterAdd _ _ _ _ (splat_zero_fin _ _) (splat_one_fin _ _)

/-- The threshold the counts are compared with is zero. -/
theorem v35_zero (i : S1024.Idx) : val_main_v35 (F := Ideal) i = 0 := by
  rw [val_main_v35_apply, val_main_cst_9_apply]
  exact Ideal.ofBits_zero_f32

/-- The reciprocal size of a graph: one over its node count where that is positive, zero for an empty graph; a real
    number in both cases. -/
theorem icR_fin (x1 : (⟨Cert.ReferenceIdeal.S200000, .i32⟩ : BufTy).Contents (Elt Ideal)) (g : Fin 1024) :
    Cert.Spec.Fin' (icR x1 g) := by
  show IsFin (val_main_v39 (F := Ideal) x1 (ix1 g))
  rw [val_main_v39_apply, val_main_v36_apply, val_main_v38_apply, Ideal.cmpf_def, Ideal.hostDivf_def]
  exact select_ogt_isFin (v35_zero _) (splat_zero_fin _ _ _)
    (fun h => div_isFin_of_pos (splat_one_fin _ _ _) (counts_fin x1 _) h)

end Cert.RefVal

end
-- ==== Proof.LsmBridge.lean ====
import proofs.«420619_j84035330113568_1_alg».proof.Proof.Gen.KernelIdeal.Skeleton
import proofs.«420619_j84035330113568_1_alg».proof.Proof.Gen.ReferenceIdeal
import Idealize.ShloMosaic.PureOps.Ideal.Laws
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value

/-!
# The row-wise log-softmax, as the kernel and as the reference spell it

Both programs end by sending a score matrix `s : f32[1024, 64]` to
`out[g, q] = (s[g, q] - M[g]) - log (∑ j, exp (s[g, j] - M[g]))`, where `M[g] = max (-∞) (max_j s[g, j])`.
`KTail` is that map written with the vector unit's operations (a lane reduction, a column cast, a lane broadcast),
`RTail` with the host's (`reduce`, `broadcast_in_dim`). At the ideal values the two are one function: each vector
operation of the one is matched with the host operation of the other, as an equation between whole vectors.
-/

noncomputable section

namespace Cert.Bridge

open Idealize.ShloMosaic Idealize.SL.Sem Idealize.ShloMosaic.ValueIdx

section Tails

variable {F : FTy → Type} [FloatOps F]

open Cert.KernelIdeal Cert.KernelIdeal.Facts₀ Cert.KernelIdeal.Facts in
/-- The log-softmax of the rows of `v57`, in the vector unit's operations: the row maximum from `-∞`, joined once more
    with `-∞`, laid back along the lanes; the shifted scores; the row sum of their exponentials; its logarithm laid along
    the lanes and subtracted. -/
noncomputable def KTail (v57 : FVec F Cert.KernelIdeal.S1024x64 .f32) : FVec F Cert.KernelIdeal.S1024x64 .f32 :=
  have v58 : FVec F S1024 .f32 := multiReduction .maximumf [1] S1024 v57 0xFF800000#32 reduces_S1024x64_S1024 (.inl rfl) rfl
  have cst_18 : F .f32 := Scalar.ofBits .f32 0xFF800000#32
  have v59 : FVec F S1024 .f32 := broadcast S1024 cst_18
  have v60 : FVec F S1024 .f32 := maximumf v59 v58
  have v61 : FVec F S1024x1 .f32 := shapeCast S1024x1 v60 shapeCasts_S1024_S1024x1
  have v62 : FVec F S1024x64 .f32 := broadcastTo S1024x64 v61 broadcasts_S1024x1_S1024x64
  have v63 : FVec F S1024x64 .f32 := subf v57 v62
  have v64 : FVec F S1024x64 .f32 := exp v63
  have v65 : FVec F S1024 .f32 := multiReduction .add [1] S1024 v64 0x00000000#32 reduces_S1024x64_S1024 (.inl rfl) rfl
  have v66 : FVec F S1024x1 .f32 := shapeCast S1024x1 v65 shapeCasts_S1024_S1024x1
  have v67 : FVec F S1024x1 .f32 := log v66
  have v68 : FVec F S1024x64 .f32 := broadcastTo S1024x64 v67 broadcasts_S1024x1_S1024x64
  have v69 : FVec F S1024x64 .f32 := subf v63 v68
  v69

open Cert.KernelIdeal Cert.KernelIdeal.Facts₀ Cert.KernelIdeal.Facts in
/-- The kernel's last payload is `KTail` of the product it forms first. -/
theorem pay2_eq_KTail (v53 : Vec F Cert.KernelIdeal.S1024x1 .f32) (v55 : Vec F Cert.KernelIdeal.S1024x64 .f32) :
    Cert.KernelIdeal.Gen.k0_pay2 v53 v55
      = KTail (mulf v55 (broadcastTo S1024x64 (shapeCast S1024x1 v53 shapeCasts_S1024x1_S1024x1) broadcasts_S1024x1_S1024x64)) := rfl

open Cert.ReferenceIdeal Cert.ReferenceIdeal.Facts₀ Cert.ReferenceIdeal.Facts in
/-- The log-softmax of the rows of `s`, in the host's operations, in the order the reference applies them. -/
noncomputable def RTail (s : FVec F Cert.ReferenceIdeal.S1024x64 .f32) : FVec F Cert.ReferenceIdeal.S1024x64 .f32 :=
  have v0 : FVec F S1024 .f32 :=
    Host.reduce FloatOps.maximumf s (constant S_ .f32 0xFF800000#32) reducesTo_S1024x64_S1024_d1 h_S_
  have v1 : FVec F S1024 .f32 := broadcastInDim S1024 ![] bcast_S_S1024 (constant S_ .f32 0xFF800000#32)
  have v2 : FVec F S1024 .f32 := maximumf v1 v0
  have v3 : FVec F S1024x1 .f32 := broadcastInDim S1024x1 ![0] bcast_S1024_S1024x1_0 v2
  have v4 : FVec F S1024x64 .f32 := broadcastInDim S1024x64 ![0, 1] bcast_S1024x1_S1024x64_0_1 v3
  have v5 : FVec F S1024x64 .f32 := subf s v4
  have v6 : FVec F S1024x64 .f32 := Host.exp v5
  have v7 : FVec F S1024 .f32 :=
    Host.reduceAdd v6 (constant S_ .f32 0x00000000#32) reducesTo_S1024x64_S1024_d1 h_S_
  have v8 : FVec F S1024x1 .f32 := broadcastInDim S1024x1 ![0] bcast_S1024_S1024x1_0 v7
  have v9 : FVec F S1024x1 .f32 := Host.log v8
  have v10 : FVec F S1024x64 .f32 := broadcastInDim S1024x64 ![0, 1] bcast_S1024x1_S1024x64_0_1 v9
  subf v5 v10

end Tails

/-! ## The layout operations of the two spellings, joined -/

section Layout

variable {α : Type}

/-- A vector of 1024 entries cast to a column is the vector broadcast along axis 0 of `[1024, 1]`: at `(g, u)` both read
    entry `g` (the row-major position of `(g, u)` in a one-column matrix is `g`). -/
theorem shapeCast_col_eq_broadcastInDim (m : (⟨1, ![1024]⟩ : Shape).Idx → α)
    (h : (⟨1, ![1024]⟩ : Shape).ShapeCasts ⟨2, ![1024, 1]⟩)
    (h' : (⟨1, ![1024]⟩ : Shape).BroadcastsInDim ⟨2, ![1024, 1]⟩ ![0]) :
    shapeCast ⟨2, ![1024, 1]⟩ m h = broadcastInDim ⟨2, ![1024, 1]⟩ ![0] h' m := by
  funext i
  obtain ⟨g, u, rfl⟩ : ∃ (g : Fin 1024) (u : Fin 1), i = ix2 g u := ⟨i 0, i 1, eq_ix2 i⟩
  have e1 : shapeCast ⟨2, ![1024, 1]⟩ m h (ix2 g u) = m (ix1 g) :=
    shapeCast_apply m h _ _ (by
      have hu : u.val = 0 := by omega
      rw [Shape.rowMajor_val_two, Shape.rowMajor_val_one]
      show g.val = g.val * 1 + u.val
      rw [hu, Nat.mul_one, Nat.add_zero])
  have e2 : broadcastInDim ⟨2, ![1024, 1]⟩ ![0] h' m (ix2 g u) = m (ix1 g) :=
    broadcastInDim_apply ![0] h' m (ix2 g u) (ix1 g) fun a => by
      match a with
      | ⟨0, _⟩ =>
        show g.val = if (1024 : ℕ) = 1 then 0 else g.val
        rw [if_neg (by decide)]
  exact e1.trans e2.symm

/-- A column of 1024 entries laid along 64 lanes by the vector unit's broadcast is the host's broadcast along axes
    `[0, 1]`: at `(g, q)` both read the column at `(g, 0)`. -/
theorem broadcastTo_col_eq_broadcastInDim (c : (⟨2, ![1024, 1]⟩ : Shape).Idx → α)
    (h : (⟨2, ![1024, 1]⟩ : Shape).Broadcasts ⟨2, ![1024, 64]⟩)
    (h' : (⟨2, ![1024, 1]⟩ : Shape).BroadcastsInDim ⟨2, ![1024, 64]⟩ ![0, 1]) :
    broadcastTo ⟨2, ![1024, 64]⟩ c h = broadcastInDim ⟨2, ![1024, 64]⟩ ![0, 1] h' c := by
  funext i
  obtain ⟨g, q, rfl⟩ : ∃ (g : Fin 1024) (q : Fin 64), i = ix2 g q := ⟨i 0, i 1, eq_ix2 i⟩
  have e1 : broadcastTo ⟨2, ![1024, 64]⟩ c h (ix2 g q) = c (ix2 g (0 : Fin 1)) :=
    broadcastTo_apply c h (ix2 g q) (ix2 g (0 : Fin 1)) fun a => by
      match a with
      | ⟨0, _⟩ =>
        show g.val = if (1024 : ℕ) = 1 then 0 else g.val
        rw [if_neg (by decide)]
      | ⟨1, _⟩ =>
        show (0 : ℕ) = if (1 : ℕ) = 1 then 0 else q.val
        rw [if_pos rfl]
  have e2 : broadcastInDim ⟨2, ![1024, 64]⟩ ![0, 1] h' c (ix2 g q) = c (ix2 g (0 : Fin 1)) :=
    broadcastInDim_apply ![0, 1] h' c (ix2 g q) (ix2 g (0 : Fin 1)) fun a => by
      match a with
      | ⟨0, _⟩ =>
        show g.val = if (1024 : ℕ) = 1 then 0 else g.val
        rw [if_neg (by decide)]
      | ⟨1, _⟩ =>
        show (0 : ℕ) = if (1 : ℕ) = 1 then 0 else q.val
        rw [if_pos rfl]
  exact e1.trans e2.symm

end Layout

/-! ## The two reductions and the two transcendental maps, at the ideal values -/

section IdealOps

/-- The row maximum from `-∞`: the vector unit's lane reduction and the host's `reduce` with a `maximum` body are both
    the fold of `max` over the 64 lanes of the row, from the value of the pattern `0xFF800000`. -/
theorem rowMax_eq (s : FVec Ideal (⟨2, ![1024, 64]⟩ : Shape) .f32)
    (h : (⟨2, ![1024, 64]⟩ : Shape).Reduces [1] ⟨1, ![1024]⟩) (hφ : FKind.Formats .f32)
    (hacc : (0xFF800000#32 : BitVec 32) = FKind.maximumf.neutral .f32 hφ)
    (h' : (⟨2, ![1024, 64]⟩ : Shape).ReducesTo [1] ⟨1, ![1024]⟩) (hu : 0 < (⟨0, ![]⟩ : Shape).numel) :
    multiReduction .maximumf [1] ⟨1, ![1024]⟩ s 0xFF800000#32 h hφ hacc
      = Host.reduce FloatOps.maximumf s (constant (F := Ideal) ⟨0, ![]⟩ .f32 0xFF800000#32) h' hu := by
  funext j
  refine (Ideal.multiReduction_maximumf_single s 0xFF800000#32 h hφ hacc j).trans (Eq.symm ?_)
  exact Host.reduce_eq_fold_single FloatOps.maximumf s _ h' h hu j

/-- The vector unit's exponential and the host's are the same map of the extended reals. -/
theorem exp_eq_hostExp {S : Shape} (x : FVec Ideal S .f32) : exp x = Host.exp x := rfl

/-- The vector unit's logarithm and the host's are the same map of the extended reals. -/
theorem log_eq_hostLog {S : Shape} (x : FVec Ideal S .f32) : log x = Host.log x := rfl

end IdealOps

/-! ## The two tails are one function -/

open Cert.KernelIdeal Cert.KernelIdeal.Facts₀ Cert.KernelIdeal.Facts in
/-- At the ideal values the kernel's log-softmax tail and the reference's agree on every score matrix. -/
theorem tail_eq (s : FVec Ideal Cert.KernelIdeal.S1024x64 .f32) : KTail (F := Ideal) s = RTail (F := Ideal) s := by
  -- the row maximum joined with `-∞`: the splat of `-∞` is the host's broadcast of the constant, and the two
  -- reductions are one fold of `max` over the lanes
  have hM : maximumf (broadcast S1024 (Scalar.ofBits (F := Ideal) .f32 0xFF800000#32))
        (multiReduction .maximumf [1] S1024 s 0xFF800000#32 reduces_S1024x64_S1024 (.inl rfl) rfl)
      = maximumf
          (broadcastInDim Cert.ReferenceIdeal.S1024 ![] Cert.ReferenceIdeal.Facts₀.bcast_S_S1024
            (constant (F := Ideal) Cert.ReferenceIdeal.S_ .f32 0xFF800000#32))
          (Host.reduce FloatOps.maximumf s (constant (F := Ideal) Cert.ReferenceIdeal.S_ .f32 0xFF800000#32)
            Cert.ReferenceIdeal.Facts₀.reducesTo_S1024x64_S1024_d1 Cert.ReferenceIdeal.Facts₀.h_S_) := by
    have e1 : broadcast S1024 (Scalar.ofBits (F := Ideal) .f32 0xFF800000#32)
        = broadcastInDim Cert.ReferenceIdeal.S1024 ![] Cert.ReferenceIdeal.Facts₀.bcast_S_S1024
            (constant (F := Ideal) Cert.ReferenceIdeal.S_ .f32 0xFF800000#32) :=
      (broadcastInDim_constant (F := Ideal) (s := Cert.ReferenceIdeal.S_) (t := Cert.ReferenceIdeal.S1024) (φ := .f32)
        ![] Cert.ReferenceIdeal.Facts₀.bcast_S_S1024 0xFF800000#32).symm
    have e2 : multiReduction .maximumf [1] S1024 s 0xFF800000#32 reduces_S1024x64_S1024 (.inl rfl) rfl
        = Host.reduce FloatOps.maximumf s (constant (F := Ideal) Cert.ReferenceIdeal.S_ .f32 0xFF800000#32)
            Cert.ReferenceIdeal.Facts₀.reducesTo_S1024x64_S1024_d1 Cert.ReferenceIdeal.Facts₀.h_S_ :=
      rowMax_eq s reduces_S1024x64_S1024 (.inl rfl) rfl _ _
    rw [e1, e2]
  -- the row sum: the lane reduction from the neutral zero is the host's sum from an initial value that is zero
  have hSum : ∀ x : FVec Ideal Cert.KernelIdeal.S1024x64 .f32,
      multiReduction .add [1] S1024 x 0x00000000#32 reduces_S1024x64_S1024 (.inl rfl) rfl
        = Host.reduceAdd x (constant (F := Ideal) Cert.ReferenceIdeal.S_ .f32 0x00000000#32)
            Cert.ReferenceIdeal.Facts₀.reducesTo_S1024x64_S1024_d1 Cert.ReferenceIdeal.Facts₀.h_S_ := fun x =>
    multiReduction_add_eq_hostReduceAdd x 0x00000000#32 reduces_S1024x64_S1024 (.inl rfl) rfl _ _ _
      Ideal.ofBits_zero_f32
  unfold KTail RTail
  simp only [shapeCast_col_eq_broadcastInDim _ _ Cert.ReferenceIdeal.Facts₀.bcast_S1024_S1024x1_0,
    broadcastTo_col_eq_broadcastInDim _ _ Cert.ReferenceIdeal.Facts₀.bcast_S1024x1_S1024x64_0_1, hM, hSum]
  rfl

end Cert.Bridge
-- ==== Proof.RefTail.lean ====
/-
  The reference's result is its log-softmax tail applied to its score matrix: the twelve host operations after the
  score stage, unfolded, are the tail function read at that stage.
-/
import proofs.«420619_j84035330113568_1_alg».proof.Proof.RefReadP
import proofs.«420619_j84035330113568_1_alg».proof.Proof.LsmBridge

noncomputable section

namespace Cert.RefVal

open Cert.ReferenceIdeal Cert.ReferenceIdeal.Gen Cert.ReferenceIdeal.ReadP Idealize.ShloMosaic

variable {F : FTy → Type} [FloatOps F]

theorem v149_eq_RTail (x0 : (⟨S2x6400000, .i32⟩ : BufTy).Contents (Elt F)) (x1 : (⟨S200000, .i32⟩ : BufTy).Contents (Elt F))
    (x2 : (⟨S4x1x64, .f32⟩ : BufTy).Contents (Elt F)) (x3 : (⟨S4x64, .f32⟩ : BufTy).Contents (Elt F)) :
    val_main_v149 (F := F) x0 x1 x2 x3 = Cert.Bridge.RTail (F := F) (val_main_v148 (F := F) x0 x1 x2 x3) := by
  unfold val_main_v149 val_main_call2_v10 val_main_call2_v9 val_main_call2_v8 val_main_call2_v7 val_main_call2_cst_1
    val_main_call2_v6 val_main_call2_v5 val_main_call2_v4 val_main_call2_v3 val_main_call2_v2 val_main_call2_v1
    val_main_call2_cst_0 val_main_call2_v0 val_main_call2_cst Cert.Bridge.RTail
  generalize val_main_v148 (F := F) x0 x1 x2 x3 = s
  rfl

end Cert.RefVal

end
-- ==== Proof.PreFin.lean ====
/-
  The precondition read back: when the printed predicate "every entry of W and of b is smaller in absolute value
  than +infinity" holds, every entry of the two arrays is a real number.  At the ideal instance an entry x is an
  extended real, |x| is max x (-x), and max x (-x) < ⊤ rules out both infinities.
-/
import proofs.«420619_j84035330113568_1_alg».proof.Pre_finite_inputs
import proofs.«420619_j84035330113568_1_alg».proof.Proof.Gen.Pre_finite_inputs
import proofs.«420619_j84035330113568_1_alg».proof.Proof.Spec
import Idealize.ShloMosaic.PureOps.Ideal
import Idealize.ShloMosaic.Lib.ReduceAll
import Idealize.ShloMosaic.Lib.ValueIdx

noncomputable section

namespace Cert.PreFin

open Idealize.ShloMosaic Cert.Pre_finite_inputs Cert.Pre_finite_inputs.Facts

instance : Subsingleton S_.Idx := ⟨fun a b => funext fun d => d.elim0⟩

/-- An extended real whose absolute value is below +infinity is finite. -/
theorem fin_of_abs_lt_top (x : EReal) (h : max x (-x) < ⊤) : Cert.Spec.Fin' x := by
  refine ⟨fun e => ?_, fun e => ?_⟩
  · subst e; simp at h
  · subst e; simp at h

/-- The comparison "|x| < the word 0x7F800000" came out true: x is finite. -/
theorem fin_of_cmp (x : EReal) (h : Ideal.cmp .olt (max x (-x)) (Ideal.ofBits .f32 0x7F800000#32) = 1#1) :
    Cert.Spec.Fin' x := by
  have htop : Ideal.ofBits .f32 0x7F800000#32 = (⊤ : EReal) := by simp [Ideal.ofBits, Ideal.ieee]
  rw [htop] at h
  refine fin_of_abs_lt_top x ?_
  by_contra hn
  simp [Ideal.cmp, hn] at h

/-- Under the precondition every weight and every bias is a real number. -/
theorem pre_fin (x0 : IVec S2x6400000 32) (x1 : IVec S200000 32) (x2 : FVec Ideal S4x1x64 .f32) (x3 : FVec Ideal S4x64 .f32)
    (h : fn (F := Ideal) x0 x1 x2 x3 = fun _ => 1#1) :
    (∀ i, Cert.Spec.Fin' (x2 i)) ∧ (∀ i, Cert.Spec.Fin' (x3 i)) := by
  have h0 := congrFun h ValueIdx.ix0
  dsimp only [fn] at h0
  obtain ⟨hW, hb⟩ := IntOp.andi_eq_one.1 h0
  constructor
  · intro i
    have := Host.reduce_andi_all _ _ _ _ _ hW i
    exact fin_of_cmp (x2 i) this
  · intro i
    have := Host.reduce_andi_all _ _ _ _ _ hb i
    exact fin_of_cmp (x3 i) this

end Cert.PreFin

end
-- ==== Proof.Pool.lean ====
/-
  The two programs meet.  The kernel leaves in its output array the row-wise log-softmax of its score matrix
  S_K = (final accumulator) · (reciprocal graph sizes), the reference the row-wise log-softmax of its score matrix S_R
  (the four hops' scaled pools added).  Entry (g, q) of S_K is the sum over all nodes of [node in graph g] times the
  node's summed score, scaled; entry (g, q) of S_R adds the four hops' separately pooled and scaled linear layers.
  The host operations feeding both (propagated features, reciprocal sizes) are the same functions of the inputs and
  yield finite numbers, the weights and biases are finite by the precondition, so linearity of pooling over the reals
  makes the two entries equal; the two log-softmax tails are one function at the ideal instance.
-/
import proofs.«420619_j84035330113568_1_alg».proof.Proof.KIValue
import proofs.«420619_j84035330113568_1_alg».proof.Proof.KIRead
import proofs.«420619_j84035330113568_1_alg».proof.Proof.KHost
import proofs.«420619_j84035330113568_1_alg».proof.Proof.RefScore
import proofs.«420619_j84035330113568_1_alg».proof.Proof.FinHost
import proofs.«420619_j84035330113568_1_alg».proof.Proof.RefTail
import proofs.«420619_j84035330113568_1_alg».proof.Proof.PreFin
import proofs.«420619_j84035330113568_1_alg».proof.Proof.LsmBridge
import Idealize.ShloMosaic.Lib.Pipeline.Value
import Idealize.ShloMosaic.Lib.ValueIdx

noncomputable section

namespace Cert.Pool

open Cert.KernelIdeal Cert.KernelIdeal.Gen Cert.KernelIdeal.Fr Cert.KernelIdeal.Val
open Idealize.ShloMosaic Idealize.ShloMosaic.TcCoe Idealize.ShloMosaic.ValueIdx Idealize.SL.Sem

variable (m : (ℓ : Loc nD τ sig) → Buf (Elt Ideal) ℓ)

/-- A column [1024, 1] laid along 64 lanes, read at (g, q), is the column at (g, 0). -/
theorem col_apply (v : Vec Ideal S1024x1 .f32) (g : Fin 1024) (q : Fin 64) :
    broadcastTo S1024x64 (shapeCast S1024x1 v shapeCasts_S1024x1_S1024x1) broadcasts_S1024x1_S1024x64 (ix2 g q)
      = v (ix2 g (0 : Fin 1)) := by
  rw [shapeCast_self]
  exact broadcastTo_apply v broadcasts_S1024x1_S1024x64 (ix2 g q) (ix2 g (0 : Fin 1)) fun a => by
    match a with
    | ⟨0, _⟩ =>
      show g.val = if (1024 : ℕ) = 1 then 0 else g.val
      rw [if_neg (by decide)]
    | ⟨1, _⟩ =>
      show (0 : ℕ) = if (1 : ℕ) = 1 then 0 else q.val
      rw [if_pos rfl]

/-- The kernel's score matrix: the final accumulator scaled row by row by the reciprocal graph sizes. -/
def SK (c : Dev nD) : FVec Ideal S1024x64 .f32 :=
  mulf (acc m c 49 lastPt)
    (broadcastTo S1024x64 (shapeCast S1024x1 (iblk m c 4 ⟨49, lastPt⟩) shapeCasts_S1024x1_S1024x1) broadcasts_S1024x1_S1024x64)

/-- The kernel's output is the log-softmax tail of its score matrix. -/
theorem outK_eq (c : Dev nD) : outK m c = Cert.Bridge.KTail (F := Ideal) (SK m c) :=
  Cert.Bridge.pay2_eq_KTail _ _

/-- Entry (g, q) of the kernel's score matrix in the reference's data. -/
theorem SK_apply (c : Dev nD) (g : Fin 1024) (q : Fin 64) :
    SK m c (ix2 g q) = Cert.Spec.scoreK (Cert.RefVal.XR (m ((c : Thread nD τ).loc main_arg0)))
      (Cert.RefVal.WR (m ((c : Thread nD τ).loc main_arg2))) (Cert.RefVal.bR (m ((c : Thread nD τ).loc main_arg3)))
      (Cert.RefVal.btR (m ((c : Thread nD τ).loc main_arg1))) (Cert.RefVal.icR (m ((c : Thread nD τ).loc main_arg1))) g q := by
  have hX : (fun (r : Fin 200000) (k : Fin 4) => (V m c main_v79 : S200000x4.Idx → EReal) (ix2 r k))
      = Cert.RefVal.XR (m ((c : Thread nD τ).loc main_arg0)) := funext fun r => funext fun k => Cert.KHost.X_apply m c r k
  have hbt : (fun (r : Fin 200000) => (V m c main_v93 : S200000x1.Idx → BitVec 32) (ix2 r (0 : Fin 1)))
      = Cert.RefVal.btR (m ((c : Thread nD τ).loc main_arg1)) := funext fun r => Cert.KHost.bt_apply m c r
  have hW : (fun (k : Fin 4) (q : Fin 64) => (V m c main_v90 : S4x64.Idx → EReal) (ix2 k q))
      = Cert.RefVal.WR (m ((c : Thread nD τ).loc main_arg2)) := funext fun k => funext fun q => Cert.KHost.W_apply m c k q
  have hbs : (fun (q : Fin 64) => (V m c main_v92 : S1x64.Idx → EReal) (ix2 (0 : Fin 1) q))
      = Cert.Spec.bsum (Cert.RefVal.bR (m ((c : Thread nD τ).loc main_arg3))) := funext fun q => Cert.KHost.bs_apply m c q
  unfold SK
  rw [mulf_apply, col_apply, acc_apply, iblk4_eq, hX, hbt, hW, hbs, Cert.KHost.ic_apply]
  rfl

/-- With finite weights and biases the kernel's score matrix is the reference's score stage. -/
theorem SK_eq_ref (c : Dev nD)
    (hW : ∀ i, Cert.Spec.Fin' ((m ((c : Thread nD τ).loc main_arg2) : S4x1x64.Idx → EReal) i))
    (hb : ∀ i, Cert.Spec.Fin' ((m ((c : Thread nD τ).loc main_arg3) : S4x64.Idx → EReal) i)) :
    SK m c = Cert.ReferenceIdeal.ReadP.val_main_v148 (F := Ideal) (m ((c : Thread nD τ).loc main_arg0))
      (m ((c : Thread nD τ).loc main_arg1)) (m ((c : Thread nD τ).loc main_arg2)) (m ((c : Thread nD τ).loc main_arg3)) := by
  funext i
  obtain ⟨g, q, rfl⟩ : ∃ (g : Fin 1024) (q : Fin 64), i = ix2 g q := ⟨i 0, i 1, eq_ix2 i⟩
  rw [SK_apply, Cert.RefVal.score_apply]
  exact Cert.Spec.score_eq _ _ _ _ _ (fun r k => Cert.RefVal.XR_fin _ r k) (fun k q => hW _) (fun k q => hb _)
    (fun g => Cert.RefVal.icR_fin _ g) g q

end Cert.Pool

end
-- ==== Proof.lean ====
/-
  A graph-network classification head: four hops of a sparse, degree-normalised propagation give every node four
  features; each hop has a linear layer into 64 classes; the nodes' class scores are pooled per graph (mean over the
  graph's nodes), the four hops' pools added, and a row-wise log-softmax taken.  The kernel fuses the four linear layers
  and pools once, with a one-hot matrix product accumulated over 50 tiles of 4000 nodes; the reference pools hop by hop
  with scatter-adds.  Over the extended reals, with finite weights and biases, the two are one function: the host
  operations that prepare features and reciprocal graph sizes are common to both and yield finite numbers, pooling is
  linear, and the two spellings of log-softmax agree.
  The three programs each run to the end, fault nowhere and leave their inputs unchanged: for the two kernel programs
  by the pipeline's frame run over the body's three cases (first grid point: the accumulator is reset; middle points;
  last point: the output is stored), for the reference by its host run.  The idealization rewrote nothing.
-/
import proofs.«420619_j84035330113568_1_alg».proof.Defs
import proofs.«420619_j84035330113568_1_alg».proof.Proof.Gen.Kernel
import proofs.«420619_j84035330113568_1_alg».proof.Proof.Gen.KernelIdeal
import proofs.«420619_j84035330113568_1_alg».proof.Proof.Gen.ReferenceIdeal
import proofs.«420619_j84035330113568_1_alg».proof.Proof.Gen.Pre_finite_inputs
import proofs.«420619_j84035330113568_1_alg».proof.Proof.KFrame
import proofs.«420619_j84035330113568_1_alg».proof.Proof.KIFrame
import proofs.«420619_j84035330113568_1_alg».proof.Proof.KIValue
import proofs.«420619_j84035330113568_1_alg».proof.Proof.Pool
import proofs.«420619_j84035330113568_1_alg».proof.Proof.RefRunP
import proofs.«420619_j84035330113568_1_alg».proof.Proof.RefReadP
import proofs.«420619_j84035330113568_1_alg».proof.Proof.RefTail
import proofs.«420619_j84035330113568_1_alg».proof.Proof.PreFin
import Idealize.ShloMosaic.Adequacy
import Idealize.ShloMosaic.Init

noncomputable section

namespace Cert.Proof

open Idealize.ShloMosaic Idealize.ShloMosaic.TcCoe Idealize.SL.Sem

/-- The word-level kernel program runs and keeps its inputs. -/
theorem frame_k : Cert.frame_Kernel := fun m ρ _ => Cert.Kernel.Fr.frame m ρ

/-- The idealized kernel program runs and keeps its inputs. -/
theorem frame_ki : Cert.frame_KernelIdeal := fun m ρ _ => Cert.KernelIdeal.Fr.frame m ρ

/-- The reference runs and keeps its inputs: its host run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with the same array: the log-softmax tail of one score matrix. -/
theorem algebraic : Cert.algebraic_KernelIdeal_ReferenceIdeal := by
  intro m ρ m' ρ' hpre hagree
  refine ⟨fun c => Cert.KernelIdeal.Val.outK m c, Cert.KernelIdeal.Val.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨hW, hb⟩ := Cert.PreFin.pre_fin _ _ _ _ (hpre c)
  rw [Cert.ReferenceIdeal.ReadP.val_main_v149_eq, (hagree c).1, (hagree c).2.1, (hagree c).2.2.1, (hagree c).2.2.2,
    Cert.RefVal.v149_eq_RTail]
  show Cert.Bridge.RTail (F := Ideal) _ = Cert.KernelIdeal.Val.outK m c
  rw [Cert.Pool.outK_eq, Cert.Pool.SK_eq_ref m c hW hb]
  exact (Cert.Bridge.tail_eq _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
